-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x256x256 : Shape := ⟨4, ![1, 256, 256, 256]⟩
abbrev S4096x2x16x16x16 : Shape := ⟨5, ![4096, 2, 16, 16, 16]⟩
abbrev S585x3 : Shape := ⟨2, ![585, 3]⟩
abbrev S_ : Shape := ⟨0, ![]⟩

class Facts : Prop where
  bcast_S_S4096x2x16x16x16 : S_.BroadcastsInDim S4096x2x16x16x16 (![] : Fin 0 → Fin S4096x2x16x16x16.rank)
  reducesTo_S4096x2x16x16x16_S_d0_1_2_3_4 : S4096x2x16x16x16.ReducesTo [0, 1, 2, 3, 4] S_
  h_S_ : 0 < S_.numel
  bcast_S_S585x3 : S_.BroadcastsInDim S585x3 (![] : Fin 0 → Fin S585x3.rank)
  reducesTo_S585x3_S_d0_1 : S585x3.ReducesTo [0, 1] S_
  bcast_S_S1x256x256x256 : S_.BroadcastsInDim S1x256x256x256 (![] : Fin 0 → Fin S1x256x256x256.rank)
  reducesTo_S1x256x256x256_S_d0_1_2_3 : S1x256x256x256.ReducesTo [0, 1, 2, 3] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S1x256x256x256 32) (main_arg1 : FVec F S4096x2x16x16x16 .f32) (main_arg2 : FVec F S585x3 .f32) : IVec S_ 1 :=
  let main_v0 : FVec F S4096x2x16x16x16 .f32 := Host.absf main_arg1
  let main_cst : FVec F S_ .f32 := constant S_ .f32 0x7F800000#32
  let main_v1 : FVec F S4096x2x16x16x16 .f32 := broadcastInDim S4096x2x16x16x16 ![] bcast_S_S4096x2x16x16x16 main_cst
  let main_v2 : IVec S4096x2x16x16x16 1 := cmpf .olt main_v0 main_v1
  let main_c : IVec S_ 1 := constantI S_ 1 1#1
  let main_v3 : IVec S_ 1 := (fun x v => Host.reduce IntOp.andi x v reducesTo_S4096x2x16x16x16_S_d0_1_2_3_4 h_S_) main_v2 main_c
  let main_v4 : FVec F S585x3 .f32 := Host.absf main_arg2
  let main_cst_0 : FVec F S_ .f32 := constant S_ .f32 0x7F800000#32
  let main_v5 : FVec F S585x3 .f32 := broadcastInDim S585x3 ![] bcast_S_S585x3 main_cst_0
  let main_v6 : IVec S585x3 1 := cmpf .olt main_v4 main_v5
  let main_c_1 : IVec S_ 1 := constantI S_ 1 1#1
  let main_v7 : IVec S_ 1 := (fun x v => Host.reduce IntOp.andi x v reducesTo_S585x3_S_d0_1 h_S_) main_v6 main_c_1
  let main_v8 : IVec S_ 1 := andi main_v3 main_v7
  let main_c_2 : IVec S_ 32 := constantI S_ 32 0#32
  let main_v9 : IVec S1x256x256x256 32 := broadcastInDim S1x256x256x256 ![] bcast_S_S1x256x256x256 main_c_2
  let main_v10 : IVec S1x256x256x256 1 := cmpi .sge main_arg0 main_v9
  let main_c_3 : IVec S_ 1 := constantI S_ 1 1#1
  let main_v11 : IVec S_ 1 := (fun x v => Host.reduce IntOp.andi x v reducesTo_S1x256x256x256_S_d0_1_2_3 h_S_) main_v10 main_c_3
  let main_v12 : IVec S_ 1 := andi main_v8 main_v11
  let main_c_4 : IVec S_ 32 := constantI S_ 32 2#32
  let main_v13 : IVec S1x256x256x256 32 := broadcastInDim S1x256x256x256 ![] bcast_S_S1x256x256x256 main_c_4
  let main_v14 : IVec S1x256x256x256 1 := cmpi .slt main_arg0 main_v13
  let main_c_5 : IVec S_ 1 := constantI S_ 1 1#1
  let main_v15 : IVec S_ 1 := (fun x v => Host.reduce IntOp.andi x v reducesTo_S1x256x256x256_S_d0_1_2_3 h_S_) main_v14 main_c_5
  fn_part1 (F := F) main_v12 main_v15
-- ==== Kernel.lean ====
abbrev S1x256x256x256 : Shape := ⟨4, ![1, 256, 256, 256]⟩
abbrev S4096x2x16x16x16 : Shape := ⟨5, ![4096, 2, 16, 16, 16]⟩
abbrev S585x3 : Shape := ⟨2, ![585, 3]⟩
abbrev S256x256x256 : Shape := ⟨3, ![256, 256, 256]⟩
abbrev S16x16x16x16x16x16 : Shape := ⟨6, ![16, 16, 16, 16, 16, 16]⟩
abbrev S4096x16x16x16 : Shape := ⟨4, ![4096, 16, 16, 16]⟩
abbrev S4096x32x128 : Shape := ⟨3, ![4096, 32, 128]⟩
abbrev S4096x2x32x128 : Shape := ⟨4, ![4096, 2, 32, 128]⟩
abbrev S1x1 : Shape := ⟨2, ![1, 1]⟩
abbrev S128x2x32x128 : Shape := ⟨4, ![128, 2, 32, 128]⟩
abbrev S128x32x128 : Shape := ⟨3, ![128, 32, 128]⟩
abbrev S128x1x32x128 : Shape := ⟨4, ![128, 1, 32, 128]⟩
abbrev S128x32 : Shape := ⟨2, ![128, 32]⟩
abbrev S128x32x1 : Shape := ⟨3, ![128, 32, 1]⟩
abbrev S128x1 : Shape := ⟨2, ![128, 1]⟩
abbrev S128x1x1 : Shape := ⟨3, ![128, 1, 1]⟩
abbrev S1x1x1 : Shape := ⟨3, ![1, 1, 1]⟩
abbrev S_ : Shape := ⟨0, ![]⟩
abbrev S8x32x8x32x8x32 : Shape := ⟨6, ![8, 32, 8, 32, 8, 32]⟩
abbrev S8x8x8x32x32x32 : Shape := ⟨6, ![8, 8, 8, 32, 32, 32]⟩
abbrev S512x32x32x32 : Shape := ⟨4, ![512, 32, 32, 32]⟩
abbrev S512x32768 : Shape := ⟨2, ![512, 32768]⟩
abbrev S512 : Shape := ⟨1, ![512]⟩
abbrev S512x3 : Shape := ⟨2, ![512, 3]⟩
abbrev S512x1 : Shape := ⟨2, ![512, 1]⟩
abbrev S512x1x1 : Shape := ⟨3, ![512, 1, 1]⟩
abbrev S1 : Shape := ⟨1, ![1]⟩
abbrev S4x64x4x64x4x64 : Shape := ⟨6, ![4, 64, 4, 64, 4, 64]⟩
abbrev S4x4x4x64x64x64 : Shape := ⟨6, ![4, 4, 4, 64, 64, 64]⟩
abbrev S64x64x64x64 : Shape := ⟨4, ![64, 64, 64, 64]⟩
abbrev S64x262144 : Shape := ⟨2, ![64, 262144]⟩
abbrev S64 : Shape := ⟨1, ![64]⟩
abbrev S64x3 : Shape := ⟨2, ![64, 3]⟩
abbrev S64x1 : Shape := ⟨2, ![64, 1]⟩
abbrev S64x1x1 : Shape := ⟨3, ![64, 1, 1]⟩
abbrev S2x128x2x128x2x128 : Shape := ⟨6, ![2, 128, 2, 128, 2, 128]⟩
abbrev S2x2x2x128x128x128 : Shape := ⟨6, ![2, 2, 2, 128, 128, 128]⟩
abbrev S8x128x128x128 : Shape := ⟨4, ![8, 128, 128, 128]⟩
abbrev S8x2097152 : Shape := ⟨2, ![8, 2097152]⟩
abbrev S8 : Shape := ⟨1, ![8]⟩
abbrev S8x3 : Shape := ⟨2, ![8, 3]⟩
abbrev S8x1 : Shape := ⟨2, ![8, 1]⟩
abbrev S8x1x1 : Shape := ⟨3, ![8, 1, 1]⟩
abbrev S1x256x1x256x1x256 : Shape := ⟨6, ![1, 256, 1, 256, 1, 256]⟩
abbrev S1x1x1x256x256x256 : Shape := ⟨6, ![1, 1, 1, 256, 256, 256]⟩
abbrev S1x16777216 : Shape := ⟨2, ![1, 16777216]⟩
abbrev S1x3 : Shape := ⟨2, ![1, 3]⟩

abbrev nBuf : Space → Nat
  | .hbm => 174
  | .vmem => 5
  | .smem => 0
  | _ => 0

abbrev hbmTy0_0 (i : Nat) : BufTy := match i % 128 with
  | 0 => ⟨S1x256x256x256, .i32⟩
  | 1 => ⟨S4096x2x16x16x16, .f32⟩
  | 2 => ⟨S585x3, .f32⟩
  | 3 => ⟨S256x256x256, .i32⟩
  | 4 => ⟨S16x16x16x16x16x16, .i32⟩
  | 5 => ⟨S16x16x16x16x16x16, .i32⟩
  | 6 => ⟨S4096x16x16x16, .i32⟩
  | 7 => ⟨S4096x32x128, .i32⟩
  | 8 => ⟨S4096x2x32x128, .f32⟩
  | 9 => ⟨S1x1, .f32⟩
  | 10 => ⟨S_, .f32⟩
  | 11 => ⟨S8x32x8x32x8x32, .i32⟩
  | 12 => ⟨S8x8x8x32x32x32, .i32⟩
  | 13 => ⟨S512x32x32x32, .i32⟩
  | 14 => ⟨S512x32768, .i32⟩
  | 15 => ⟨S_, .i32⟩
  | 16 => ⟨S512, .i32⟩
  | 17 => ⟨S_, .i32⟩
  | 18 => ⟨S512, .i32⟩
  | 19 => ⟨S512, .i1⟩
  | 20 => ⟨S_, .i32⟩
  | 21 => ⟨S_, .i32⟩
  | 22 => ⟨S512, .i32⟩
  | 23 => ⟨S512, .i32⟩
  | 24 => ⟨S512x3, .f32⟩
  | 25 => ⟨S512x1, .i32⟩
  | 26 => ⟨S_, .i32⟩
  | 27 => ⟨S512x1, .i32⟩
  | 28 => ⟨S512x1, .i1⟩
  | 29 => ⟨S_, .i32⟩
  | 30 => ⟨S512x1, .i32⟩
  | 31 => ⟨S512x1, .i32⟩
  | 32 => ⟨S512x1, .i32⟩
  | 33 => ⟨S512x1x1, .i32⟩
  | 34 => ⟨S1, .i32⟩
  | 35 => ⟨S_, .i32⟩
  | 36 => ⟨S512x1x1, .i32⟩
  | 37 => ⟨S512x1x1, .i1⟩
  | 38 => ⟨S1x1x1, .i32⟩
  | 39 => ⟨S512x1x1, .i32⟩
  | 40 => ⟨S512x1x1, .i1⟩
  | 41 => ⟨S512x1x1, .i1⟩
  | 42 => ⟨S_, .i1⟩
  | 43 => ⟨S512x1, .i1⟩
  | 44 => ⟨S512x1, .f32⟩
  | 45 => ⟨S_, .f32⟩
  | 46 => ⟨S512x1, .f32⟩
  | 47 => ⟨S512x1, .f32⟩
  | 48 => ⟨S512x1, .f32⟩
  | 49 => ⟨S_, .f32⟩
  | 50 => ⟨S_, .f32⟩
  | 51 => ⟨S_, .f32⟩
  | 52 => ⟨S4x64x4x64x4x64, .i32⟩
  | 53 => ⟨S4x4x4x64x64x64, .i32⟩
  | 54 => ⟨S64x64x64x64, .i32⟩
  | 55 => ⟨S64x262144, .i32⟩
  | 56 => ⟨S_, .i32⟩
  | 57 => ⟨S64, .i32⟩
  | 58 => ⟨S_, .i32⟩
  | 59 => ⟨S64, .i32⟩
  | 60 => ⟨S64, .i1⟩
  | 61 => ⟨S_, .i32⟩
  | 62 => ⟨S_, .i32⟩
  | 63 => ⟨S64, .i32⟩
  | 64 => ⟨S64, .i32⟩
  | 65 => ⟨S64x3, .f32⟩
  | 66 => ⟨S64x1, .i32⟩
  | 67 => ⟨S_, .i32⟩
  | 68 => ⟨S64x1, .i32⟩
  | 69 => ⟨S64x1, .i1⟩
  | 70 => ⟨S_, .i32⟩
  | 71 => ⟨S64x1, .i32⟩
  | 72 => ⟨S64x1, .i32⟩
  | 73 => ⟨S64x1, .i32⟩
  | 74 => ⟨S64x1x1, .i32⟩
  | 75 => ⟨S1, .i32⟩
  | 76 => ⟨S_, .i32⟩
  | 77 => ⟨S64x1x1, .i32⟩
  | 78 => ⟨S64x1x1, .i1⟩
  | 79 => ⟨S1x1x1, .i32⟩
  | 80 => ⟨S64x1x1, .i32⟩
  | 81 => ⟨S64x1x1, .i1⟩
  | 82 => ⟨S64x1x1, .i1⟩
  | 83 => ⟨S_, .i1⟩
  | 84 => ⟨S64x1, .i1⟩
  | 85 => ⟨S64x1, .f32⟩
  | 86 => ⟨S_, .f32⟩
  | 87 => ⟨S64x1, .f32⟩
  | 88 => ⟨S64x1, .f32⟩
  | 89 => ⟨S64x1, .f32⟩
  | 90 => ⟨S_, .f32⟩
  | 91 => ⟨S_, .f32⟩
  | 92 => ⟨S_, .f32⟩
  | 93 => ⟨S2x128x2x128x2x128, .i32⟩
  | 94 => ⟨S2x2x2x128x128x128, .i32⟩
  | 95 => ⟨S8x128x128x128, .i32⟩
  | 96 => ⟨S8x2097152, .i32⟩
  | 97 => ⟨S_, .i32⟩
  | 98 => ⟨S8, .i32⟩
  | 99 => ⟨S_, .i32⟩
  | 100 => ⟨S8, .i32⟩
  | 101 => ⟨S8, .i1⟩
  | 102 => ⟨S_, .i32⟩
  | 103 => ⟨S_, .i32⟩
  | 104 => ⟨S8, .i32⟩
  | 105 => ⟨S8, .i32⟩
  | 106 => ⟨S8x3, .f32⟩
  | 107 => ⟨S8x1, .i32⟩
  | 108 => ⟨S_, .i32⟩
  | 109 => ⟨S8x1, .i32⟩
  | 110 => ⟨S8x1, .i1⟩
  | 111 => ⟨S_, .i32⟩
  | 112 => ⟨S8x1, .i32⟩
  | 113 => ⟨S8x1, .i32⟩
  | 114 => ⟨S8x1, .i32⟩
  | 115 => ⟨S8x1x1, .i32⟩
  | 116 => ⟨S1, .i32⟩
  | 117 => ⟨S_, .i32⟩
  | 118 => ⟨S8x1x1, .i32⟩
  | 119 => ⟨S8x1x1, .i1⟩
  | 120 => ⟨S1x1x1, .i32⟩
  | 121 => ⟨S8x1x1, .i32⟩
  | 122 => ⟨S8x1x1, .i1⟩
  | 123 => ⟨S8x1x1, .i1⟩
  | 124 => ⟨S_, .i1⟩
  | 125 => ⟨S8x1, .i1⟩
  | 126 => ⟨S8x1, .f32⟩
  | 127 => ⟨S_, .f32⟩
  | _ => ⟨S1x256x256x256, .i32⟩

abbrev hbmTy0_1 (i : Nat) : BufTy := match i % 128 with
  | 0 => ⟨S8x1, .f32⟩
  | 1 => ⟨S8x1, .f32⟩
  | 2 => ⟨S8x1, .f32⟩
  | 3 => ⟨S_, .f32⟩
  | 4 => ⟨S_, .f32⟩
  | 5 => ⟨S_, .f32⟩
  | 6 => ⟨S1x256x1x256x1x256, .i32⟩
  | 7 => ⟨S1x1x1x256x256x256, .i32⟩
  | 8 => ⟨S1x256x256x256, .i32⟩
  | 9 => ⟨S1x16777216, .i32⟩
  | 10 => ⟨S_, .i32⟩
  | 11 => ⟨S1, .i32⟩
  | 12 => ⟨S_, .i32⟩
  | 13 => ⟨S1, .i32⟩
  | 14 => ⟨S1, .i1⟩
  | 15 => ⟨S_, .i32⟩
  | 16 => ⟨S_, .i32⟩
  | 17 => ⟨S1, .i32⟩
  | 18 => ⟨S1, .i32⟩
  | 19 => ⟨S1x3, .f32⟩
  | 20 => ⟨S1x1, .i32⟩
  | 21 => ⟨S_, .i32⟩
  | 22 => ⟨S1x1, .i32⟩
  | 23 => ⟨S1x1, .i1⟩
  | 24 => ⟨S_, .i32⟩
  | 25 => ⟨S1x1, .i32⟩
  | 26 => ⟨S1x1, .i32⟩
  | 27 => ⟨S1x1, .i32⟩
  | 28 => ⟨S1, .i32⟩
  | 29 => ⟨S_, .i32⟩
  | 30 => ⟨S1x1, .i32⟩
  | 31 => ⟨S1x1, .i1⟩
  | 32 => ⟨S1x1, .i32⟩
  | 33 => ⟨S1x1, .i1⟩
  | 34 => ⟨S1x1, .i1⟩
  | 35 => ⟨S_, .i1⟩
  | 36 => ⟨S1, .i1⟩
  | 37 => ⟨S1x1, .f32⟩
  | 38 => ⟨S1x1, .i1⟩
  | 39 => ⟨S_, .f32⟩
  | 40 => ⟨S1x1, .f32⟩
  | 41 => ⟨S1x1, .f32⟩
  | 42 => ⟨S1x1, .f32⟩
  | 43 => ⟨S_, .f32⟩
  | 44 => ⟨S_, .f32⟩
  | 45 => ⟨S_, .f32⟩
  | _ => ⟨S1x256x256x256, .i32⟩

abbrev hbmTy (i : Nat) : BufTy := match i / 128 with
  | 0 => hbmTy0_0 i
  | 1 => hbmTy0_1 i
  | _ => ⟨S1x256x256x256, .i32⟩

abbrev bufTy : (tb : Table) → Fin (tcTables nBuf tb) → BufTy
  | .hbm, ⟨i, _⟩ => hbmTy i
  | .local _ .vmem, ⟨0, _⟩ => ⟨S128x2x32x128, .f32⟩
  | .local _ .vmem, ⟨1, _⟩ => ⟨S128x2x32x128, .f32⟩
  | .local _ .vmem, ⟨2, _⟩ => ⟨S128x32x128, .i32⟩
  | .local _ .vmem, ⟨3, _⟩ => ⟨S128x32x128, .i32⟩
  | .local _ .vmem, ⟨4, _⟩ => ⟨S1x1, .f32⟩
  | _, _ => ⟨S1x256x256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v18 : Ref sig .tc := ⟨.hbm, 47, rfl⟩
abbrev main_v19 : Ref sig .tc := ⟨.hbm, 48, rfl⟩
abbrev main_cst : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_2 : Ref sig .tc := ⟨.hbm, 56, rfl⟩
abbrev main_v26 : Ref sig .tc := ⟨.hbm, 57, rfl⟩
abbrev main_c_3 : Ref sig .tc := ⟨.hbm, 58, rfl⟩
abbrev main_v27 : Ref sig .tc := ⟨.hbm, 59, rfl⟩
abbrev main_v28 : Ref sig .tc := ⟨.hbm, 60, rfl⟩
abbrev main_c_4 : Ref sig .tc := ⟨.hbm, 61, rfl⟩
abbrev main_call2_v0 : Ref sig .tc := ⟨.hbm, 62, rfl⟩
abbrev main_call2_v1 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_cst : Ref sig .tc := ⟨.hbm, 86, rfl⟩
abbrev main_call3_v14 : Ref sig .tc := ⟨.hbm, 87, rfl⟩
abbrev main_v32 : Ref sig .tc := ⟨.hbm, 88, rfl⟩
abbrev main_v33 : Ref sig .tc := ⟨.hbm, 89, rfl⟩
abbrev main_cst_5 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_c_6 : Ref sig .tc := ⟨.hbm, 97, rfl⟩
abbrev main_v40 : Ref sig .tc := ⟨.hbm, 98, rfl⟩
abbrev main_c_7 : Ref sig .tc := ⟨.hbm, 99, rfl⟩
abbrev main_v41 : Ref sig .tc := ⟨.hbm, 100, rfl⟩
abbrev main_v42 : Ref sig .tc := ⟨.hbm, 101, rfl⟩
abbrev main_c_8 : Ref sig .tc := ⟨.hbm, 102, rfl⟩
abbrev main_call4_v0 : Ref sig .tc := ⟨.hbm, 103, rfl⟩
abbrev main_call4_v1 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_call5_c : Ref sig .tc := ⟨.hbm, 108, rfl⟩
abbrev main_call5_v0 : Ref sig .tc := ⟨.hbm, 109, rfl⟩
abbrev main_call5_v1 : Ref sig .tc := ⟨.hbm, 110, rfl⟩
abbrev main_call5_c_0 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_v5 : Ref sig .tc := ⟨.hbm, 115, rfl⟩
abbrev main_call5_c_1 : Ref sig .tc := ⟨.hbm, 116, rfl⟩
abbrev main_call5_c_2 : Ref sig .tc := ⟨.hbm, 117, rfl⟩
abbrev main_call5_v6 : Ref sig .tc := ⟨.hbm, 118, rfl⟩
abbrev main_call5_v7 : Ref sig .tc := ⟨.hbm, 119, rfl⟩
abbrev main_call5_v8 : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_call5_c_3 : Ref sig .tc := ⟨.hbm, 124, rfl⟩
abbrev main_call5_v12 : Ref sig .tc := ⟨.hbm, 125, rfl⟩
abbrev main_call5_v13 : Ref sig .tc := ⟨.hbm, 126, rfl⟩
abbrev main_call5_cst : Ref sig .tc := ⟨.hbm, 127, rfl⟩
abbrev main_call5_v14 : Ref sig .tc := ⟨.hbm, 128, rfl⟩
abbrev main_v46 : Ref sig .tc := ⟨.hbm, 129, rfl⟩
abbrev main_v47 : Ref sig .tc := ⟨.hbm, 130, rfl⟩
abbrev main_cst_9 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_c_10 : Ref sig .tc := ⟨.hbm, 138, rfl⟩
abbrev main_v54 : Ref sig .tc := ⟨.hbm, 139, rfl⟩
abbrev main_c_11 : Ref sig .tc := ⟨.hbm, 140, rfl⟩
abbrev main_v55 : Ref sig .tc := ⟨.hbm, 141, rfl⟩
abbrev main_v56 : Ref sig .tc := ⟨.hbm, 142, rfl⟩
abbrev main_c_12 : Ref sig .tc := ⟨.hbm, 143, rfl⟩
abbrev main_call6_v0 : Ref sig .tc := ⟨.hbm, 144, rfl⟩
abbrev main_call6_v1 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_call7_c : Ref sig .tc := ⟨.hbm, 149, rfl⟩
abbrev main_call7_v0 : Ref sig .tc := ⟨.hbm, 150, rfl⟩
abbrev main_call7_v1 : Ref sig .tc := ⟨.hbm, 151, rfl⟩
abbrev main_call7_c_0 : Ref sig .tc := ⟨.hbm, 152, rfl⟩
abbrev main_call7_v2 : Ref sig .tc := ⟨.hbm, 153, rfl⟩
abbrev main_call7_v3 : Ref sig .tc := ⟨.hbm, 154, rfl⟩
abbrev main_call7_v4 : Ref sig .tc := ⟨.hbm, 155, rfl⟩
abbrev main_call7_c_1 : Ref sig .tc := ⟨.hbm, 156, rfl⟩
abbrev main_call7_c_2 : Ref sig .tc := ⟨.hbm, 157, rfl⟩
abbrev main_call7_v5 : Ref sig .tc := ⟨.hbm, 158, rfl⟩
abbrev main_call7_v6 : Ref sig .tc := ⟨.hbm, 159, rfl⟩
abbrev main_call7_v7 : Ref sig .tc := ⟨.hbm, 160, rfl⟩
abbrev main_call7_v8 : Ref sig .tc := ⟨.hbm, 161, rfl⟩
abbrev main_call7_v9 : Ref sig .tc := ⟨.hbm, 162, rfl⟩
abbrev main_call7_c_3 : Ref sig .tc := ⟨.hbm, 163, rfl⟩
abbrev main_call7_v10 : Ref sig .tc := ⟨.hbm, 164, rfl⟩
abbrev main_call7_v11 : Ref sig .tc := ⟨.hbm, 165, rfl⟩
abbrev main_call7_v12 : Ref sig .tc := ⟨.hbm, 166, rfl⟩
abbrev main_call7_cst : Ref sig .tc := ⟨.hbm, 167, rfl⟩
abbrev main_call7_v13 : Ref sig .tc := ⟨.hbm, 168, rfl⟩
abbrev main_v60 : Ref sig .tc := ⟨.hbm, 169, rfl⟩
abbrev main_v61 : Ref sig .tc := ⟨.hbm, 170, rfl⟩
abbrev main_cst_13 : Ref sig .tc := ⟨.hbm, 171, rfl⟩
abbrev main_v62 : Ref sig .tc := ⟨.hbm, 172, rfl⟩
abbrev main_v63 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x256x256x256_S256x256x256 : S1x256x256x256.ShapeCasts S256x256x256
  shapeCasts_S256x256x256_S16x16x16x16x16x16 : S256x256x256.ShapeCasts S16x16x16x16x16x16
  transposes_S16x16x16x16x16x16_S16x16x16x16x16x16_0_2_4_1_3_5 : S16x16x16x16x16x16.Transposes [0, 2, 4, 1, 3, 5] S16x16x16x16x16x16
  shapeCasts_S16x16x16x16x16x16_S4096x16x16x16 : S16x16x16x16x16x16.ShapeCasts S4096x16x16x16
  shapeCasts_S4096x16x16x16_S4096x32x128 : S4096x16x16x16.ShapeCasts S4096x32x128
  shapeCasts_S4096x2x16x16x16_S4096x2x32x128 : S4096x2x16x16x16.ShapeCasts S4096x2x32x128
  inb_S1x1_S1x1_0_0 : ∀ a, (![0, 0] : Fin 2 → Nat) a + S1x1.size a ≤ S1x1.size a
  h_S1x1 : 0 < S1x1.numel
  inb_S128x2x32x128_S128x2x32x128_0_0_0_0 : ∀ a, (![0, 0, 0, 0] : Fin 4 → Nat) a + S128x2x32x128.size a ≤ S128x2x32x128.size a
  h_S128x2x32x128 : 0 < S128x2x32x128.numel
  shapeCasts_S128x2x32x128_S128x2x32x128 : S128x2x32x128.ShapeCasts S128x2x32x128
  inb_S128x32x128_S128x32x128_0_0_0 : ∀ a, (![0, 0, 0] : Fin 3 → Nat) a + S128x32x128.size a ≤ S128x32x128.size a
  h_S128x32x128 : 0 < S128x32x128.numel
  shapeCasts_S128x32x128_S128x32x128 : S128x32x128.ShapeCasts S128x32x128
  slices_S128x2x32x128_o0_0_0_0_S128x1x32x128 : S128x2x32x128.Slices ![0, 0, 0, 0] S128x1x32x128
  shapeCasts_S128x1x32x128_S128x32x128 : S128x1x32x128.ShapeCasts S128x32x128
  slices_S128x2x32x128_o0_1_0_0_S128x1x32x128 : S128x2x32x128.Slices ![0, 1, 0, 0] S128x1x32x128
  reduces_S128x32x128_S128x32 : S128x32x128.Reduces [2] S128x32
  shapeCasts_S128x32_S128x32x1 : S128x32.ShapeCasts S128x32x1
  reduces_S128x32x1_S128x1 : S128x32x1.Reduces [1] S128x1
  shapeCasts_S128x1_S128x1x1 : S128x1.ShapeCasts S128x1x1
  reduces_S128x1x1_S1x1 : S128x1x1.Reduces [0] S1x1
  shapeCasts_S1x1_S1x1x1 : S1x1.ShapeCasts S1x1x1
  shapeCasts_S1x1_S1x1 : S1x1.ShapeCasts S1x1
  shapeCasts_S1x1x1_S1x1 : S1x1x1.ShapeCasts S1x1
  shapeCasts_S1x1_S_ : S1x1.ShapeCasts S_
  shapeCasts_S256x256x256_S8x32x8x32x8x32 : S256x256x256.ShapeCasts S8x32x8x32x8x32
  transposes_S8x32x8x32x8x32_S8x8x8x32x32x32_0_2_4_1_3_5 : S8x32x8x32x8x32.Transposes [0, 2, 4, 1, 3, 5] S8x8x8x32x32x32
  shapeCasts_S8x8x8x32x32x32_S512x32x32x32 : S8x8x8x32x32x32.ShapeCasts S512x32x32x32
  shapeCasts_S512x32x32x32_S512x32768 : S512x32x32x32.ShapeCasts S512x32768
  reducesTo_S512x32768_S512_d1 : S512x32768.ReducesTo [1] S512
  h_S_ : 0 < S_.numel
  bcast_S_S512 : S_.BroadcastsInDim S512 (![] : Fin 0 → Fin S512.rank)
  slices_S585x3_S512x3_0_0 : S585x3.Slices ![0, 0] S512x3
  bcast_S512_S512x1_0 : S512.BroadcastsInDim S512x1 (![0] : Fin 1 → Fin S512x1.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  reducesTo_S512x1_S_d0_1 : S512x1.ReducesTo [0, 1] S_
  shapeCasts_S256x256x256_S4x64x4x64x4x64 : S256x256x256.ShapeCasts S4x64x4x64x4x64
  transposes_S4x64x4x64x4x64_S4x4x4x64x64x64_0_2_4_1_3_5 : S4x64x4x64x4x64.Transposes [0, 2, 4, 1, 3, 5] S4x4x4x64x64x64
  shapeCasts_S4x4x4x64x64x64_S64x64x64x64 : S4x4x4x64x64x64.ShapeCasts S64x64x64x64
  shapeCasts_S64x64x64x64_S64x262144 : S64x64x64x64.ShapeCasts S64x262144
  reducesTo_S64x262144_S64_d1 : S64x262144.ReducesTo [1] S64
  bcast_S_S64 : S_.BroadcastsInDim S64 (![] : Fin 0 → Fin S64.rank)
  slices_S585x3_S64x3_512_0 : S585x3.Slices ![512, 0] S64x3
  bcast_S64_S64x1_0 : S64.BroadcastsInDim S64x1 (![0] : Fin 1 → Fin S64x1.rank)
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  reducesTo_S64x1_S_d0_1 : S64x1.ReducesTo [0, 1] S_
  shapeCasts_S256x256x256_S2x128x2x128x2x128 : S256x256x256.ShapeCasts S2x128x2x128x2x128
  transposes_S2x128x2x128x2x128_S2x2x2x128x128x128_0_2_4_1_3_5 : S2x128x2x128x2x128.Transposes [0, 2, 4, 1, 3, 5] S2x2x2x128x128x128
  shapeCasts_S2x2x2x128x128x128_S8x128x128x128 : S2x2x2x128x128x128.ShapeCasts S8x128x128x128
  shapeCasts_S8x128x128x128_S8x2097152 : S8x128x128x128.ShapeCasts S8x2097152
  reducesTo_S8x2097152_S8_d1 : S8x2097152.ReducesTo [1] S8
  bcast_S_S8 : S_.BroadcastsInDim S8 (![] : Fin 0 → Fin S8.rank)
  slices_S585x3_S8x3_576_0 : S585x3.Slices ![576, 0] S8x3
  bcast_S8_S8x1_0 : S8.BroadcastsInDim S8x1 (![0] : Fin 1 → Fin S8x1.rank)
  bcast_S_S8x1 : S_.BroadcastsInDim S8x1 (![] : Fin 0 → Fin S8x1.rank)
  shapeCasts_S8x1_S8x1x1 : S8x1.ShapeCasts S8x1x1
  bcast_S_S8x1x1 : S_.BroadcastsInDim S8x1x1 (![] : Fin 0 → Fin S8x1x1.rank)
  bcast_S1x1x1_S8x1x1_0_1_2 : S1x1x1.BroadcastsInDim S8x1x1 (![0, 1, 2] : Fin 3 → Fin S8x1x1.rank)
  reducesTo_S8x1x1_S8x1_d2 : S8x1x1.ReducesTo [2] S8x1
  reducesTo_S8x1_S_d0_1 : S8x1.ReducesTo [0, 1] S_
  shapeCasts_S256x256x256_S1x256x1x256x1x256 : S256x256x256.ShapeCasts S1x256x1x256x1x256
  transposes_S1x256x1x256x1x256_S1x1x1x256x256x256_0_2_4_1_3_5 : S1x256x1x256x1x256.Transposes [0, 2, 4, 1, 3, 5] S1x1x1x256x256x256
  shapeCasts_S1x1x1x256x256x256_S1x256x256x256 : S1x1x1x256x256x256.ShapeCasts S1x256x256x256
  shapeCasts_S1x256x256x256_S1x16777216 : S1x256x256x256.ShapeCasts S1x16777216
  reducesTo_S1x16777216_S1_d1 : S1x16777216.ReducesTo [1] S1
  bcast_S_S1 : S_.BroadcastsInDim S1 (![] : Fin 0 → Fin S1.rank)
  slices_S585x3_S1x3_584_0 : S585x3.Slices ![584, 0] S1x3
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  reducesTo_S1x1_S_d0_1 : S1x1.ReducesTo [0, 1] S_
  gather_S512x3_S512x1x1_S512x1_n_1_0_0_1_2_11_wf : GatherDims.WF S512x3 S512x1x1 S512x1 [] [1] [0] [1] [0] 2 ![1, 1]
  gather_S64x3_S64x1x1_S64x1_n_1_0_0_1_2_11_wf : GatherDims.WF S64x3 S64x1x1 S64x1 [] [1] [0] [1] [0] 2 ![1, 1]
  gather_S8x3_S8x1x1_S8x1_n_1_0_0_1_2_11_wf : GatherDims.WF S8x3 S8x1x1 S8x1 [] [1] [0] [1] [0] 2 ![1, 1]
  gather_S1x3_S1x1_S1x1_0_1_n_n_1_1_11_wf : GatherDims.WF S1x3 S1x1 S1x1 [0] [1] [] [1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2x32x128.size a ≤ S4096x2x32x128.size a
  hwx0_0 : ∀ i : grid0.Coords, EltTy.bits .f32 = 32 ∨ (Rect.block (s := S4096x2x32x128) S128x2x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x128.size a ≤ S4096x32x128.size a
  hwx0_1 : ∀ i : grid0.Coords, EltTy.bits .i32 = 32 ∨ (Rect.block (s := S4096x32x128) S128x32x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S512x3_S512x1x1_S512x1_n_1_0_0_1_2_11 : GatherDims S512x3 S512x1x1 S512x1 where
  offsetDims := []
  collapsedSliceDims := [1]
  operandBatchingDims := [0]
  startIndicesBatchingDims := [0]
  startIndexMap := [1]
  indexVectorDim := 2
  sliceSizes := ![1, 1]
  wf := gather_S512x3_S512x1x1_S512x1_n_1_0_0_1_2_11_wf
def gather_S64x3_S64x1x1_S64x1_n_1_0_0_1_2_11 : GatherDims S64x3 S64x1x1 S64x1 where
  offsetDims := []
  collapsedSliceDims := [1]
  operandBatchingDims := [0]
  startIndicesBatchingDims := [0]
  startIndexMap := [1]
  indexVectorDim := 2
  sliceSizes := ![1, 1]
  wf := gather_S64x3_S64x1x1_S64x1_n_1_0_0_1_2_11_wf
def gather_S8x3_S8x1x1_S8x1_n_1_0_0_1_2_11 : GatherDims S8x3 S8x1x1 S8x1 where
  offsetDims := []
  collapsedSliceDims := [1]
  operandBatchingDims := [0]
  startIndicesBatchingDims := [0]
  startIndexMap := [1]
  indexVectorDim := 2
  sliceSizes := ![1, 1]
  wf := gather_S8x3_S8x1x1_S8x1_n_1_0_0_1_2_11_wf
def gather_S1x3_S1x1_S1x1_0_1_n_n_1_1_11 : GatherDims S1x3 S1x1 S1x1 where
  offsetDims := [0]
  collapsedSliceDims := [1]
  operandBatchingDims := []
  startIndicesBatchingDims := []
  startIndexMap := [1]
  indexVectorDim := 1
  sliceSizes := ![1, 1]
  wf := gather_S1x3_S1x1_S1x1_0_1_n_n_1_1_11_wf

abbrev win0_0 : Pipeline.Window sig grid0 :=
  Pipeline.Window.ofSpec (Memref.whole main_v5) S128x2x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x256x256x256 : Shape := ⟨4, ![1, 256, 256, 256]⟩
abbrev S4096x2x16x16x16 : Shape := ⟨5, ![4096, 2, 16, 16, 16]⟩
abbrev S585x3 : Shape := ⟨2, ![585, 3]⟩
abbrev S256x256x256 : Shape := ⟨3, ![256, 256, 256]⟩
abbrev S16x16x16x16x16x16 : Shape := ⟨6, ![16, 16, 16, 16, 16, 16]⟩
abbrev S4096x16x16x16 : Shape := ⟨4, ![4096, 16, 16, 16]⟩
abbrev S_ : Shape := ⟨0, ![]⟩
abbrev S4096x1x16x16x16 : Shape := ⟨5, ![4096, 1, 16, 16, 16]⟩
abbrev S4096x1x16x16x16x1 : Shape := ⟨6, ![4096, 1, 16, 16, 16, 1]⟩
abbrev S1 : Shape := ⟨1, ![1]⟩
abbrev S1x1x1x1x1x1 : Shape := ⟨6, ![1, 1, 1, 1, 1, 1]⟩
abbrev S4096 : Shape := ⟨1, ![4096]⟩
abbrev S8x32x8x32x8x32 : Shape := ⟨6, ![8, 32, 8, 32, 8, 32]⟩
abbrev S8x8x8x32x32x32 : Shape := ⟨6, ![8, 8, 8, 32, 32, 32]⟩
abbrev S512x32x32x32 : Shape := ⟨4, ![512, 32, 32, 32]⟩
abbrev S512x32768 : Shape := ⟨2, ![512, 32768]⟩
abbrev S512 : Shape := ⟨1, ![512]⟩
abbrev S512x3 : Shape := ⟨2, ![512, 3]⟩
abbrev S512x1 : Shape := ⟨2, ![512, 1]⟩
abbrev S512x1x1 : Shape := ⟨3, ![512, 1, 1]⟩
abbrev S1x1x1 : Shape := ⟨3, ![1, 1, 1]⟩
abbrev S4x64x4x64x4x64 : Shape := ⟨6, ![4, 64, 4, 64, 4, 64]⟩
abbrev S4x4x4x64x64x64 : Shape := ⟨6, ![4, 4, 4, 64, 64, 64]⟩
abbrev S64x64x64x64 : Shape := ⟨4, ![64, 64, 64, 64]⟩
abbrev S64x262144 : Shape := ⟨2, ![64, 262144]⟩
abbrev S64 : Shape := ⟨1, ![64]⟩
abbrev S64x3 : Shape := ⟨2, ![64, 3]⟩
abbrev S64x1 : Shape := ⟨2, ![64, 1]⟩
abbrev S64x1x1 : Shape := ⟨3, ![64, 1, 1]⟩
abbrev S2x128x2x128x2x128 : Shape := ⟨6, ![2, 128, 2, 128, 2, 128]⟩
abbrev S2x2x2x128x128x128 : Shape := ⟨6, ![2, 2, 2, 128, 128, 128]⟩
abbrev S8x128x128x128 : Shape := ⟨4, ![8, 128, 128, 128]⟩
abbrev S8x2097152 : Shape := ⟨2, ![8, 2097152]⟩
abbrev S8 : Shape := ⟨1, ![8]⟩
abbrev S8x3 : Shape := ⟨2, ![8, 3]⟩
abbrev S8x1 : Shape := ⟨2, ![8, 1]⟩
abbrev S8x1x1 : Shape := ⟨3, ![8, 1, 1]⟩
abbrev S1x256x1x256x1x256 : Shape := ⟨6, ![1, 256, 1, 256, 1, 256]⟩
abbrev S1x1x1x256x256x256 : Shape := ⟨6, ![1, 1, 1, 256, 256, 256]⟩
abbrev S1x16777216 : Shape := ⟨2, ![1, 16777216]⟩
abbrev S1x3 : Shape := ⟨2, ![1, 3]⟩
abbrev S1x1 : Shape := ⟨2, ![1, 1]⟩

abbrev nBuf : Space → Nat
  | .hbm => 228
  | .vmem => 0
  | .smem => 0
  | _ => 0

abbrev hbmTy0_0 (i : Nat) : BufTy := match i % 128 with
  | 0 => ⟨S1x256x256x256, .i32⟩
  | 1 => ⟨S4096x2x16x16x16, .f32⟩
  | 2 => ⟨S585x3, .f32⟩
  | 3 => ⟨S256x256x256, .i32⟩
  | 4 => ⟨S16x16x16x16x16x16, .i32⟩
  | 5 => ⟨S16x16x16x16x16x16, .i32⟩
  | 6 => ⟨S4096x16x16x16, .i32⟩
  | 7 => ⟨S_, .f32⟩
  | 8 => ⟨S4096x16x16x16, .f32⟩
  | 9 => ⟨S_, .f32⟩
  | 10 => ⟨S4096x16x16x16, .f32⟩
  | 11 => ⟨S4096x16x16x16, .f32⟩
  | 12 => ⟨S4096x1x16x16x16, .f32⟩
  | 13 => ⟨S4096x2x16x16x16, .f32⟩
  | 14 => ⟨S4096x2x16x16x16, .f32⟩
  | 15 => ⟨S4096x2x16x16x16, .f32⟩
  | 16 => ⟨S_, .f32⟩
  | 17 => ⟨S4096x16x16x16, .f32⟩
  | 18 => ⟨S4096x1x16x16x16, .f32⟩
  | 19 => ⟨S4096x1x16x16x16, .f32⟩
  | 20 => ⟨S4096x2x16x16x16, .f32⟩
  | 21 => ⟨S4096x2x16x16x16, .f32⟩
  | 22 => ⟨S4096x1x16x16x16, .i32⟩
  | 23 => ⟨S_, .i32⟩
  | 24 => ⟨S4096x1x16x16x16, .i32⟩
  | 25 => ⟨S4096x1x16x16x16, .i1⟩
  | 26 => ⟨S_, .i32⟩
  | 27 => ⟨S4096x1x16x16x16, .i32⟩
  | 28 => ⟨S4096x1x16x16x16, .i32⟩
  | 29 => ⟨S4096x1x16x16x16, .i32⟩
  | 30 => ⟨S4096x1x16x16x16x1, .i32⟩
  | 31 => ⟨S1, .i32⟩
  | 32 => ⟨S_, .i32⟩
  | 33 => ⟨S4096x1x16x16x16x1, .i32⟩
  | 34 => ⟨S4096x1x16x16x16x1, .i1⟩
  | 35 => ⟨S1x1x1x1x1x1, .i32⟩
  | 36 => ⟨S4096x1x16x16x16x1, .i32⟩
  | 37 => ⟨S4096x1x16x16x16x1, .i1⟩
  | 38 => ⟨S4096x1x16x16x16x1, .i1⟩
  | 39 => ⟨S_, .i1⟩
  | 40 => ⟨S4096x1x16x16x16, .i1⟩
  | 41 => ⟨S4096x1x16x16x16, .f32⟩
  | 42 => ⟨S_, .f32⟩
  | 43 => ⟨S4096x1x16x16x16, .f32⟩
  | 44 => ⟨S4096x1x16x16x16, .f32⟩
  | 45 => ⟨S4096x16x16x16, .f32⟩
  | 46 => ⟨S4096x16x16x16, .f32⟩
  | 47 => ⟨S_, .i32⟩
  | 48 => ⟨S4096x16x16x16, .i32⟩
  | 49 => ⟨S4096x16x16x16, .i1⟩
  | 50 => ⟨S_, .f32⟩
  | 51 => ⟨S_, .f32⟩
  | 52 => ⟨S4096x16x16x16, .f32⟩
  | 53 => ⟨S4096x16x16x16, .f32⟩
  | 54 => ⟨S4096x16x16x16, .f32⟩
  | 55 => ⟨S4096x16x16x16, .f32⟩
  | 56 => ⟨S4096x16x16x16, .f32⟩
  | 57 => ⟨S_, .f32⟩
  | 58 => ⟨S4096, .f32⟩
  | 59 => ⟨S4096x16x16x16, .f32⟩
  | 60 => ⟨S_, .f32⟩
  | 61 => ⟨S4096, .f32⟩
  | 62 => ⟨S4096, .f32⟩
  | 63 => ⟨S_, .f32⟩
  | 64 => ⟨S_, .f32⟩
  | 65 => ⟨S8x32x8x32x8x32, .i32⟩
  | 66 => ⟨S8x8x8x32x32x32, .i32⟩
  | 67 => ⟨S512x32x32x32, .i32⟩
  | 68 => ⟨S512x32768, .i32⟩
  | 69 => ⟨S_, .i32⟩
  | 70 => ⟨S512, .i32⟩
  | 71 => ⟨S_, .i32⟩
  | 72 => ⟨S512, .i32⟩
  | 73 => ⟨S512, .i1⟩
  | 74 => ⟨S_, .i32⟩
  | 75 => ⟨S_, .i32⟩
  | 76 => ⟨S512, .i32⟩
  | 77 => ⟨S512, .i32⟩
  | 78 => ⟨S512x3, .f32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i32⟩
  | 86 => ⟨S512x1, .i32⟩
  | 87 => ⟨S512x1x1, .i32⟩
  | 88 => ⟨S1, .i32⟩
  | 89 => ⟨S_, .i32⟩
  | 90 => ⟨S512x1x1, .i32⟩
  | 91 => ⟨S512x1x1, .i1⟩
  | 92 => ⟨S1x1x1, .i32⟩
  | 93 => ⟨S512x1x1, .i32⟩
  | 94 => ⟨S512x1x1, .i1⟩
  | 95 => ⟨S512x1x1, .i1⟩
  | 96 => ⟨S_, .i1⟩
  | 97 => ⟨S512x1, .i1⟩
  | 98 => ⟨S512x1, .f32⟩
  | 99 => ⟨S_, .f32⟩
  | 100 => ⟨S512x1, .f32⟩
  | 101 => ⟨S512x1, .f32⟩
  | 102 => ⟨S512x1, .f32⟩
  | 103 => ⟨S_, .f32⟩
  | 104 => ⟨S_, .f32⟩
  | 105 => ⟨S_, .f32⟩
  | 106 => ⟨S4x64x4x64x4x64, .i32⟩
  | 107 => ⟨S4x4x4x64x64x64, .i32⟩
  | 108 => ⟨S64x64x64x64, .i32⟩
  | 109 => ⟨S64x262144, .i32⟩
  | 110 => ⟨S_, .i32⟩
  | 111 => ⟨S64, .i32⟩
  | 112 => ⟨S_, .i32⟩
  | 113 => ⟨S64, .i32⟩
  | 114 => ⟨S64, .i1⟩
  | 115 => ⟨S_, .i32⟩
  | 116 => ⟨S_, .i32⟩
  | 117 => ⟨S64, .i32⟩
  | 118 => ⟨S64, .i32⟩
  | 119 => ⟨S64x3, .f32⟩
  | 120 => ⟨S64x1, .i32⟩
  | 121 => ⟨S_, .i32⟩
  | 122 => ⟨S64x1, .i32⟩
  | 123 => ⟨S64x1, .i1⟩
  | 124 => ⟨S_, .i32⟩
  | 125 => ⟨S64x1, .i32⟩
  | 126 => ⟨S64x1, .i32⟩
  | 127 => ⟨S64x1, .i32⟩
  | _ => ⟨S1x256x256x256, .i32⟩

abbrev hbmTy0_1 (i : Nat) : BufTy := match i % 128 with
  | 0 => ⟨S64x1x1, .i32⟩
  | 1 => ⟨S1, .i32⟩
  | 2 => ⟨S_, .i32⟩
  | 3 => ⟨S64x1x1, .i32⟩
  | 4 => ⟨S64x1x1, .i1⟩
  | 5 => ⟨S1x1x1, .i32⟩
  | 6 => ⟨S64x1x1, .i32⟩
  | 7 => ⟨S64x1x1, .i1⟩
  | 8 => ⟨S64x1x1, .i1⟩
  | 9 => ⟨S_, .i1⟩
  | 10 => ⟨S64x1, .i1⟩
  | 11 => ⟨S64x1, .f32⟩
  | 12 => ⟨S_, .f32⟩
  | 13 => ⟨S64x1, .f32⟩
  | 14 => ⟨S64x1, .f32⟩
  | 15 => ⟨S64x1, .f32⟩
  | 16 => ⟨S_, .f32⟩
  | 17 => ⟨S_, .f32⟩
  | 18 => ⟨S_, .f32⟩
  | 19 => ⟨S2x128x2x128x2x128, .i32⟩
  | 20 => ⟨S2x2x2x128x128x128, .i32⟩
  | 21 => ⟨S8x128x128x128, .i32⟩
  | 22 => ⟨S8x2097152, .i32⟩
  | 23 => ⟨S_, .i32⟩
  | 24 => ⟨S8, .i32⟩
  | 25 => ⟨S_, .i32⟩
  | 26 => ⟨S8, .i32⟩
  | 27 => ⟨S8, .i1⟩
  | 28 => ⟨S_, .i32⟩
  | 29 => ⟨S_, .i32⟩
  | 30 => ⟨S8, .i32⟩
  | 31 => ⟨S8, .i32⟩
  | 32 => ⟨S8x3, .f32⟩
  | 33 => ⟨S8x1, .i32⟩
  | 34 => ⟨S_, .i32⟩
  | 35 => ⟨S8x1, .i32⟩
  | 36 => ⟨S8x1, .i1⟩
  | 37 => ⟨S_, .i32⟩
  | 38 => ⟨S8x1, .i32⟩
  | 39 => ⟨S8x1, .i32⟩
  | 40 => ⟨S8x1, .i32⟩
  | 41 => ⟨S8x1x1, .i32⟩
  | 42 => ⟨S1, .i32⟩
  | 43 => ⟨S_, .i32⟩
  | 44 => ⟨S8x1x1, .i32⟩
  | 45 => ⟨S8x1x1, .i1⟩
  | 46 => ⟨S1x1x1, .i32⟩
  | 47 => ⟨S8x1x1, .i32⟩
  | 48 => ⟨S8x1x1, .i1⟩
  | 49 => ⟨S8x1x1, .i1⟩
  | 50 => ⟨S_, .i1⟩
  | 51 => ⟨S8x1, .i1⟩
  | 52 => ⟨S8x1, .f32⟩
  | 53 => ⟨S_, .f32⟩
  | 54 => ⟨S8x1, .f32⟩
  | 55 => ⟨S8x1, .f32⟩
  | 56 => ⟨S8x1, .f32⟩
  | 57 => ⟨S_, .f32⟩
  | 58 => ⟨S_, .f32⟩
  | 59 => ⟨S_, .f32⟩
  | 60 => ⟨S1x256x1x256x1x256, .i32⟩
  | 61 => ⟨S1x1x1x256x256x256, .i32⟩
  | 62 => ⟨S1x256x256x256, .i32⟩
  | 63 => ⟨S1x16777216, .i32⟩
  | 64 => ⟨S_, .i32⟩
  | 65 => ⟨S1, .i32⟩
  | 66 => ⟨S_, .i32⟩
  | 67 => ⟨S1, .i32⟩
  | 68 => ⟨S1, .i1⟩
  | 69 => ⟨S_, .i32⟩
  | 70 => ⟨S_, .i32⟩
  | 71 => ⟨S1, .i32⟩
  | 72 => ⟨S1, .i32⟩
  | 73 => ⟨S1x3, .f32⟩
  | 74 => ⟨S1x1, .i32⟩
  | 75 => ⟨S_, .i32⟩
  | 76 => ⟨S1x1, .i32⟩
  | 77 => ⟨S1x1, .i1⟩
  | 78 => ⟨S_, .i32⟩
  | 79 => ⟨S1x1, .i32⟩
  | 80 => ⟨S1x1, .i32⟩
  | 81 => ⟨S1x1, .i32⟩
  | 82 => ⟨S1, .i32⟩
  | 83 => ⟨S_, .i32⟩
  | 84 => ⟨S1x1, .i32⟩
  | 85 => ⟨S1x1, .i1⟩
  | 86 => ⟨S1x1, .i32⟩
  | 87 => ⟨S1x1, .i1⟩
  | 88 => ⟨S1x1, .i1⟩
  | 89 => ⟨S_, .i1⟩
  | 90 => ⟨S1, .i1⟩
  | 91 => ⟨S1x1, .f32⟩
  | 92 => ⟨S1x1, .i1⟩
  | 93 => ⟨S_, .f32⟩
  | 94 => ⟨S1x1, .f32⟩
  | 95 => ⟨S1x1, .f32⟩
  | 96 => ⟨S1x1, .f32⟩
  | 97 => ⟨S_, .f32⟩
  | 98 => ⟨S_, .f32⟩
  | 99 => ⟨S_, .f32⟩
  | _ => ⟨S1x256x256x256, .i32⟩

abbrev hbmTy (i : Nat) : BufTy := match i / 128 with
  | 0 => hbmTy0_0 i
  | 1 => hbmTy0_1 i
  | _ => ⟨S1x256x256x256, .i32⟩

abbrev bufTy : (tb : Table) → Fin (tcTables nBuf tb) → BufTy
  | .hbm, ⟨i, _⟩ => hbmTy i
  | _, _ => ⟨S1x256x256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v4 : Ref sig .tc := ⟨.hbm, 21, rfl⟩
abbrev main_v5 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_c : Ref sig .tc := ⟨.hbm, 47, rfl⟩
abbrev main_v9 : Ref sig .tc := ⟨.hbm, 48, rfl⟩
abbrev main_v10 : Ref sig .tc := ⟨.hbm, 49, rfl⟩
abbrev main_cst : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_cst_1 : Ref sig .tc := ⟨.hbm, 57, rfl⟩
abbrev main_v14 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_cst_3 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_c_4 : Ref sig .tc := ⟨.hbm, 69, rfl⟩
abbrev main_v23 : Ref sig .tc := ⟨.hbm, 70, rfl⟩
abbrev main_c_5 : Ref sig .tc := ⟨.hbm, 71, rfl⟩
abbrev main_v24 : Ref sig .tc := ⟨.hbm, 72, rfl⟩
abbrev main_v25 : Ref sig .tc := ⟨.hbm, 73, rfl⟩
abbrev main_c_6 : Ref sig .tc := ⟨.hbm, 74, rfl⟩
abbrev main_call3_v0 : Ref sig .tc := ⟨.hbm, 75, rfl⟩
abbrev main_call3_v1 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_call4_c : Ref sig .tc := ⟨.hbm, 80, rfl⟩
abbrev main_call4_v0 : Ref sig .tc := ⟨.hbm, 81, rfl⟩
abbrev main_call4_v1 : Ref sig .tc := ⟨.hbm, 82, rfl⟩
abbrev main_call4_c_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_c_1 : Ref sig .tc := ⟨.hbm, 88, rfl⟩
abbrev main_call4_c_2 : Ref sig .tc := ⟨.hbm, 89, rfl⟩
abbrev main_call4_v6 : Ref sig .tc := ⟨.hbm, 90, rfl⟩
abbrev main_call4_v7 : Ref sig .tc := ⟨.hbm, 91, rfl⟩
abbrev main_call4_v8 : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_c_3 : Ref sig .tc := ⟨.hbm, 96, rfl⟩
abbrev main_call4_v12 : Ref sig .tc := ⟨.hbm, 97, rfl⟩
abbrev main_call4_v13 : Ref sig .tc := ⟨.hbm, 98, rfl⟩
abbrev main_call4_cst : Ref sig .tc := ⟨.hbm, 99, rfl⟩
abbrev main_call4_v14 : Ref sig .tc := ⟨.hbm, 100, rfl⟩
abbrev main_v29 : Ref sig .tc := ⟨.hbm, 101, rfl⟩
abbrev main_v30 : Ref sig .tc := ⟨.hbm, 102, rfl⟩
abbrev main_cst_7 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_c_8 : Ref sig .tc := ⟨.hbm, 110, rfl⟩
abbrev main_v37 : Ref sig .tc := ⟨.hbm, 111, rfl⟩
abbrev main_c_9 : Ref sig .tc := ⟨.hbm, 112, rfl⟩
abbrev main_v38 : Ref sig .tc := ⟨.hbm, 113, rfl⟩
abbrev main_v39 : Ref sig .tc := ⟨.hbm, 114, rfl⟩
abbrev main_c_10 : Ref sig .tc := ⟨.hbm, 115, rfl⟩
abbrev main_call5_v0 : Ref sig .tc := ⟨.hbm, 116, rfl⟩
abbrev main_call5_v1 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_call6_c : Ref sig .tc := ⟨.hbm, 121, rfl⟩
abbrev main_call6_v0 : Ref sig .tc := ⟨.hbm, 122, rfl⟩
abbrev main_call6_v1 : Ref sig .tc := ⟨.hbm, 123, rfl⟩
abbrev main_call6_c_0 : Ref sig .tc := ⟨.hbm, 124, rfl⟩
abbrev main_call6_v2 : Ref sig .tc := ⟨.hbm, 125, rfl⟩
abbrev main_call6_v3 : Ref sig .tc := ⟨.hbm, 126, rfl⟩
abbrev main_call6_v4 : Ref sig .tc := ⟨.hbm, 127, rfl⟩
abbrev main_call6_v5 : Ref sig .tc := ⟨.hbm, 128, rfl⟩
abbrev main_call6_c_1 : Ref sig .tc := ⟨.hbm, 129, rfl⟩
abbrev main_call6_c_2 : Ref sig .tc := ⟨.hbm, 130, rfl⟩
abbrev main_call6_v6 : Ref sig .tc := ⟨.hbm, 131, rfl⟩
abbrev main_call6_v7 : Ref sig .tc := ⟨.hbm, 132, rfl⟩
abbrev main_call6_v8 : Ref sig .tc := ⟨.hbm, 133, rfl⟩
abbrev main_call6_v9 : Ref sig .tc := ⟨.hbm, 134, rfl⟩
abbrev main_call6_v10 : Ref sig .tc := ⟨.hbm, 135, rfl⟩
abbrev main_call6_v11 : Ref sig .tc := ⟨.hbm, 136, rfl⟩
abbrev main_call6_c_3 : Ref sig .tc := ⟨.hbm, 137, rfl⟩
abbrev main_call6_v12 : Ref sig .tc := ⟨.hbm, 138, rfl⟩
abbrev main_call6_v13 : Ref sig .tc := ⟨.hbm, 139, rfl⟩
abbrev main_call6_cst : Ref sig .tc := ⟨.hbm, 140, rfl⟩
abbrev main_call6_v14 : Ref sig .tc := ⟨.hbm, 141, rfl⟩
abbrev main_v43 : Ref sig .tc := ⟨.hbm, 142, rfl⟩
abbrev main_v44 : Ref sig .tc := ⟨.hbm, 143, rfl⟩
abbrev main_cst_11 : Ref sig .tc := ⟨.hbm, 144, rfl⟩
abbrev main_v45 : Ref sig .tc := ⟨.hbm, 145, rfl⟩
abbrev main_v46 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_v50 : Ref sig .tc := ⟨.hbm, 150, rfl⟩
abbrev main_c_12 : Ref sig .tc := ⟨.hbm, 151, rfl⟩
abbrev main_v51 : Ref sig .tc := ⟨.hbm, 152, rfl⟩
abbrev main_c_13 : Ref sig .tc := ⟨.hbm, 153, rfl⟩
abbrev main_v52 : Ref sig .tc := ⟨.hbm, 154, rfl⟩
abbrev main_v53 : Ref sig .tc := ⟨.hbm, 155, rfl⟩
abbrev main_c_14 : Ref sig .tc := ⟨.hbm, 156, rfl⟩
abbrev main_call7_v0 : Ref sig .tc := ⟨.hbm, 157, rfl⟩
abbrev main_call7_v1 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_call8_c : Ref sig .tc := ⟨.hbm, 162, rfl⟩
abbrev main_call8_v0 : Ref sig .tc := ⟨.hbm, 163, rfl⟩
abbrev main_call8_v1 : Ref sig .tc := ⟨.hbm, 164, rfl⟩
abbrev main_call8_c_0 : Ref sig .tc := ⟨.hbm, 165, rfl⟩
abbrev main_call8_v2 : Ref sig .tc := ⟨.hbm, 166, rfl⟩
abbrev main_call8_v3 : Ref sig .tc := ⟨.hbm, 167, rfl⟩
abbrev main_call8_v4 : Ref sig .tc := ⟨.hbm, 168, rfl⟩
abbrev main_call8_v5 : Ref sig .tc := ⟨.hbm, 169, rfl⟩
abbrev main_call8_c_1 : Ref sig .tc := ⟨.hbm, 170, rfl⟩
abbrev main_call8_c_2 : Ref sig .tc := ⟨.hbm, 171, rfl⟩
abbrev main_call8_v6 : Ref sig .tc := ⟨.hbm, 172, rfl⟩
abbrev main_call8_v7 : Ref sig .tc := ⟨.hbm, 173, rfl⟩
abbrev main_call8_v8 : Ref sig .tc := ⟨.hbm, 174, rfl⟩
abbrev main_call8_v9 : Ref sig .tc := ⟨.hbm, 175, rfl⟩
abbrev main_call8_v10 : Ref sig .tc := ⟨.hbm, 176, rfl⟩
abbrev main_call8_v11 : Ref sig .tc := ⟨.hbm, 177, rfl⟩
abbrev main_call8_c_3 : Ref sig .tc := ⟨.hbm, 178, rfl⟩
abbrev main_call8_v12 : Ref sig .tc := ⟨.hbm, 179, rfl⟩
abbrev main_call8_v13 : Ref sig .tc := ⟨.hbm, 180, rfl⟩
abbrev main_call8_cst : Ref sig .tc := ⟨.hbm, 181, rfl⟩
abbrev main_call8_v14 : Ref sig .tc := ⟨.hbm, 182, rfl⟩
abbrev main_v57 : Ref sig .tc := ⟨.hbm, 183, rfl⟩
abbrev main_v58 : Ref sig .tc := ⟨.hbm, 184, rfl⟩
abbrev main_cst_15 : Ref sig .tc := ⟨.hbm, 185, rfl⟩
abbrev main_v59 : Ref sig .tc := ⟨.hbm, 186, rfl⟩
abbrev main_v60 : Ref sig .tc := ⟨.hbm, 187, rfl⟩
abbrev main_v61 : Ref sig .tc := ⟨.hbm, 188, rfl⟩
abbrev main_v62 : Ref sig .tc := ⟨.hbm, 189, rfl⟩
abbrev main_v63 : Ref sig .tc := ⟨.hbm, 190, rfl⟩
abbrev main_v64 : Ref sig .tc := ⟨.hbm, 191, rfl⟩
abbrev main_c_16 : Ref sig .tc := ⟨.hbm, 192, rfl⟩
abbrev main_v65 : Ref sig .tc := ⟨.hbm, 193, rfl⟩
abbrev main_c_17 : Ref sig .tc := ⟨.hbm, 194, rfl⟩
abbrev main_v66 : Ref sig .tc := ⟨.hbm, 195, rfl⟩
abbrev main_v67 : Ref sig .tc := ⟨.hbm, 196, rfl⟩
abbrev main_c_18 : Ref sig .tc := ⟨.hbm, 197, rfl⟩
abbrev main_call9_v0 : Ref sig .tc := ⟨.hbm, 198, rfl⟩
abbrev main_call9_v1 : Ref sig .tc := ⟨.hbm, 199, rfl⟩
abbrev main_v68 : Ref sig .tc := ⟨.hbm, 200, rfl⟩
abbrev main_v69 : Ref sig .tc := ⟨.hbm, 201, rfl⟩
abbrev main_v70 : Ref sig .tc := ⟨.hbm, 202, rfl⟩
abbrev main_call10_c : Ref sig .tc := ⟨.hbm, 203, rfl⟩
abbrev main_call10_v0 : Ref sig .tc := ⟨.hbm, 204, rfl⟩
abbrev main_call10_v1 : Ref sig .tc := ⟨.hbm, 205, rfl⟩
abbrev main_call10_c_0 : Ref sig .tc := ⟨.hbm, 206, rfl⟩
abbrev main_call10_v2 : Ref sig .tc := ⟨.hbm, 207, rfl⟩
abbrev main_call10_v3 : Ref sig .tc := ⟨.hbm, 208, rfl⟩
abbrev main_call10_v4 : Ref sig .tc := ⟨.hbm, 209, rfl⟩
abbrev main_call10_c_1 : Ref sig .tc := ⟨.hbm, 210, rfl⟩
abbrev main_call10_c_2 : Ref sig .tc := ⟨.hbm, 211, rfl⟩
abbrev main_call10_v5 : Ref sig .tc := ⟨.hbm, 212, rfl⟩
abbrev main_call10_v6 : Ref sig .tc := ⟨.hbm, 213, rfl⟩
abbrev main_call10_v7 : Ref sig .tc := ⟨.hbm, 214, rfl⟩
abbrev main_call10_v8 : Ref sig .tc := ⟨.hbm, 215, rfl⟩
abbrev main_call10_v9 : Ref sig .tc := ⟨.hbm, 216, rfl⟩
abbrev main_call10_c_3 : Ref sig .tc := ⟨.hbm, 217, rfl⟩
abbrev main_call10_v10 : Ref sig .tc := ⟨.hbm, 218, rfl⟩
abbrev main_call10_v11 : Ref sig .tc := ⟨.hbm, 219, rfl⟩
abbrev main_call10_v12 : Ref sig .tc := ⟨.hbm, 220, rfl⟩
abbrev main_call10_cst : Ref sig .tc := ⟨.hbm, 221, rfl⟩
abbrev main_call10_v13 : Ref sig .tc := ⟨.hbm, 222, rfl⟩
abbrev main_v71 : Ref sig .tc := ⟨.hbm, 223, rfl⟩
abbrev main_v72 : Ref sig .tc := ⟨.hbm, 224, rfl⟩
abbrev main_cst_19 : Ref sig .tc := ⟨.hbm, 225, rfl⟩
abbrev main_v73 : Ref sig .tc := ⟨.hbm, 226, rfl⟩
abbrev main_v74 : Ref sig .tc := ⟨.hbm, 227, rfl⟩

abbrev nD : Nat := 1
abbrev τ : Topo := Topo.v7x

variable {F : FTy → Type} [FloatOps F]

class Facts₀ : Prop where
  shapeCasts_S1x256x256x256_S256x256x256 : S1x256x256x256.ShapeCasts S256x256x256
  shapeCasts_S256x256x256_S16x16x16x16x16x16 : S256x256x256.ShapeCasts S16x16x16x16x16x16
  transposes_S16x16x16x16x16x16_S16x16x16x16x16x16_0_2_4_1_3_5 : S16x16x16x16x16x16.Transposes [0, 2, 4, 1, 3, 5] S16x16x16x16x16x16
  shapeCasts_S16x16x16x16x16x16_S4096x16x16x16 : S16x16x16x16x16x16.ShapeCasts S4096x16x16x16
  reducesTo_S4096x2x16x16x16_S4096x16x16x16_d1 : S4096x2x16x16x16.ReducesTo [1] S4096x16x16x16
  h_S_ : 0 < S_.numel
  bcast_S_S4096x16x16x16 : S_.BroadcastsInDim S4096x16x16x16 (![] : Fin 0 → Fin S4096x16x16x16.rank)
  bcast_S4096x16x16x16_S4096x1x16x16x16_0_2_3_4 : S4096x16x16x16.BroadcastsInDim S4096x1x16x16x16 (![0, 2, 3, 4] : Fin 4 → Fin S4096x1x16x16x16.rank)
  bcast_S4096x1x16x16x16_S4096x2x16x16x16_0_1_2_3_4 : S4096x1x16x16x16.BroadcastsInDim S4096x2x16x16x16 (![0, 1, 2, 3, 4] : Fin 5 → Fin S4096x2x16x16x16.rank)
  bcast_S_S4096x1x16x16x16 : S_.BroadcastsInDim S4096x1x16x16x16 (![] : Fin 0 → Fin S4096x1x16x16x16.rank)
  shapeCasts_S4096x1x16x16x16_S4096x1x16x16x16x1 : S4096x1x16x16x16.ShapeCasts S4096x1x16x16x16x1
  bcast_S_S4096x1x16x16x16x1 : S_.BroadcastsInDim S4096x1x16x16x16x1 (![] : Fin 0 → Fin S4096x1x16x16x16x1.rank)
  bcast_S1_S1x1x1x1x1x1_5 : S1.BroadcastsInDim S1x1x1x1x1x1 (![5] : Fin 1 → Fin S1x1x1x1x1x1.rank)
  bcast_S1x1x1x1x1x1_S4096x1x16x16x16x1_0_1_2_3_4_5 : S1x1x1x1x1x1.BroadcastsInDim S4096x1x16x16x16x1 (![0, 1, 2, 3, 4, 5] : Fin 6 → Fin S4096x1x16x16x16x1.rank)
  reducesTo_S4096x1x16x16x16x1_S4096x1x16x16x16_d5 : S4096x1x16x16x16x1.ReducesTo [5] S4096x1x16x16x16
  shapeCasts_S4096x1x16x16x16_S4096x16x16x16 : S4096x1x16x16x16.ShapeCasts S4096x16x16x16
  reducesTo_S4096x16x16x16_S4096_d1_2_3 : S4096x16x16x16.ReducesTo [1, 2, 3] S4096
  reducesTo_S4096_S_d0 : S4096.ReducesTo [0] S_
  shapeCasts_S256x256x256_S8x32x8x32x8x32 : S256x256x256.ShapeCasts S8x32x8x32x8x32
  transposes_S8x32x8x32x8x32_S8x8x8x32x32x32_0_2_4_1_3_5 : S8x32x8x32x8x32.Transposes [0, 2, 4, 1, 3, 5] S8x8x8x32x32x32
  shapeCasts_S8x8x8x32x32x32_S512x32x32x32 : S8x8x8x32x32x32.ShapeCasts S512x32x32x32
  shapeCasts_S512x32x32x32_S512x32768 : S512x32x32x32.ShapeCasts S512x32768
  reducesTo_S512x32768_S512_d1 : S512x32768.ReducesTo [1] S512
  bcast_S_S512 : S_.BroadcastsInDim S512 (![] : Fin 0 → Fin S512.rank)
  slices_S585x3_S512x3_0_0 : S585x3.Slices ![0, 0] S512x3
  bcast_S512_S512x1_0 : S512.BroadcastsInDim S512x1 (![0] : Fin 1 → Fin S512x1.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  reducesTo_S512x1_S_d0_1 : S512x1.ReducesTo [0, 1] S_
  shapeCasts_S256x256x256_S4x64x4x64x4x64 : S256x256x256.ShapeCasts S4x64x4x64x4x64
  transposes_S4x64x4x64x4x64_S4x4x4x64x64x64_0_2_4_1_3_5 : S4x64x4x64x4x64.Transposes [0, 2, 4, 1, 3, 5] S4x4x4x64x64x64
  shapeCasts_S4x4x4x64x64x64_S64x64x64x64 : S4x4x4x64x64x64.ShapeCasts S64x64x64x64
  shapeCasts_S64x64x64x64_S64x262144 : S64x64x64x64.ShapeCasts S64x262144
  reducesTo_S64x262144_S64_d1 : S64x262144.ReducesTo [1] S64
  bcast_S_S64 : S_.BroadcastsInDim S64 (![] : Fin 0 → Fin S64.rank)
  slices_S585x3_S64x3_512_0 : S585x3.Slices ![512, 0] S64x3
  bcast_S64_S64x1_0 : S64.BroadcastsInDim S64x1 (![0] : Fin 1 → Fin S64x1.rank)
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  reducesTo_S64x1_S_d0_1 : S64x1.ReducesTo [0, 1] S_
  shapeCasts_S256x256x256_S2x128x2x128x2x128 : S256x256x256.ShapeCasts S2x128x2x128x2x128
  transposes_S2x128x2x128x2x128_S2x2x2x128x128x128_0_2_4_1_3_5 : S2x128x2x128x2x128.Transposes [0, 2, 4, 1, 3, 5] S2x2x2x128x128x128
  shapeCasts_S2x2x2x128x128x128_S8x128x128x128 : S2x2x2x128x128x128.ShapeCasts S8x128x128x128
  shapeCasts_S8x128x128x128_S8x2097152 : S8x128x128x128.ShapeCasts S8x2097152
  reducesTo_S8x2097152_S8_d1 : S8x2097152.ReducesTo [1] S8
  bcast_S_S8 : S_.BroadcastsInDim S8 (![] : Fin 0 → Fin S8.rank)
  slices_S585x3_S8x3_576_0 : S585x3.Slices ![576, 0] S8x3
  bcast_S8_S8x1_0 : S8.BroadcastsInDim S8x1 (![0] : Fin 1 → Fin S8x1.rank)
  bcast_S_S8x1 : S_.BroadcastsInDim S8x1 (![] : Fin 0 → Fin S8x1.rank)
  shapeCasts_S8x1_S8x1x1 : S8x1.ShapeCasts S8x1x1
  bcast_S_S8x1x1 : S_.BroadcastsInDim S8x1x1 (![] : Fin 0 → Fin S8x1x1.rank)
  bcast_S1x1x1_S8x1x1_0_1_2 : S1x1x1.BroadcastsInDim S8x1x1 (![0, 1, 2] : Fin 3 → Fin S8x1x1.rank)
  reducesTo_S8x1x1_S8x1_d2 : S8x1x1.ReducesTo [2] S8x1
  reducesTo_S8x1_S_d0_1 : S8x1.ReducesTo [0, 1] S_
  shapeCasts_S256x256x256_S1x256x1x256x1x256 : S256x256x256.ShapeCasts S1x256x1x256x1x256
  transposes_S1x256x1x256x1x256_S1x1x1x256x256x256_0_2_4_1_3_5 : S1x256x1x256x1x256.Transposes [0, 2, 4, 1, 3, 5] S1x1x1x256x256x256
  shapeCasts_S1x1x1x256x256x256_S1x256x256x256 : S1x1x1x256x256x256.ShapeCasts S1x256x256x256
  shapeCasts_S1x256x256x256_S1x16777216 : S1x256x256x256.ShapeCasts S1x16777216
  reducesTo_S1x16777216_S1_d1 : S1x16777216.ReducesTo [1] S1
  bcast_S_S1 : S_.BroadcastsInDim S1 (![] : Fin 0 → Fin S1.rank)
  slices_S585x3_S1x3_584_0 : S585x3.Slices ![584, 0] S1x3
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  reducesTo_S1x1_S_d0_1 : S1x1.ReducesTo [0, 1] S_
  gather_S4096x2x16x16x16_S4096x1x16x16x16x1_S4096x1x16x16x16_n_1_0234_0234_1_5_11111_wf : GatherDims.WF S4096x2x16x16x16 S4096x1x16x16x16x1 S4096x1x16x16x16 [] [1] [0, 2, 3, 4] [1] [0, 2, 3, 4] 5 ![1, 1, 1, 1, 1]
  gather_S512x3_S512x1x1_S512x1_n_1_0_0_1_2_11_wf : GatherDims.WF S512x3 S512x1x1 S512x1 [] [1] [0] [1] [0] 2 ![1, 1]
  gather_S64x3_S64x1x1_S64x1_n_1_0_0_1_2_11_wf : GatherDims.WF S64x3 S64x1x1 S64x1 [] [1] [0] [1] [0] 2 ![1, 1]
  gather_S8x3_S8x1x1_S8x1_n_1_0_0_1_2_11_wf : GatherDims.WF S8x3 S8x1x1 S8x1 [] [1] [0] [1] [0] 2 ![1, 1]
  gather_S1x3_S1x1_S1x1_0_1_n_n_1_1_11_wf : GatherDims.WF S1x3 S1x1 S1x1 [0] [1] [] [1] [] 1 ![1, 1]

variable [Facts₀]

def gather_S4096x2x16x16x16_S4096x1x16x16x16x1_S4096x1x16x16x16_n_1_0234_0234_1_5_11111 : GatherDims S4096x2x16x16x16 S4096x1x16x16x16x1 S4096x1x16x16x16 where
  offsetDims := []
  collapsedSliceDims := [1]
  operandBatchingDims := [0, 2, 3, 4]
  startIndicesBatchingDims := [0, 2, 3, 4]
  startIndexMap := [1]
  indexVectorDim := 5
  sliceSizes := ![1, 1, 1, 1, 1]
  wf := gather_S4096x2x16x16x16_S4096x1x16x16x16x1_S4096x1x16x16x16_n_1_0234_0234_1_5_11111_wf
def gather_S512x3_S512x1x1_S512x1_n_1_0_0_1_2_11 : GatherDims S512x3 S512x1x1 S512x1 where
  offsetDims := []
  collapsedSliceDims := [1]
  operandBatchingDims := [0]
  startIndicesBatchingDims := [0]
  startIndexMap := [1]
  indexVectorDim := 2
  sliceSizes := ![1, 1]
  wf := gather_S512x3_S512x1x1_S512x1_n_1_0_0_1_2_11_wf
def gather_S64x3_S64x1x1_S64x1_n_1_0_0_1_2_11 : GatherDims S64x3 S64x1x1 S64x1 where
  offsetDims := []
  collapsedSliceDims := [1]
  operandBatchingDims := [0]
  startIndicesBatchingDims := [0]
  startIndexMap := [1]
  indexVectorDim := 2
  sliceSizes := ![1, 1]
  wf := gather_S64x3_S64x1x1_S64x1_n_1_0_0_1_2_11_wf
def gather_S8x3_S8x1x1_S8x1_n_1_0_0_1_2_11 : GatherDims S8x3 S8x1x1 S8x1 where
  offsetDims := []
  collapsedSliceDims := [1]
  operandBatchingDims := [0]
  startIndicesBatchingDims := [0]
  startIndexMap := [1]
  indexVectorDim := 2
  sliceSizes := ![1, 1]
  wf := gather_S8x3_S8x1x1_S8x1_n_1_0_0_1_2_11_wf
def gather_S1x3_S1x1_S1x1_0_1_n_n_1_1_11 : GatherDims S1x3 S1x1 S1x1 where
  offsetDims := [0]
  collapsedSliceDims := [1]
  operandBatchingDims := []
  startIndicesBatchingDims := []
  startIndexMap := [1]
  indexVectorDim := 1
  sliceSizes := ![1, 1]
  wf := gather_S1x3_S1x1_S1x1_0_1_n_n_1_1_11_wf

class Facts : Prop extends Facts₀ where

variable [Facts]
-- ==== Proof.Spec.lean ====
/-
  The level-0 loss as ONE function of the two arrays it depends on, stated over literal shapes and importing no program.

  The labels arrive block by block: `T (j, a, b, c)` is the label of voxel `(a, b, c)` of block `j`, and `X (j, k, a, b, c)`
  is the logit of class `k` there. Both programs treat the 16 · 16 · 16 voxels of a block as one run of 4096 entries
  (row-major: entry `q` is voxel `(q / 256, q / 16 % 16, q % 16)`); the kernel merely regroups that run as 32 rows of 128.

  Per entry the weight is 16 for label 0 and 1 otherwise, and the negative log-likelihood of the label under the
  two-class softmax is `logsumexp (a, b) - (the label's logit)`, with `logsumexp (a, b) = max a b + log (1 + exp (-|a - b|))`.
  A block's loss is its weighted mean, `(∑ w · nll) / (∑ w)`, and the level-0 loss is the sum of the 4096 blocks' losses.
-/
import Idealize.ShloMosaic.PureOps.Ideal
import Idealize.ShloMosaic.Lib.ValueIdx

noncomputable section

namespace Cert.Spec

open Idealize.ShloMosaic

/-- The labels, block by block. -/
abbrev ST : Shape := ⟨4, ![4096, 16, 16, 16]⟩
/-- The logits, block by block, the class axis second. -/
abbrev SX : Shape := ⟨5, ![4096, 2, 16, 16, 16]⟩

/-- Entry `q` of block `j` of the labels: voxel `(q / 256, q / 16 % 16, q % 16)`. -/
def tix (j q : Fin 4096) : ST.Idx := fun a => match a with
  | ⟨0, _⟩ => ⟨j.val, j.isLt⟩
  | ⟨1, _⟩ => ⟨q.val / 256, by have := q.isLt; show q.val / 256 < 16; omega⟩
  | ⟨2, _⟩ => ⟨q.val / 16 % 16, by show q.val / 16 % 16 < 16; omega⟩
  | ⟨3, _⟩ => ⟨q.val % 16, by show q.val % 16 < 16; omega⟩

/-- Entry `q` of block `j` of the logits of class `k`. -/
def xix (j : Fin 4096) (k : Fin 2) (q : Fin 4096) : SX.Idx := fun a => match a with
  | ⟨0, _⟩ => ⟨j.val, j.isLt⟩
  | ⟨1, _⟩ => ⟨k.val, k.isLt⟩
  | ⟨2, _⟩ => ⟨q.val / 256, by have := q.isLt; show q.val / 256 < 16; omega⟩
  | ⟨3, _⟩ => ⟨q.val / 16 % 16, by show q.val / 16 % 16 < 16; omega⟩
  | ⟨4, _⟩ => ⟨q.val % 16, by show q.val % 16 < 16; omega⟩

/-- The class weight of a label: 16 for label 0, 1 for any other. -/
def wgt (t : BitVec 32) : EReal := if t = 0#32 then 16 else 1

/-- The log of the sum of the exponentials of two logits, shifted by the larger: `max a b + log (1 + exp (-|a - b|))`. -/
def lse (a b : EReal) : EReal := max a b + Ideal.log (1 + Ideal.exp (-(max (a - b) (-(a - b)))))

/-- The negative log-likelihood of label `t` under the softmax of `(a, b)`: label 0 selects `a`, any other `b`. -/
def nll (a b : EReal) (t : BitVec 32) : EReal := lse a b - (if t = 0#32 then a else b)

variable (T : ST.Idx → BitVec 32) (X : SX.Idx → EReal)

/-- A block's weighted sum of negative log-likelihoods. -/
def num (j : Fin 4096) : EReal :=
  ∑ q : Fin 4096, wgt (T (tix j q)) * nll (X (xix j 0 q)) (X (xix j 1 q)) (T (tix j q))

/-- A block's total weight. -/
def den (j : Fin 4096) : EReal := ∑ q : Fin 4096, wgt (T (tix j q))

/-- THE LEVEL-0 LOSS: the sum over the blocks of each block's weighted mean. -/
def loss0 : EReal := ∑ j : Fin 4096, Ideal.div (num T X j) (den T j)

/-- The domain on which the two programs are compared: every logit a real number, every label 0 or 1. -/
structure Ok : Prop where
  fin : ∀ i, ∃ r : ℝ, X i = (r : EReal)
  lab : ∀ i, T i = 0#32 ∨ T i = 1#32

end Cert.Spec

end
-- ==== Proof.K.Kit.lean ====
/-
  What the frame of this program needs besides the kernel body's own run: @main as host lines, the one region, and
  more host lines; the contents the region finds; the blocks the two input windows hold at each grid point; and the
  facts about the later lines that let them run after the region — each touches only buffers that bypass the region or
  the region's three arrays, allocates nothing, and writes neither an array of the region nor an argument of @main.

  The region's arrays are the reshaped logits (window 0, read block by block), the reshaped labels (window 1, likewise)
  and the one-word result (window 2, the same block at every point, written back after the last point only).
-/
import proofs.«423392_j65163243815393_1_alg».proof.Proof.Gen.Kernel.Launch
import proofs.«423392_j65163243815393_1_alg».proof.Proof.Gen.Kernel.Skeleton
import proofs.«423392_j65163243815393_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch: the four coarser levels' block extrema, the table look-ups,
    their logarithms and sums, and the running total. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- Core `c`'s buffer contents when the region is entered: the launch contents after the six reshapes and the transposition
    that lay the labels and the logits out block by block. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

/-- @main is the earlier lines, the region, the later lines: it reduces to the region continued by the later lines,
    entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The buffers no later line may write: the region's three arrays and @main's three arguments. -/
abbrev kept : List (Ref sig .tc) := [main_v5, main_v4, main_v6, main_arg0, main_arg1, main_arg2]

theorem hostOps1_keeps : (hostOps1 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_1_keeps : (hostOps1_1 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_2_keeps : (hostOps1_2 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_3_keeps : (hostOps1_3 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_4_keeps : (hostOps1_4 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_5_keeps : (hostOps1_5 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_6_keeps : (hostOps1_6 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_7_keeps : (hostOps1_7 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_8_keeps : (hostOps1_8 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_9_keeps : (hostOps1_9 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_10_keeps : (hostOps1_10 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_11_keeps : (hostOps1_11 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_12_keeps : (hostOps1_12 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_13_keeps : (hostOps1_13 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_14_keeps : (hostOps1_14 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_15_keeps : (hostOps1_15 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_16_keeps : (hostOps1_16 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))

/-- Every later line, whichever stretch it is in, satisfies a property every stretch's lines satisfy. -/
theorem tail_forall {p : HloOp τ sig (Elt F) → Prop}
    (h0 : (hostOps1 : List (HloOp τ sig (Elt F))).Forall p)
    (h1 : (hostOps1_1 : List (HloOp τ sig (Elt F))).Forall p)
    (h2 : (hostOps1_2 : List (HloOp τ sig (Elt F))).Forall p)
    (h3 : (hostOps1_3 : List (HloOp τ sig (Elt F))).Forall p)
    (h4 : (hostOps1_4 : List (HloOp τ sig (Elt F))).Forall p)
    (h5 : (hostOps1_5 : List (HloOp τ sig (Elt F))).Forall p)
    (h6 : (hostOps1_6 : List (HloOp τ sig (Elt F))).Forall p)
    (h7 : (hostOps1_7 : List (HloOp τ sig (Elt F))).Forall p)
    (h8 : (hostOps1_8 : List (HloOp τ sig (Elt F))).Forall p)
    (h9 : (hostOps1_9 : List (HloOp τ sig (Elt F))).Forall p)
    (h10 : (hostOps1_10 : List (HloOp τ sig (Elt F))).Forall p)
    (h11 : (hostOps1_11 : List (HloOp τ sig (Elt F))).Forall p)
    (h12 : (hostOps1_12 : List (HloOp τ sig (Elt F))).Forall p)
    (h13 : (hostOps1_13 : List (HloOp τ sig (Elt F))).Forall p)
    (h14 : (hostOps1_14 : List (HloOp τ sig (Elt F))).Forall p)
    (h15 : (hostOps1_15 : List (HloOp τ sig (Elt F))).Forall p)
    (h16 : (hostOps1_16 : List (HloOp τ sig (Elt F))).Forall p) :
    ∀ ops ∈ (tailOps : List (List (HloOp τ sig (Elt F)))), ∀ op ∈ ops, p op := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop
  · exact (List.forall_iff_forall_mem.mp h9) op hop
  · exact (List.forall_iff_forall_mem.mp h10) op hop
  · exact (List.forall_iff_forall_mem.mp h11) op hop
  · exact (List.forall_iff_forall_mem.mp h12) op hop
  · exact (List.forall_iff_forall_mem.mp h13) op hop
  · exact (List.forall_iff_forall_mem.mp h14) op hop
  · exact (List.forall_iff_forall_mem.mp h15) op hop
  · exact (List.forall_iff_forall_mem.mp h16) op hop

/-- The later lines touch the region's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_forall (p := fun op => op.bufs ⊆ StableHlo.tcRefs τ sig)
    hostOps1_sub hostOps1_1_sub hostOps1_2_sub hostOps1_3_sub hostOps1_4_sub hostOps1_5_sub hostOps1_6_sub hostOps1_7_sub hostOps1_8_sub hostOps1_9_sub hostOps1_10_sub hostOps1_11_sub hostOps1_12_sub hostOps1_13_sub hostOps1_14_sub hostOps1_15_sub hostOps1_16_sub ops hops op hop)

/-- They allocate nothing. -/
theorem sfx_fresh : ∀ ops ∈ (tailOps : List (List (HloOp τ sig (Elt F)))), ∀ op ∈ ops, op.fresh = ∅ :=
  tail_forall hostOps1_fresh hostOps1_1_fresh hostOps1_2_fresh hostOps1_3_fresh hostOps1_4_fresh hostOps1_5_fresh hostOps1_6_fresh hostOps1_7_fresh hostOps1_8_fresh hostOps1_9_fresh hostOps1_10_fresh hostOps1_11_fresh hostOps1_12_fresh hostOps1_13_fresh hostOps1_14_fresh hostOps1_15_fresh hostOps1_16_fresh

/-- They write no kept buffer. -/
theorem sfx_kept : ∀ ops ∈ (tailOps : List (List (HloOp τ sig (Elt F)))), ∀ op ∈ ops, ∀ r ∈ kept, Proc.devRef (τ := τ) .tc r ∉ op.writes :=
  tail_forall hostOps1_keeps hostOps1_1_keeps hostOps1_2_keeps hostOps1_3_keeps hostOps1_4_keeps hostOps1_5_keeps hostOps1_6_keeps hostOps1_7_keeps hostOps1_8_keeps hostOps1_9_keeps hostOps1_10_keeps hostOps1_11_keeps hostOps1_12_keeps hostOps1_13_keeps hostOps1_14_keeps hostOps1_15_keeps hostOps1_16_keeps

/-- In particular they write no array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact sfx_kept ops hops op hop main_v5 (by simp [kept])
  · exact sfx_kept ops hops op hop main_v4 (by simp [kept])
  · exact sfx_kept ops hops op hop main_v6 (by simp [kept])

/-- The earlier lines write fresh buffers only: the arguments are as launched when the region is entered. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The logits' staging buffer holds the point's block of 128 label blocks' logits at every point, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The labels' staging buffer likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the later lines an argument of @main holds what it held at launch: no later line writes it, it is no array of
    the region, and no earlier line wrote it. -/
theorem arg_kept (dats : (p : Fin 1) → (c : Dev nD) → Dat τ (Elt F) Unit ℕ (UR sig nD τ) ℕ (cfgs p) c) (c : Dev nD)
    (b : Ref sig .tc) (hb : b ∈ kept) (hne : ∀ w, Pipeline.arrRef spec0 w ≠ b) (hV : V m c b = m ((c : Thread nD τ).loc b)) :
    Pipeline.afterTail₀ cfgs dats 0 (V0 m) tailOps c b = m ((c : Thread nD τ).loc b) := by
  unfold Pipeline.afterTail₀
  rw [StableHlo.after_of_forall_not_mem _ _ (fun op hop => by
    obtain ⟨ops, hops, hop'⟩ := List.mem_flatten.mp hop
    exact sfx_kept ops hops op hop' b hb), Pipeline.withArrays_of_ne _ c (V0 m c) _ b hne]
  exact hV

/-- THE FRAME from a frame run: the three arguments are buffers that bypass the region, so the run's post reads each at
    the contents after the later lines, which are the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (by decide)).trans (arg_kept m dats c main_arg0 (by simp [kept]) (by decide) (V_main_arg0 m c)),
     ((h c).2 main_arg1 (by decide)).trans (arg_kept m dats c main_arg1 (by simp [kept]) (by decide) (V_main_arg1 m c)),
     ((h c).2 main_arg2 (by decide)).trans (arg_kept m dats c main_arg2 (by simp [kept]) (by decide) (V_main_arg2 m c))⟩) h

/-! ## The body's one branch: "is this the first grid point?" -/

/-- The condition of the body's reset branch, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The result window is never idle. -/
theorem liveAt0_2 : ∀ t : Fin cfg0.N, cfg0.idle 2 (grid0.coords t) = false := by decide +kernel

/-! ## The staging memrefs the body is called with -/

/-- One staging buffer of the result window, through which its contents are stated. -/
abbrev VO0_2 : View sig .tc .vmem S1x1 .f32 := (Memref.whole cc0_stg2_0 : Memref sig .tc .vmem S1x1 .f32).view
abbrev ms0_0 (t : Fin cfg0.N) : Memref sig .tc .vmem S128x2x32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x32x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

end Cert.Kernel.Frm

end
-- ==== Proof.K.RunA.lean ====
/-
  The kernel body at the FIRST grid point. There the body first stores a zero into the one-word result buffer, then loads
  the point's logits and labels, forms the point's sum of block losses, reads the result buffer back (the zero it has just
  stored), adds, and stores the sum. Whatever the buffer held on entry is overwritten before it is read, so the run asks
  nothing of it.
-/
import proofs.«423392_j65163243815393_1_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first point's stores leave in the result buffer (last first), with the proof that from whole staging
    memrefs — the two inputs' at their contents, the result's at anything — the body runs to its continuation holding the
    inputs' as they were and the result's with those pieces written. The branch is decided by `hc0`. -/
noncomputable def kernelRun0_A (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : cond0_0 i)
    (x0 : Vec F S128x2x32x128 .f32) (x1 : Vec F S128x32x128 .i32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__loss0_kernel i arg1 harg1 arg2 harg2 arg3 harg3) K } := by
  refine ⟨?_, fun E K => ?run⟩
  case run =>
    simp only [cc0__loss0_kernel_eq_skeleton]; unfold cc0__loss0_kernel_skel
    simp only [k0_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Frm

end
-- ==== Proof.K.RunB.lean ====
/-
  The kernel body at every LATER grid point. There the reset branch is not taken: the body loads the point's logits and
  labels, forms the point's sum of block losses, reads the running total the point before left in the one-word result
  buffer, adds, and stores the sum.
-/
import proofs.«423392_j65163243815393_1_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a later point's store leaves in the result buffer, with the proof that from whole staging memrefs — the two
    inputs' at their contents, the result's at the running total `xo2` — the body runs to its continuation holding the inputs'
    as they were and the result's with those pieces written. The branch is decided by `hc0`. -/
noncomputable def kernelRun0_B (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : ¬cond0_0 i)
    (x0 : Vec F S128x2x32x128 .f32) (x1 : Vec F S128x32x128 .i32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__loss0_kernel i arg1 harg1 arg2 harg2 arg3 harg3) K } := by
  refine ⟨?_, fun E K => ?run⟩
  case run =>
    simp only [cc0__loss0_kernel_eq_skeleton]; unfold cc0__loss0_kernel_skel
    simp only [k0_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Frm

end
-- ==== Proof.K.Frame.lean ====
/-
  The frame of this program: every execution of @main ends, nothing faults, and the three arguments end as launched.

  The region runs its body at 32 grid points. The one-word result buffer is the same block at every point and is written
  back after the last point only, so what it holds after point `n` is defined by recursion on `n`: the first point's
  stores on their own, and at every later point that point's store over what the point before left. With that as the
  proof data the body's obligation at a point is the matching case's run; the region is then launched between the earlier
  and the later host lines, and the later lines, which write only fresh buffers, leave the arguments alone.
-/
import proofs.«423392_j65163243815393_1_alg».proof.Proof.K.RunA
import proofs.«423392_j65163243815393_1_alg».proof.Proof.K.RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's pieces cover the one-word result buffer. -/
theorem cover0_A_2 (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : cond0_0 i)
    (x0 : Vec F S128x2x32x128 .f32) (x1 : Vec F S128x32x128 .i32) (y : S1x1.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x1.size (by sl_kernel_rfl) y

/-- What the first point leaves in the result buffer: its pieces read back. -/
def out0_A_2 (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : cond0_0 i)
    (x0 : Vec F S128x2x32x128 .f32) (x1 : Vec F S128x32x128 .i32) : Vec F S1x1 .f32 :=
  VO0_2.read (Elt F) (VO0_2.writes (Elt F) VO0_2.junk (kernelRun0_A c i arg1 harg1 arg2 harg2 arg3 harg3 hc0 x0 x1).1)

/-- A later point's piece covers the one-word result buffer. -/
theorem cover0_B_2 (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : ¬cond0_0 i)
    (x0 : Vec F S128x2x32x128 .f32) (x1 : Vec F S128x32x128 .i32) (xo2 : Vec F S1x1 .f32) (y : S1x1.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x1.size (by sl_kernel_rfl) y

/-- What a later point leaves in the result buffer, given the running total `xo2` it found there. -/
def out0_B_2 (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : ¬cond0_0 i)
    (x0 : Vec F S128x2x32x128 .f32) (x1 : Vec F S128x32x128 .i32) (xo2 : Vec F S1x1 .f32) : Vec F S1x1 .f32 :=
  VO0_2.read (Elt F) (VO0_2.writes (Elt F) VO0_2.junk (kernelRun0_B c i arg1 harg1 arg2 harg2 arg3 harg3 hc0 x0 x1 xo2).1)

/-! ## What the result buffer holds after each point -/

/-- THE ACCUMULATION: after point 0 the first point's stores; after point `n + 1` that point's store over what point `n` left
    (the buffer is not written back in between). -/
def outsAt0 (c : Dev nD) : (n : ℕ) → n < cfg0.N → Vec F S1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr rfl) (iblk m c 0 ⟨0, hn⟩) (iblk m c 1 ⟨0, hn⟩)
  | n + 1, hn => out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => Nat.succ_ne_zero n ((hcond0_0 ⟨n + 1, hn⟩).mp h)) (iblk m c 0 ⟨n + 1, hn⟩) (iblk m c 1 ⟨n + 1, hn⟩) (outsAt0 c n (Nat.lt_of_succ_lt hn))

/-- At the first point. -/
theorem outsAt0_A (c : Dev nD) (t : Fin cfg0.N) (h0 : t.val = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact absurd h0 (Nat.succ_ne_zero n)

/-- At a later point: over what the point before left. -/
theorem outsAt0_B (c : Dev nD) (t : Fin cfg0.N) (h0 : ¬t.val = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact absurd rfl h0
  | succ n => exact rfl

/-! ## The region's proof data -/

/-- The arrays as the region finds them; after the body at point `t` each input's buffer at its block and the result's at
    `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point the result buffer holds what the body left at the point before: it was not written back between. -/
theorem before0_2_B (c : Dev nD) (t : Fin cfg0.N) (h0 : ¬t.val = 0) (d) :
    (dats m 0 c).before 2 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 2 rfl t h0 (Bool.eq_false_iff.mpr fun h => by have := (flush0_2 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; at the first point the first case's run applies whatever the
    result buffer holds, at a later point the second case's run applies at what the point before left; the invariant passes
    through unread and the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases h0 : t.val = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and every final state has each
    array of the region at what the proof data computes and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Frm

end
-- ==== Proof.KI.Kit.lean ====
/-
  What the frame of this program needs besides the kernel body's own run: @main as host lines, the one region, and
  more host lines; the contents the region finds; the blocks the two input windows hold at each grid point; and the
  facts about the later lines that let them run after the region — each touches only buffers that bypass the region or
  the region's three arrays, allocates nothing, and writes neither an array of the region nor an argument of @main.

  The region's arrays are the reshaped logits (window 0, read block by block), the reshaped labels (window 1, likewise)
  and the one-word result (window 2, the same block at every point, written back after the last point only).
-/
import proofs.«423392_j65163243815393_1_alg».proof.Proof.Gen.KernelIdeal.Launch
import proofs.«423392_j65163243815393_1_alg».proof.Proof.Gen.KernelIdeal.Skeleton
import proofs.«423392_j65163243815393_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch: the four coarser levels' block extrema, the table look-ups,
    their logarithms and sums, and the running total. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- Core `c`'s buffer contents when the region is entered: the launch contents after the six reshapes and the transposition
    that lay the labels and the logits out block by block. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

/-- @main is the earlier lines, the region, the later lines: it reduces to the region continued by the later lines,
    entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The buffers no later line may write: the region's three arrays and @main's three arguments. -/
abbrev kept : List (Ref sig .tc) := [main_v5, main_v4, main_v6, main_arg0, main_arg1, main_arg2]

theorem hostOps1_keeps : (hostOps1 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_1_keeps : (hostOps1_1 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_2_keeps : (hostOps1_2 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_3_keeps : (hostOps1_3 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_4_keeps : (hostOps1_4 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_5_keeps : (hostOps1_5 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_6_keeps : (hostOps1_6 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_7_keeps : (hostOps1_7 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_8_keeps : (hostOps1_8 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_9_keeps : (hostOps1_9 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_10_keeps : (hostOps1_10 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_11_keeps : (hostOps1_11 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_12_keeps : (hostOps1_12 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_13_keeps : (hostOps1_13 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_14_keeps : (hostOps1_14 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_15_keeps : (hostOps1_15 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))
theorem hostOps1_16_keeps : (hostOps1_16 : List (HloOp τ sig (Elt F))).Forall fun op => ∀ r ∈ kept, Proc.devRef (τ := τ) .tc r ∉ op.writes := by
  simp only [List.Forall]
  repeat' constructor
  all_goals (intro r hr; simp only [kept, List.mem_cons, List.mem_nil_iff, or_false] at hr
             rcases hr with rfl | rfl | rfl | rfl | rfl | rfl <;>
               simp only [StableHlo.nullary_writes, StableHlo.unary_writes, StableHlo.binary_writes, StableHlo.ternary_writes, StableHlo.reshape_writes, Finset.mem_singleton] <;>
               exact StableHlo.devRef_ne_of_ne (by decide))

/-- Every later line, whichever stretch it is in, satisfies a property every stretch's lines satisfy. -/
theorem tail_forall {p : HloOp τ sig (Elt F) → Prop}
    (h0 : (hostOps1 : List (HloOp τ sig (Elt F))).Forall p)
    (h1 : (hostOps1_1 : List (HloOp τ sig (Elt F))).Forall p)
    (h2 : (hostOps1_2 : List (HloOp τ sig (Elt F))).Forall p)
    (h3 : (hostOps1_3 : List (HloOp τ sig (Elt F))).Forall p)
    (h4 : (hostOps1_4 : List (HloOp τ sig (Elt F))).Forall p)
    (h5 : (hostOps1_5 : List (HloOp τ sig (Elt F))).Forall p)
    (h6 : (hostOps1_6 : List (HloOp τ sig (Elt F))).Forall p)
    (h7 : (hostOps1_7 : List (HloOp τ sig (Elt F))).Forall p)
    (h8 : (hostOps1_8 : List (HloOp τ sig (Elt F))).Forall p)
    (h9 : (hostOps1_9 : List (HloOp τ sig (Elt F))).Forall p)
    (h10 : (hostOps1_10 : List (HloOp τ sig (Elt F))).Forall p)
    (h11 : (hostOps1_11 : List (HloOp τ sig (Elt F))).Forall p)
    (h12 : (hostOps1_12 : List (HloOp τ sig (Elt F))).Forall p)
    (h13 : (hostOps1_13 : List (HloOp τ sig (Elt F))).Forall p)
    (h14 : (hostOps1_14 : List (HloOp τ sig (Elt F))).Forall p)
    (h15 : (hostOps1_15 : List (HloOp τ sig (Elt F))).Forall p)
    (h16 : (hostOps1_16 : List (HloOp τ sig (Elt F))).Forall p) :
    ∀ ops ∈ (tailOps : List (List (HloOp τ sig (Elt F)))), ∀ op ∈ ops, p op := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop
  · exact (List.forall_iff_forall_mem.mp h9) op hop
  · exact (List.forall_iff_forall_mem.mp h10) op hop
  · exact (List.forall_iff_forall_mem.mp h11) op hop
  · exact (List.forall_iff_forall_mem.mp h12) op hop
  · exact (List.forall_iff_forall_mem.mp h13) op hop
  · exact (List.forall_iff_forall_mem.mp h14) op hop
  · exact (List.forall_iff_forall_mem.mp h15) op hop
  · exact (List.forall_iff_forall_mem.mp h16) op hop

/-- The later lines touch the region's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_forall (p := fun op => op.bufs ⊆ StableHlo.tcRefs τ sig)
    hostOps1_sub hostOps1_1_sub hostOps1_2_sub hostOps1_3_sub hostOps1_4_sub hostOps1_5_sub hostOps1_6_sub hostOps1_7_sub hostOps1_8_sub hostOps1_9_sub hostOps1_10_sub hostOps1_11_sub hostOps1_12_sub hostOps1_13_sub hostOps1_14_sub hostOps1_15_sub hostOps1_16_sub ops hops op hop)

/-- They allocate nothing. -/
theorem sfx_fresh : ∀ ops ∈ (tailOps : List (List (HloOp τ sig (Elt F)))), ∀ op ∈ ops, op.fresh = ∅ :=
  tail_forall hostOps1_fresh hostOps1_1_fresh hostOps1_2_fresh hostOps1_3_fresh hostOps1_4_fresh hostOps1_5_fresh hostOps1_6_fresh hostOps1_7_fresh hostOps1_8_fresh hostOps1_9_fresh hostOps1_10_fresh hostOps1_11_fresh hostOps1_12_fresh hostOps1_13_fresh hostOps1_14_fresh hostOps1_15_fresh hostOps1_16_fresh

/-- They write no kept buffer. -/
theorem sfx_kept : ∀ ops ∈ (tailOps : List (List (HloOp τ sig (Elt F)))), ∀ op ∈ ops, ∀ r ∈ kept, Proc.devRef (τ := τ) .tc r ∉ op.writes :=
  tail_forall hostOps1_keeps hostOps1_1_keeps hostOps1_2_keeps hostOps1_3_keeps hostOps1_4_keeps hostOps1_5_keeps hostOps1_6_keeps hostOps1_7_keeps hostOps1_8_keeps hostOps1_9_keeps hostOps1_10_keeps hostOps1_11_keeps hostOps1_12_keeps hostOps1_13_keeps hostOps1_14_keeps hostOps1_15_keeps hostOps1_16_keeps

/-- In particular they write no array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact sfx_kept ops hops op hop main_v5 (by simp [kept])
  · exact sfx_kept ops hops op hop main_v4 (by simp [kept])
  · exact sfx_kept ops hops op hop main_v6 (by simp [kept])

/-- The earlier lines write fresh buffers only: the arguments are as launched when the region is entered. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The logits' staging buffer holds the point's block of 128 label blocks' logits at every point, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The labels' staging buffer likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- After the later lines an argument of @main holds what it held at launch: no later line writes it, it is no array of
    the region, and no earlier line wrote it. -/
theorem arg_kept (dats : (p : Fin 1) → (c : Dev nD) → Dat τ (Elt F) Unit ℕ (UR sig nD τ) ℕ (cfgs p) c) (c : Dev nD)
    (b : Ref sig .tc) (hb : b ∈ kept) (hne : ∀ w, Pipeline.arrRef spec0 w ≠ b) (hV : V m c b = m ((c : Thread nD τ).loc b)) :
    Pipeline.afterTail₀ cfgs dats 0 (V0 m) tailOps c b = m ((c : Thread nD τ).loc b) := by
  unfold Pipeline.afterTail₀
  rw [StableHlo.after_of_forall_not_mem _ _ (fun op hop => by
    obtain ⟨ops, hops, hop'⟩ := List.mem_flatten.mp hop
    exact sfx_kept ops hops op hop' b hb), Pipeline.withArrays_of_ne _ c (V0 m c) _ b hne]
  exact hV

/-- THE FRAME from a frame run: the three arguments are buffers that bypass the region, so the run's post reads each at
    the contents after the later lines, which are the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (by decide)).trans (arg_kept m dats c main_arg0 (by simp [kept]) (by decide) (V_main_arg0 m c)),
     ((h c).2 main_arg1 (by decide)).trans (arg_kept m dats c main_arg1 (by simp [kept]) (by decide) (V_main_arg1 m c)),
     ((h c).2 main_arg2 (by decide)).trans (arg_kept m dats c main_arg2 (by simp [kept]) (by decide) (V_main_arg2 m c))⟩) h

/-! ## The body's one branch: "is this the first grid point?" -/

/-- The condition of the body's reset branch, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The result window is never idle. -/
theorem liveAt0_2 : ∀ t : Fin cfg0.N, cfg0.idle 2 (grid0.coords t) = false := by decide +kernel

/-! ## The staging memrefs the body is called with -/

/-- One staging buffer of the result window, through which its contents are stated. -/
abbrev VO0_2 : View sig .tc .vmem S1x1 .f32 := (Memref.whole cc0_stg2_0 : Memref sig .tc .vmem S1x1 .f32).view
abbrev ms0_0 (t : Fin cfg0.N) : Memref sig .tc .vmem S128x2x32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x32x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

end Cert.KernelIdeal.Frm

end
-- ==== Proof.KI.RunA.lean ====
/-
  The kernel body at the FIRST grid point. There the body first stores a zero into the one-word result buffer, then loads
  the point's logits and labels, forms the point's sum of block losses, reads the result buffer back (the zero it has just
  stored), adds, and stores the sum. Whatever the buffer held on entry is overwritten before it is read, so the run asks
  nothing of it.
-/
import proofs.«423392_j65163243815393_1_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first point's stores leave in the result buffer (last first), with the proof that from whole staging
    memrefs — the two inputs' at their contents, the result's at anything — the body runs to its continuation holding the
    inputs' as they were and the result's with those pieces written. The branch is decided by `hc0`. -/
noncomputable def kernelRun0_A (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : cond0_0 i)
    (x0 : Vec F S128x2x32x128 .f32) (x1 : Vec F S128x32x128 .i32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__loss0_kernel i arg1 harg1 arg2 harg2 arg3 harg3) K } := by
  refine ⟨?_, fun E K => ?run⟩
  case run =>
    simp only [cc0__loss0_kernel_eq_skeleton]; unfold cc0__loss0_kernel_skel
    simp only [k0_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Frm

end
-- ==== Proof.KI.RunB.lean ====
/-
  The kernel body at every LATER grid point. There the reset branch is not taken: the body loads the point's logits and
  labels, forms the point's sum of block losses, reads the running total the point before left in the one-word result
  buffer, adds, and stores the sum.
-/
import proofs.«423392_j65163243815393_1_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a later point's store leaves in the result buffer, with the proof that from whole staging memrefs — the two
    inputs' at their contents, the result's at the running total `xo2` — the body runs to its continuation holding the inputs'
    as they were and the result's with those pieces written. The branch is decided by `hc0`. -/
noncomputable def kernelRun0_B (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : ¬cond0_0 i)
    (x0 : Vec F S128x2x32x128 .f32) (x1 : Vec F S128x32x128 .i32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__loss0_kernel i arg1 harg1 arg2 harg2 arg3 harg3) K } := by
  refine ⟨?_, fun E K => ?run⟩
  case run =>
    simp only [cc0__loss0_kernel_eq_skeleton]; unfold cc0__loss0_kernel_skel
    simp only [k0_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Frm

end
-- ==== Proof.KI.Frame.lean ====
/-
  The frame of this program: every execution of @main ends, nothing faults, and the three arguments end as launched.

  The region runs its body at 32 grid points. The one-word result buffer is the same block at every point and is written
  back after the last point only, so what it holds after point `n` is defined by recursion on `n`: the first point's
  stores on their own, and at every later point that point's store over what the point before left. With that as the
  proof data the body's obligation at a point is the matching case's run; the region is then launched between the earlier
  and the later host lines, and the later lines, which write only fresh buffers, leave the arguments alone.
-/
import proofs.«423392_j65163243815393_1_alg».proof.Proof.KI.RunA
import proofs.«423392_j65163243815393_1_alg».proof.Proof.KI.RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's pieces cover the one-word result buffer. -/
theorem cover0_A_2 (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : cond0_0 i)
    (x0 : Vec F S128x2x32x128 .f32) (x1 : Vec F S128x32x128 .i32) (y : S1x1.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x1.size (by sl_kernel_rfl) y

/-- What the first point leaves in the result buffer: its pieces read back. -/
def out0_A_2 (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : cond0_0 i)
    (x0 : Vec F S128x2x32x128 .f32) (x1 : Vec F S128x32x128 .i32) : Vec F S1x1 .f32 :=
  VO0_2.read (Elt F) (VO0_2.writes (Elt F) VO0_2.junk (kernelRun0_A c i arg1 harg1 arg2 harg2 arg3 harg3 hc0 x0 x1).1)

/-- A later point's piece covers the one-word result buffer. -/
theorem cover0_B_2 (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : ¬cond0_0 i)
    (x0 : Vec F S128x2x32x128 .f32) (x1 : Vec F S128x32x128 .i32) (xo2 : Vec F S1x1 .f32) (y : S1x1.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x1.size (by sl_kernel_rfl) y

/-- What a later point leaves in the result buffer, given the running total `xo2` it found there. -/
def out0_B_2 (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : ¬cond0_0 i)
    (x0 : Vec F S128x2x32x128 .f32) (x1 : Vec F S128x32x128 .i32) (xo2 : Vec F S1x1 .f32) : Vec F S1x1 .f32 :=
  VO0_2.read (Elt F) (VO0_2.writes (Elt F) VO0_2.junk (kernelRun0_B c i arg1 harg1 arg2 harg2 arg3 harg3 hc0 x0 x1 xo2).1)

/-! ## What the result buffer holds after each point -/

/-- THE ACCUMULATION: after point 0 the first point's stores; after point `n + 1` that point's store over what point `n` left
    (the buffer is not written back in between). -/
def outsAt0 (c : Dev nD) : (n : ℕ) → n < cfg0.N → Vec F S1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr rfl) (iblk m c 0 ⟨0, hn⟩) (iblk m c 1 ⟨0, hn⟩)
  | n + 1, hn => out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => Nat.succ_ne_zero n ((hcond0_0 ⟨n + 1, hn⟩).mp h)) (iblk m c 0 ⟨n + 1, hn⟩) (iblk m c 1 ⟨n + 1, hn⟩) (outsAt0 c n (Nat.lt_of_succ_lt hn))

/-- At the first point. -/
theorem outsAt0_A (c : Dev nD) (t : Fin cfg0.N) (h0 : t.val = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact absurd h0 (Nat.succ_ne_zero n)

/-- At a later point: over what the point before left. -/
theorem outsAt0_B (c : Dev nD) (t : Fin cfg0.N) (h0 : ¬t.val = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact absurd rfl h0
  | succ n => exact rfl

/-! ## The region's proof data -/

/-- The arrays as the region finds them; after the body at point `t` each input's buffer at its block and the result's at
    `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point the result buffer holds what the body left at the point before: it was not written back between. -/
theorem before0_2_B (c : Dev nD) (t : Fin cfg0.N) (h0 : ¬t.val = 0) (d) :
    (dats m 0 c).before 2 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 2 rfl t h0 (Bool.eq_false_iff.mpr fun h => by have := (flush0_2 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; at the first point the first case's run applies whatever the
    result buffer holds, at a later point the second case's run applies at what the point before left; the invariant passes
    through unread and the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases h0 : t.val = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and every final state has each
    array of the region at what the proof data computes and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Frm

end
-- ==== Proof.KI.Value.lean ====
/-
  The value of the region of this program, read off its frame run at the ideal instance.

  The region runs its body at 32 grid points and keeps a one-word running total in the result window's buffer, which is
  written back once, after the last point. At the first point the body stores a zero word, reads it back, adds the
  point's sum (the sum, over the point's 128 label blocks, of each block's weighted mean loss: the payload `k0_pay3` of the
  point's two input blocks) and stores the result; at every later point it adds the point's sum to what the point before
  left. Each case's stores are read back as values, at any float instance. Over the extended reals addition is
  associative with neutral element zero, so after point `n` the buffer holds the sum of the points' sums up to `n`, and
  the result array ends holding the sum over all 32 points. The later host lines then run from the buffer contents in
  which that array holds this sum and every buffer that is no array of the region is as the region found it.
-/
import proofs.«423392_j65163243815393_1_alg».proof.Proof.KI.Frame
import Idealize.ShloMosaic.Lib.Pipeline.Value
import Idealize.ShloMosaic.Lib.ValueIdx
import Idealize.ShloMosaic.PureOps.Ideal.Laws
import Idealize.ShloMosaic.Lib.Tactic
import Mathlib.Algebra.BigOperators.Fin

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.Sem
open Idealize.ShloMosaic.Pipeline (Dat)

/-! ## What each case's stores leave in the result buffer -/

section Pieces

variable {F : FTy → Type} [FloatOps F]

/-- The body addresses each of its three buffers at offsets zero on every axis. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A LATER POINT: its one store covers the word, and its loads read the three buffers whole, so the buffer ends at the
    update of the running total `xo2` by the point's sum over the blocks `x0`, `x1`. -/
theorem out0_B_2_eq (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : ¬cond0_0 i)
    (x0 : Vec F S128x2x32x128 .f32) (x1 : Vec F S128x32x128 .i32) (xo2 : Vec F S1x1 .f32) :
    out0_B_2 (F := F) c i arg1 harg1 arg2 harg2 arg3 harg3 hc0 x0 x1 xo2 = k0_pay1 (k0_pay3 x0 x1) xo2 := by
  unfold out0_B_2
  rw [View.read_writes_eq_canon _ _ _ (cover0_B_2 c i arg1 harg1 arg2 harg2 arg3 harg3 hc0 x0 x1 xo2)]
  unfold kernelRun0_B
  dsimp only
  sl_unfold_words
  rw [View.canon_unit_zero (S := S1x1) hz2]
  simp only [View.readAt_eq_ld, harg1.read_unread, harg2.read_unread, harg3.read_unread,
    View.ld_unit_zero (S := S1x1) hz2, View.ld_unit_zero (S := S128x2x32x128) hz4, View.ld_unit_zero (S := S128x32x128) hz3]

/-- THE FIRST POINT: two stores, the later covering the word; the later one's payload reads back what the earlier one (the
    zero word) stored, so the buffer ends at the update of the zero word by the point's sum, whatever it held before. -/
theorem out0_A_2_eq (c : Dev nD) (i : grid0.Coords) (arg1 : Memref sig .tc .vmem S128x2x32x128 .f32) (harg1 : arg1.IsWhole) (arg2 : Memref sig .tc .vmem S128x32x128 .i32) (harg2 : arg2.IsWhole) (arg3 : Memref sig .tc .vmem S1x1 .f32) (harg3 : arg3.IsWhole) (hc0 : cond0_0 i)
    (x0 : Vec F S128x2x32x128 .f32) (x1 : Vec F S128x32x128 .i32) :
    out0_A_2 (F := F) c i arg1 harg1 arg2 harg2 arg3 harg3 hc0 x0 x1 = k0_pay1 (k0_pay3 x0 x1) (k0_pay2 (F := F)) := by
  unfold out0_A_2
  rw [View.read_writes_eq_canon _ _ _ (cover0_A_2 c i arg1 harg1 arg2 harg2 arg3 harg3 hc0 x0 x1)]
  unfold kernelRun0_A
  dsimp only
  sl_unfold_words
  rw [View.canon_cons_unit_zero (S := S1x1) hz2]
  simp only [View.readAt_eq_ld, harg1.read_unread, harg2.read_unread,
    View.ld_unit_zero (S := S1x1) hz2, View.ld_unit_zero (S := S128x2x32x128) hz4, View.ld_unit_zero (S := S128x32x128) hz3,
    View.readCov_unit_zero (S := S1x1) _ hz2]

/-- The update is an addition: of its three reshapes one is to the shape it starts from and the other two go from the
    one-word shape to a one-entry shape of rank three and back. -/
theorem pay1_eq (v39 : FVec F S1x1 .f32) (v41 : Vec F S1x1 .f32) : k0_pay1 v39 v41 = addf v41 v39 := by
  unfold k0_pay1
  dsimp only
  rw [shapeCast_self, shapeCast_shapeCast]

end Pieces

/-! ## The accumulation over the grid, in the extended reals -/

/-- The one-word shape has one index. -/
theorem idx_eq (y y' : S1x1.Idx) : y = y' :=
  funext fun a => match a with
    | ⟨0, _⟩ => Subsingleton.elim (α := Fin 1) _ _
    | ⟨1, _⟩ => Subsingleton.elim (α := Fin 1) _ _

/-- At the ideal instance the update adds the two words as extended reals, -/
theorem pay1_apply (v39 : FVec Ideal S1x1 .f32) (v41 : Vec Ideal S1x1 .f32) (y : S1x1.Idx) :
    k0_pay1 (F := Ideal) v39 v41 y = v41 y + v39 y := by
  rw [pay1_eq]; rfl

/-- and the word the first point stores first is zero. -/
theorem pay2_apply (y : S1x1.Idx) : k0_pay2 (F := Ideal) y = (0 : EReal) := by
  show Ideal.ofBits .f32 0x00000000#32 = 0
  exact Ideal.ofBits_zero_f32

theorem pay2_eq : k0_pay2 (F := Ideal) = fun _ => (0 : EReal) := funext pay2_apply

/-- A running total that starts at `0 + g 0` and at step `n + 1` adds `g (n + 1)` to what step `n` left is, after step `n`,
    the sum of `g` over the steps up to `n`: addition of extended reals is associative with neutral element zero. -/
theorem running_total {N : ℕ} (g : Fin N → EReal) (a : (n : ℕ) → n < N → EReal)
    (h0 : ∀ h : 0 < N, a 0 h = 0 + g ⟨0, h⟩)
    (hs : ∀ (n : ℕ) (h : n + 1 < N), a (n + 1) h = a n (Nat.lt_of_succ_lt h) + g ⟨n + 1, h⟩) :
    ∀ (n : ℕ) (h : n < N), a n h = ∑ s : Fin (n + 1), g ⟨s.val, Nat.lt_of_lt_of_le s.isLt (Nat.succ_le_of_lt h)⟩ := by
  intro n
  induction n with
  | zero => intro h; rw [h0 h, Fin.sum_univ_castSucc, Fin.sum_univ_zero]; rfl
  | succ n ih => intro h; rw [hs n h, ih (Nat.lt_of_succ_lt h), Fin.sum_univ_castSucc (n := n + 1)]; rfl

section AtIdeal

variable (m : (ℓ : Loc nD τ sig) → Buf (Elt Ideal) ℓ) (ρ : Dev nD → PrngReg)

/-- THE RUNNING TOTAL: after point `n` the result buffer holds the sum, over the points up to `n`, of each point's sum of
    its 128 blocks' losses. By induction on the point: the first point leaves `0 + ` its sum, a later point adds its sum
    to what the point before left. -/
theorem outsAt0_sum (c : Dev nD) (n : ℕ) (hn : n < cfg0.N) (y : S1x1.Idx) :
    outsAt0 (F := Ideal) m c n hn y
      = ∑ s : Fin (n + 1), k0_pay3 (F := Ideal) (iblk (F := Ideal) m c 0 ⟨s.val, Nat.lt_of_lt_of_le s.isLt (Nat.succ_le_of_lt hn)⟩)
          (iblk (F := Ideal) m c 1 ⟨s.val, Nat.lt_of_lt_of_le s.isLt (Nat.succ_le_of_lt hn)⟩) y := by
  refine running_total (fun t : Fin cfg0.N => k0_pay3 (F := Ideal) (iblk (F := Ideal) m c 0 t) (iblk (F := Ideal) m c 1 t) y)
    (fun n hn => outsAt0 (F := Ideal) m c n hn y) (fun h => ?_) (fun k h => ?_) n hn
  · have e : outsAt0 (F := Ideal) m c 0 h
        = k0_pay1 (k0_pay3 (F := Ideal) (iblk (F := Ideal) m c 0 ⟨0, h⟩) (iblk (F := Ideal) m c 1 ⟨0, h⟩)) (k0_pay2 (F := Ideal)) :=
      out0_A_2_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        ((hcond0_0 ⟨0, h⟩).mpr rfl) (iblk (F := Ideal) m c 0 ⟨0, h⟩) (iblk (F := Ideal) m c 1 ⟨0, h⟩)
    show outsAt0 (F := Ideal) m c 0 h y = _
    rw [e, pay1_apply, pay2_apply]
  · have e : outsAt0 (F := Ideal) m c (k + 1) h
        = k0_pay1 (k0_pay3 (F := Ideal) (iblk (F := Ideal) m c 0 ⟨k + 1, h⟩) (iblk (F := Ideal) m c 1 ⟨k + 1, h⟩)) (outsAt0 (F := Ideal) m c k (Nat.lt_of_succ_lt h)) :=
      out0_B_2_eq (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩)
        (fun hc => Nat.succ_ne_zero k ((hcond0_0 ⟨k + 1, h⟩).mp hc)) (iblk (F := Ideal) m c 0 ⟨k + 1, h⟩) (iblk (F := Ideal) m c 1 ⟨k + 1, h⟩)
        (outsAt0 (F := Ideal) m c k (Nat.lt_of_succ_lt h))
    show outsAt0 (F := Ideal) m c (k + 1) h y = _
    rw [e, pay1_apply]

/-! ## The result array after the region -/

/-- The last grid point: the only one after which the result buffer is written back. -/
abbrev tlast : Fin cfg0.N := ⟨31, by decide⟩

/-- What the result array ends holding: the running total after the last point. -/
abbrev total (c : Dev nD) : Buf (Elt Ideal) ((c.tc : Thread nD τ).loc main_v6) := outsAt0 (F := Ideal) m c 31 tlast.isLt

/-- The result window's block is the whole one-word array at every point: its block index is zero on both axes. -/
theorem blk2_off : ∀ t : Fin cfg0.N, (fun a => win0_2.index t a * main_v6.ty.shape.size a) = fun _ => 0 :=
  (by decide +kernel : ∀ t : Fin grid0.N, (fun a => win0_2.index t a * main_v6.ty.shape.size a) = fun _ => 0)

/-- The one write-back writes the running total: it happens after the last point, and its block, read off an array
    holding the total, is the total. -/
theorem flushed_last (c : Dev nD) (t : Fin cfg0.N) (hf : (cfg0.win 2).flush t = true) :
    (dats (F := Ideal) m 0 c).flushed 2 t = ((cfg0.win 2).blk t).view.read (Elt Ideal) (total m c) := by
  have ht : t = tlast := Fin.ext (by
    have h := (flush0_2 t).mp hf
    have hN : t.val < 32 := lt_of_lt_of_eq t.isLt (show cfg0.N = 32 from N_0)
    show t.val = 31
    omega)
  subst ht
  show (cfg0.win 2).cut (grid0.coords tlast) ((dats (F := Ideal) m 0 c).after 2 tlast) = _
  rw [after0_2]
  exact (Memref.read_access_unit_zero (Elt Ideal) main_v6 (blk2_off tlast) (fun a => by rw [congrFun (blk2_off tlast) a]; simp) (total m c)).symm

/-- So the result array ends holding the running total: the block written back after the last point is all of it. -/
theorem arr2_total (c : Dev nD) : (dats (F := Ideal) m 0 c).arrAt 2 cfg0.N = total m c :=
  (dats (F := Ideal) m 0 c).arrAt_eq_of_cover 2 (total m c) (flushed_last m c) fun i =>
    ⟨tlast, (flush0_2 tlast).mpr rfl, by
      show i ∈ ((View.whole main_v6).slice (win0_2.rect tlast)).set
      rw [View.set_slice_whole]
      exact View.mem_set_unit_zero (blk2_off tlast) _ i⟩

/-- THE RESULT ARRAY AFTER THE REGION: the sum over the 32 grid points of each point's sum of its 128 blocks' losses. -/
theorem arr2_final (c : Dev nD) (y : S1x1.Idx) :
    (dats (F := Ideal) m 0 c).arrAt 2 cfg0.N y
      = ∑ t : Fin cfg0.N, k0_pay3 (F := Ideal) (iblk (F := Ideal) m c 0 t) (iblk (F := Ideal) m c 1 t) y := by
  rw [arr2_total]
  show outsAt0 (F := Ideal) m c 31 tlast.isLt y = _
  rw [outsAt0_sum m c 31 tlast.isLt y]
  exact Fin.sum_congr' (fun t : Fin cfg0.N => k0_pay3 (F := Ideal) (iblk (F := Ideal) m c 0 t) (iblk (F := Ideal) m c 1 t) y)
    (show 31 + 1 = cfg0.N from N_0.symm)

/-! ## The run, read -/

/-- From any memory with zero counters every execution of @main ends with the total loss `%63` at what the later host lines
    compute from the region's arrays, and the three arguments as launched. -/
theorem run_value : θ_run defs (onTc (τ := τ) (main (F := Ideal))) ⟨m, fun _ => 0, ρ⟩ (fun r => ∀ c : Dev nD,
      r.2.mem ((c.tc : Thread nD τ).loc main_v63) = Pipeline.afterTail₀ cfgs (dats (F := Ideal) m) 0 (V0 m) tailOps c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v63 (by decide),
     ((h c).2 main_arg0 (by decide)).trans (arg_kept m (dats (F := Ideal) m) c main_arg0 (by simp [kept]) (by decide) (V_main_arg0 m c)),
     ((h c).2 main_arg1 (by decide)).trans (arg_kept m (dats (F := Ideal) m) c main_arg1 (by simp [kept]) (by decide) (V_main_arg1 m c)),
     ((h c).2 main_arg2 (by decide)).trans (arg_kept m (dats (F := Ideal) m) c main_arg2 (by simp [kept]) (by decide) (V_main_arg2 m c))⟩)
    (run_main m ρ)

/-! ## The buffer contents the later host lines start from -/

/-- Core `c`'s buffers when the region is left: its three arrays at what the proof data computes, every other buffer as
    the region found it. -/
abbrev W (c : Dev nD) : Valuation τ sig (Elt Ideal) :=
  Pipeline.withArrays spec0 c (V0 m c) (fun w => (dats (F := Ideal) m 0 c).arrAt w cfg0.N)

/-- The one-word result is the region's third array. -/
theorem W_v6 (c : Dev nD) : W m c (Proc.devRef .tc main_v6) = (dats (F := Ideal) m 0 c).arrAt 2 cfg0.N :=
  Pipeline.withArrays_arr spec0 launch0.win.arr_inj c _ _ 2

/-- The reshaped labels the coarser levels read are no array of the region: they are as the earlier lines left them. -/
theorem W_v0 (c : Dev nD) : W m c (Proc.devRef .tc main_v0) = V m c main_v0 :=
  Pipeline.withArrays_of_ne spec0 c (V0 m c) _ main_v0 (by decide)

/-- Nor is the third argument: it is as launched. -/
theorem W_arg2 (c : Dev nD) : W m c (Proc.devRef .tc main_arg2) = m ((c.tc : Thread nD τ).loc main_arg2) :=
  (Pipeline.withArrays_of_ne spec0 c (V0 m c) _ main_arg2 (by decide)).trans (V_main_arg2 m c)

end AtIdeal

end Cert.KernelIdeal.Val

end
-- ==== Proof.KI.Tail.lean ====
/-
  The host lines after the region, read against the reference program's stages.

  After its one region the kernel program adds four small terms to the region's one-word result. Level k (k = 1 … 4)
  cuts the 256·256·256 label volume into blocks of side 16·2^k (512, 64, 8 and 1 blocks), takes each block's largest and
  smallest label, picks column 2 of the table where they differ and column "the block's one label" where they agree,
  reads that column of the block's row of the table (rows 0 … 511, 512 … 575, 576 … 583 and 584 of its 585 rows), and
  adds the sum of the logarithms of the entries read to the running total.

  The reference program computes the same four terms by the same operations on the same operands, stage by stage; its
  stages are named functions of the label volume and the table. So each stretch of lines below is read once, from an
  arbitrary state in which the few values the stretch consumes already equal the reference's stages: the values it
  produces are then the reference's next stages, because both sides are one operation applied to equal operands.
  Chaining the seventeen stretches, the last line's value is the region's result plus the reference's four level sums,
  added in the order the lines add them.
-/
import proofs.«423392_j65163243815393_1_alg».proof.Proof.KI.Kit
import proofs.«423392_j65163243815393_1_alg».proof.Proof.RefReadP
import Idealize.ShloMosaic.Lib.StableHlo.Run

set_option maxRecDepth 16384

noncomputable section

namespace Cert.KernelIdeal.Frm

open Idealize.ShloMosaic Cert.KernelIdeal Cert.KernelIdeal.Gen

variable {F : FTy → Type} [FloatOps F]

local notation "⟪" r "⟫" => Proc.devRef Proc.tc r

variable (W : Valuation τ sig (Elt F)) (x0 : (⟨S1x256x256x256, .i32⟩ : BufTy).Contents (Elt F))
  (p : (⟨S585x3, .f32⟩ : BufTy).Contents (Elt F))

/-! ## Level 1: 512 blocks of 32·32·32 labels, rows 0 … 511 of the table -/

/-- The one-word result of the region, read as a scalar: the running total's first term. -/
theorem s0_v7 : StableHlo.after (hostOps1 (F := F)) W ⟪main_v7⟫
    = shapeCast S_ (W ⟪main_v6⟫ : (⟨S1x1, .f32⟩ : BufTy).Contents (Elt F)) shapeCasts_S1x1_S_ := by
  after_results_simp; rfl
/-- Each block's largest label. -/
theorem s0_v12 (h0 : W ⟪main_v0⟫ = Cert.ReferenceIdeal.ReadP.val_main_v0 (F := F) x0) :
    StableHlo.after (hostOps1 (F := F)) W ⟪main_v12⟫ = Cert.ReferenceIdeal.ReadP.val_main_v23 (F := F) x0 := by
  after_results_simp; rw [h0]; rfl
/-- Whether a block's largest and smallest labels differ. -/
theorem s0_v14 (h0 : W ⟪main_v0⟫ = Cert.ReferenceIdeal.ReadP.val_main_v0 (F := F) x0) :
    StableHlo.after (hostOps1 (F := F)) W ⟪main_v14⟫ = Cert.ReferenceIdeal.ReadP.val_main_v25 (F := F) x0 := by
  after_results_simp; rw [h0]; rfl
/-- The column of a mixed block: 2. -/
theorem s0_c1 : StableHlo.after (hostOps1 (F := F)) W ⟪main_c_1⟫ = Cert.ReferenceIdeal.ReadP.val_main_c_6 (F := F) := by
  after_results_simp; rfl
theorem s0_keep : StableHlo.after (hostOps1 (F := F)) W ⟪main_v0⟫ = W ⟪main_v0⟫
    ∧ StableHlo.after (hostOps1 (F := F)) W ⟪main_arg2⟫ = W ⟪main_arg2⟫ := by
  refine ⟨?_, ?_⟩ <;> after_results_simp

/-- The column each block reads: 2 where its labels differ, else its one label. -/
theorem s1_v15 (hc : W ⟪main_c_1⟫ = Cert.ReferenceIdeal.ReadP.val_main_c_6 (F := F))
    (h14 : W ⟪main_v14⟫ = Cert.ReferenceIdeal.ReadP.val_main_v25 (F := F) x0)
    (h12 : W ⟪main_v12⟫ = Cert.ReferenceIdeal.ReadP.val_main_v23 (F := F) x0) :
    StableHlo.after (hostOps1_1 (F := F)) W ⟪main_v15⟫ = Cert.ReferenceIdeal.ReadP.val_main_v26 (F := F) x0 := by
  after_results_simp; simp only [StableHlo.TRef.toBuf, StableHlo.TRef.ofBuf, cast_eq]; rw [hc, h14, h12]; rfl
theorem s1_keep : StableHlo.after (hostOps1_1 (F := F)) W ⟪main_v0⟫ = W ⟪main_v0⟫
    ∧ StableHlo.after (hostOps1_1 (F := F)) W ⟪main_arg2⟫ = W ⟪main_arg2⟫
    ∧ StableHlo.after (hostOps1_1 (F := F)) W ⟪main_v7⟫ = W ⟪main_v7⟫ := by
  refine ⟨?_, ?_, ?_⟩ <;> after_results_simp

/-- The level's rows of the table. -/
theorem s2_v16 (h2 : W ⟪main_arg2⟫ = p) :
    StableHlo.after (hostOps1_2 (F := F)) W ⟪main_v16⟫ = Cert.ReferenceIdeal.ReadP.val_main_v27 (F := F) p := by
  after_results_simp; rw [h2]; rfl
/-- The columns as a one-column array. -/
theorem s2_v17 (h15 : W ⟪main_v15⟫ = Cert.ReferenceIdeal.ReadP.val_main_v26 (F := F) x0) :
    StableHlo.after (hostOps1_2 (F := F)) W ⟪main_v17⟫ = Cert.ReferenceIdeal.ReadP.val_main_v28 (F := F) x0 := by
  after_results_simp; rw [h15]; rfl
theorem s2_keep : StableHlo.after (hostOps1_2 (F := F)) W ⟪main_v0⟫ = W ⟪main_v0⟫
    ∧ StableHlo.after (hostOps1_2 (F := F)) W ⟪main_arg2⟫ = W ⟪main_arg2⟫
    ∧ StableHlo.after (hostOps1_2 (F := F)) W ⟪main_v7⟫ = W ⟪main_v7⟫ := by
  refine ⟨?_, ?_, ?_⟩ <;> after_results_simp

/-- The table entry each block selects: a negative column counted from the end, the entry where the column is one of
    0, 1, 2, the not-a-number fill elsewhere. -/
theorem s3_v18 (h17 : W ⟪main_v17⟫ = Cert.ReferenceIdeal.ReadP.val_main_v28 (F := F) x0)
    (h16 : W ⟪main_v16⟫ = Cert.ReferenceIdeal.ReadP.val_main_v27 (F := F) p) :
    StableHlo.after (hostOps1_3 (F := F)) W ⟪main_v18⟫ = Cert.ReferenceIdeal.ReadP.val_main_v29 (F := F) x0 p := by
  after_results_simp; simp only [StableHlo.TRef.toBuf, StableHlo.TRef.ofBuf, cast_eq]; rw [h17, h16]; rfl
theorem s3_keep : StableHlo.after (hostOps1_3 (F := F)) W ⟪main_v0⟫ = W ⟪main_v0⟫
    ∧ StableHlo.after (hostOps1_3 (F := F)) W ⟪main_arg2⟫ = W ⟪main_arg2⟫
    ∧ StableHlo.after (hostOps1_3 (F := F)) W ⟪main_v7⟫ = W ⟪main_v7⟫ := by
  refine ⟨?_, ?_, ?_⟩ <;> after_results_simp

/-- The running total after level 1: what it was plus the sum of the selected entries' logarithms. -/
theorem s4_v21 (h18 : W ⟪main_v18⟫ = Cert.ReferenceIdeal.ReadP.val_main_v29 (F := F) x0 p) :
    StableHlo.after (hostOps1_4 (F := F)) W ⟪main_v21⟫
      = addf (W ⟪main_v7⟫ : (⟨S_, .f32⟩ : BufTy).Contents (Elt F)) (Cert.ReferenceIdeal.ReadP.val_main_v31 (F := F) x0 p) := by
  after_results_simp; rw [h18]; rfl

/-- Level 2's largest label of each block, its "labels differ" flag and the mixed column, produced by the same stretch. -/
theorem s4_v26 (h0 : W ⟪main_v0⟫ = Cert.ReferenceIdeal.ReadP.val_main_v0 (F := F) x0) :
    StableHlo.after (hostOps1_4 (F := F)) W ⟪main_v26⟫ = Cert.ReferenceIdeal.ReadP.val_main_v37 (F := F) x0 := by
  after_results_simp; rw [h0]; rfl
theorem s4_v28 (h0 : W ⟪main_v0⟫ = Cert.ReferenceIdeal.ReadP.val_main_v0 (F := F) x0) :
    StableHlo.after (hostOps1_4 (F := F)) W ⟪main_v28⟫ = Cert.ReferenceIdeal.ReadP.val_main_v39 (F := F) x0 := by
  after_results_simp; rw [h0]; rfl
theorem s4_c4 : StableHlo.after (hostOps1_4 (F := F)) W ⟪main_c_4⟫ = Cert.ReferenceIdeal.ReadP.val_main_c_10 (F := F) := by
  after_results_simp; rfl
theorem s4_keep : StableHlo.after (hostOps1_4 (F := F)) W ⟪main_v0⟫ = W ⟪main_v0⟫
    ∧ StableHlo.after (hostOps1_4 (F := F)) W ⟪main_arg2⟫ = W ⟪main_arg2⟫ := by
  refine ⟨?_, ?_⟩ <;> after_results_simp

/-! ## Level 2: 64 blocks of 64·64·64 labels, rows 512 … 575 of the table -/

theorem s5_v29 (hc : W ⟪main_c_4⟫ = Cert.ReferenceIdeal.ReadP.val_main_c_10 (F := F))
    (h28 : W ⟪main_v28⟫ = Cert.ReferenceIdeal.ReadP.val_main_v39 (F := F) x0)
    (h26 : W ⟪main_v26⟫ = Cert.ReferenceIdeal.ReadP.val_main_v37 (F := F) x0) :
    StableHlo.after (hostOps1_5 (F := F)) W ⟪main_v29⟫ = Cert.ReferenceIdeal.ReadP.val_main_v40 (F := F) x0 := by
  after_results_simp; simp only [StableHlo.TRef.toBuf, StableHlo.TRef.ofBuf, cast_eq]; rw [hc, h28, h26]; rfl
theorem s5_keep : StableHlo.after (hostOps1_5 (F := F)) W ⟪main_v0⟫ = W ⟪main_v0⟫
    ∧ StableHlo.after (hostOps1_5 (F := F)) W ⟪main_arg2⟫ = W ⟪main_arg2⟫
    ∧ StableHlo.after (hostOps1_5 (F := F)) W ⟪main_v21⟫ = W ⟪main_v21⟫ := by
  refine ⟨?_, ?_, ?_⟩ <;> after_results_simp

theorem s6_v30 (h2 : W ⟪main_arg2⟫ = p) :
    StableHlo.after (hostOps1_6 (F := F)) W ⟪main_v30⟫ = Cert.ReferenceIdeal.ReadP.val_main_v41 (F := F) p := by
  after_results_simp; rw [h2]; rfl
theorem s6_v31 (h29 : W ⟪main_v29⟫ = Cert.ReferenceIdeal.ReadP.val_main_v40 (F := F) x0) :
    StableHlo.after (hostOps1_6 (F := F)) W ⟪main_v31⟫ = Cert.ReferenceIdeal.ReadP.val_main_v42 (F := F) x0 := by
  after_results_simp; rw [h29]; rfl
theorem s6_keep : StableHlo.after (hostOps1_6 (F := F)) W ⟪main_v0⟫ = W ⟪main_v0⟫
    ∧ StableHlo.after (hostOps1_6 (F := F)) W ⟪main_arg2⟫ = W ⟪main_arg2⟫
    ∧ StableHlo.after (hostOps1_6 (F := F)) W ⟪main_v21⟫ = W ⟪main_v21⟫ := by
  refine ⟨?_, ?_, ?_⟩ <;> after_results_simp

theorem s7_v32 (h31 : W ⟪main_v31⟫ = Cert.ReferenceIdeal.ReadP.val_main_v42 (F := F) x0)
    (h30 : W ⟪main_v30⟫ = Cert.ReferenceIdeal.ReadP.val_main_v41 (F := F) p) :
    StableHlo.after (hostOps1_7 (F := F)) W ⟪main_v32⟫ = Cert.ReferenceIdeal.ReadP.val_main_v43 (F := F) x0 p := by
  after_results_simp; simp only [StableHlo.TRef.toBuf, StableHlo.TRef.ofBuf, cast_eq]; rw [h31, h30]; rfl
theorem s7_keep : StableHlo.after (hostOps1_7 (F := F)) W ⟪main_v0⟫ = W ⟪main_v0⟫
    ∧ StableHlo.after (hostOps1_7 (F := F)) W ⟪main_arg2⟫ = W ⟪main_arg2⟫
    ∧ StableHlo.after (hostOps1_7 (F := F)) W ⟪main_v21⟫ = W ⟪main_v21⟫ := by
  refine ⟨?_, ?_, ?_⟩ <;> after_results_simp

/-- The running total after level 2. -/
theorem s8_v35 (h32 : W ⟪main_v32⟫ = Cert.ReferenceIdeal.ReadP.val_main_v43 (F := F) x0 p) :
    StableHlo.after (hostOps1_8 (F := F)) W ⟪main_v35⟫
      = addf (W ⟪main_v21⟫ : (⟨S_, .f32⟩ : BufTy).Contents (Elt F)) (Cert.ReferenceIdeal.ReadP.val_main_v45 (F := F) x0 p) := by
  after_results_simp; rw [h32]; rfl
theorem s8_v40 (h0 : W ⟪main_v0⟫ = Cert.ReferenceIdeal.ReadP.val_main_v0 (F := F) x0) :
    StableHlo.after (hostOps1_8 (F := F)) W ⟪main_v40⟫ = Cert.ReferenceIdeal.ReadP.val_main_v51 (F := F) x0 := by
  after_results_simp; rw [h0]; rfl
theorem s8_v42 (h0 : W ⟪main_v0⟫ = Cert.ReferenceIdeal.ReadP.val_main_v0 (F := F) x0) :
    StableHlo.after (hostOps1_8 (F := F)) W ⟪main_v42⟫ = Cert.ReferenceIdeal.ReadP.val_main_v53 (F := F) x0 := by
  after_results_simp; rw [h0]; rfl
theorem s8_c8 : StableHlo.after (hostOps1_8 (F := F)) W ⟪main_c_8⟫ = Cert.ReferenceIdeal.ReadP.val_main_c_14 (F := F) := by
  after_results_simp; rfl
theorem s8_keep : StableHlo.after (hostOps1_8 (F := F)) W ⟪main_v0⟫ = W ⟪main_v0⟫
    ∧ StableHlo.after (hostOps1_8 (F := F)) W ⟪main_arg2⟫ = W ⟪main_arg2⟫ := by
  refine ⟨?_, ?_⟩ <;> after_results_simp

/-! ## Level 3: 8 blocks of 128·128·128 labels, rows 576 … 583 of the table -/

theorem s9_v43 (hc : W ⟪main_c_8⟫ = Cert.ReferenceIdeal.ReadP.val_main_c_14 (F := F))
    (h42 : W ⟪main_v42⟫ = Cert.ReferenceIdeal.ReadP.val_main_v53 (F := F) x0)
    (h40 : W ⟪main_v40⟫ = Cert.ReferenceIdeal.ReadP.val_main_v51 (F := F) x0) :
    StableHlo.after (hostOps1_9 (F := F)) W ⟪main_v43⟫ = Cert.ReferenceIdeal.ReadP.val_main_v54 (F := F) x0 := by
  after_results_simp; simp only [StableHlo.TRef.toBuf, StableHlo.TRef.ofBuf, cast_eq]; rw [hc, h42, h40]; rfl
theorem s9_keep : StableHlo.after (hostOps1_9 (F := F)) W ⟪main_v0⟫ = W ⟪main_v0⟫
    ∧ StableHlo.after (hostOps1_9 (F := F)) W ⟪main_arg2⟫ = W ⟪main_arg2⟫
    ∧ StableHlo.after (hostOps1_9 (F := F)) W ⟪main_v35⟫ = W ⟪main_v35⟫ := by
  refine ⟨?_, ?_, ?_⟩ <;> after_results_simp

theorem s10_v44 (h2 : W ⟪main_arg2⟫ = p) :
    StableHlo.after (hostOps1_10 (F := F)) W ⟪main_v44⟫ = Cert.ReferenceIdeal.ReadP.val_main_v55 (F := F) p := by
  after_results_simp; rw [h2]; rfl
theorem s10_v45 (h43 : W ⟪main_v43⟫ = Cert.ReferenceIdeal.ReadP.val_main_v54 (F := F) x0) :
    StableHlo.after (hostOps1_10 (F := F)) W ⟪main_v45⟫ = Cert.ReferenceIdeal.ReadP.val_main_v56 (F := F) x0 := by
  after_results_simp; rw [h43]; rfl
theorem s10_keep : StableHlo.after (hostOps1_10 (F := F)) W ⟪main_v0⟫ = W ⟪main_v0⟫
    ∧ StableHlo.after (hostOps1_10 (F := F)) W ⟪main_arg2⟫ = W ⟪main_arg2⟫
    ∧ StableHlo.after (hostOps1_10 (F := F)) W ⟪main_v35⟫ = W ⟪main_v35⟫ := by
  refine ⟨?_, ?_, ?_⟩ <;> after_results_simp

theorem s11_v46 (h45 : W ⟪main_v45⟫ = Cert.ReferenceIdeal.ReadP.val_main_v56 (F := F) x0)
    (h44 : W ⟪main_v44⟫ = Cert.ReferenceIdeal.ReadP.val_main_v55 (F := F) p) :
    StableHlo.after (hostOps1_11 (F := F)) W ⟪main_v46⟫ = Cert.ReferenceIdeal.ReadP.val_main_v57 (F := F) x0 p := by
  after_results_simp; simp only [StableHlo.TRef.toBuf, StableHlo.TRef.ofBuf, cast_eq]; rw [h45, h44]; rfl
theorem s11_keep : StableHlo.after (hostOps1_11 (F := F)) W ⟪main_v0⟫ = W ⟪main_v0⟫
    ∧ StableHlo.after (hostOps1_11 (F := F)) W ⟪main_arg2⟫ = W ⟪main_arg2⟫
    ∧ StableHlo.after (hostOps1_11 (F := F)) W ⟪main_v35⟫ = W ⟪main_v35⟫ := by
  refine ⟨?_, ?_, ?_⟩ <;> after_results_simp

/-- The running total after level 3. -/
theorem s12_v49 (h46 : W ⟪main_v46⟫ = Cert.ReferenceIdeal.ReadP.val_main_v57 (F := F) x0 p) :
    StableHlo.after (hostOps1_12 (F := F)) W ⟪main_v49⟫
      = addf (W ⟪main_v35⟫ : (⟨S_, .f32⟩ : BufTy).Contents (Elt F)) (Cert.ReferenceIdeal.ReadP.val_main_v59 (F := F) x0 p) := by
  after_results_simp; rw [h46]; rfl
theorem s12_v54 (h0 : W ⟪main_v0⟫ = Cert.ReferenceIdeal.ReadP.val_main_v0 (F := F) x0) :
    StableHlo.after (hostOps1_12 (F := F)) W ⟪main_v54⟫ = Cert.ReferenceIdeal.ReadP.val_main_v65 (F := F) x0 := by
  after_results_simp; rw [h0]; rfl
theorem s12_v56 (h0 : W ⟪main_v0⟫ = Cert.ReferenceIdeal.ReadP.val_main_v0 (F := F) x0) :
    StableHlo.after (hostOps1_12 (F := F)) W ⟪main_v56⟫ = Cert.ReferenceIdeal.ReadP.val_main_v67 (F := F) x0 := by
  after_results_simp; rw [h0]; rfl
theorem s12_c12 : StableHlo.after (hostOps1_12 (F := F)) W ⟪main_c_12⟫ = Cert.ReferenceIdeal.ReadP.val_main_c_18 (F := F) := by
  after_results_simp; rfl
theorem s12_keep : StableHlo.after (hostOps1_12 (F := F)) W ⟪main_arg2⟫ = W ⟪main_arg2⟫ := by
  after_results_simp

/-! ## Level 4: the whole volume as one block, row 584 of the table -/

theorem s13_v57 (hc : W ⟪main_c_12⟫ = Cert.ReferenceIdeal.ReadP.val_main_c_18 (F := F))
    (h56 : W ⟪main_v56⟫ = Cert.ReferenceIdeal.ReadP.val_main_v67 (F := F) x0)
    (h54 : W ⟪main_v54⟫ = Cert.ReferenceIdeal.ReadP.val_main_v65 (F := F) x0) :
    StableHlo.after (hostOps1_13 (F := F)) W ⟪main_v57⟫ = Cert.ReferenceIdeal.ReadP.val_main_v68 (F := F) x0 := by
  after_results_simp; simp only [StableHlo.TRef.toBuf, StableHlo.TRef.ofBuf, cast_eq]; rw [hc, h56, h54]; rfl
theorem s13_keep : StableHlo.after (hostOps1_13 (F := F)) W ⟪main_arg2⟫ = W ⟪main_arg2⟫
    ∧ StableHlo.after (hostOps1_13 (F := F)) W ⟪main_v49⟫ = W ⟪main_v49⟫ := by
  refine ⟨?_, ?_⟩ <;> after_results_simp

theorem s14_v58 (h2 : W ⟪main_arg2⟫ = p) :
    StableHlo.after (hostOps1_14 (F := F)) W ⟪main_v58⟫ = Cert.ReferenceIdeal.ReadP.val_main_v69 (F := F) p := by
  after_results_simp; rw [h2]; rfl
theorem s14_v59 (h57 : W ⟪main_v57⟫ = Cert.ReferenceIdeal.ReadP.val_main_v68 (F := F) x0) :
    StableHlo.after (hostOps1_14 (F := F)) W ⟪main_v59⟫ = Cert.ReferenceIdeal.ReadP.val_main_v70 (F := F) x0 := by
  after_results_simp; rw [h57]; rfl
theorem s14_keep : StableHlo.after (hostOps1_14 (F := F)) W ⟪main_v49⟫ = W ⟪main_v49⟫ := by
  after_results_simp

theorem s15_v60 (h59 : W ⟪main_v59⟫ = Cert.ReferenceIdeal.ReadP.val_main_v70 (F := F) x0)
    (h58 : W ⟪main_v58⟫ = Cert.ReferenceIdeal.ReadP.val_main_v69 (F := F) p) :
    StableHlo.after (hostOps1_15 (F := F)) W ⟪main_v60⟫ = Cert.ReferenceIdeal.ReadP.val_main_v71 (F := F) x0 p := by
  after_results_simp; simp only [StableHlo.TRef.toBuf, StableHlo.TRef.ofBuf, cast_eq]; rw [h59, h58]; rfl
theorem s15_keep : StableHlo.after (hostOps1_15 (F := F)) W ⟪main_v49⟫ = W ⟪main_v49⟫ := by
  after_results_simp

/-- The program's result: the running total after level 4. -/
theorem s16_v63 (h60 : W ⟪main_v60⟫ = Cert.ReferenceIdeal.ReadP.val_main_v71 (F := F) x0 p) :
    StableHlo.after (hostOps1_16 (F := F)) W ⟪main_v63⟫
      = addf (W ⟪main_v49⟫ : (⟨S_, .f32⟩ : BufTy).Contents (Elt F)) (Cert.ReferenceIdeal.ReadP.val_main_v73 (F := F) x0 p) := by
  after_results_simp; rw [h60]; rfl

/-! ## The seventeen stretches in a row -/

/-- THE LATER LINES' RESULT: from any contents in which the label volume's buffer holds the launch volume with its leading
    unit axis dropped, the last line's buffer holds the region's one-word result, read as a scalar, plus the reference's
    four level sums of the label volume and the table, added one level after another. -/
theorem tail_v63 (W : Valuation τ sig (Elt F)) (x0 : (⟨S1x256x256x256, .i32⟩ : BufTy).Contents (Elt F))
    (h0 : (W ⟪main_v0⟫ : (⟨S256x256x256, .i32⟩ : BufTy).Contents (Elt F)) = shapeCast _ x0 shapeCasts_S1x256x256x256_S256x256x256) :
    (StableHlo.after (List.flatten (tailOps (F := F))) W ⟪main_v63⟫ : (⟨S_, .f32⟩ : BufTy).Contents (Elt F))
      = addf (addf (addf (addf (shapeCast S_ (W ⟪main_v6⟫ : (⟨S1x1, .f32⟩ : BufTy).Contents (Elt F)) shapeCasts_S1x1_S_)
            (Cert.ReferenceIdeal.ReadP.val_main_v31 (F := F) x0 (W ⟪main_arg2⟫)))
            (Cert.ReferenceIdeal.ReadP.val_main_v45 (F := F) x0 (W ⟪main_arg2⟫)))
            (Cert.ReferenceIdeal.ReadP.val_main_v59 (F := F) x0 (W ⟪main_arg2⟫)))
            (Cert.ReferenceIdeal.ReadP.val_main_v73 (F := F) x0 (W ⟪main_arg2⟫)) := by
  simp only [tailOps, List.flatten_cons, List.flatten_nil, List.append_nil, StableHlo.after_append]
  -- the label volume and the table, as every stretch finds them
  have a0 : W ⟪main_v0⟫ = Cert.ReferenceIdeal.ReadP.val_main_v0 (F := F) x0 := h0
  have b0 : W ⟪main_arg2⟫ = W ⟪main_arg2⟫ := rfl
  -- level 1
  have v14 := s0_v14 W x0 a0
  have v12 := s0_v12 W x0 a0
  have t1 := s0_v7 W
  have a1 := (s0_keep W).1.trans a0
  have b1 := (s0_keep W).2.trans b0
  have v15 := s1_v15 _ x0 (s0_c1 W) v14 v12
  have a2 := (s1_keep _).1.trans a1
  have b2 := (s1_keep _).2.1.trans b1
  have t2 := (s1_keep _).2.2.trans t1
  have v16 := s2_v16 _ _ b2
  have v17 := s2_v17 _ x0 v15
  have a3 := (s2_keep _).1.trans a2
  have b3 := (s2_keep _).2.1.trans b2
  have t3 := (s2_keep _).2.2.trans t2
  have v18 := s3_v18 _ x0 _ v17 v16
  have a4 := (s3_keep _).1.trans a3
  have b4 := (s3_keep _).2.1.trans b3
  have t4 := (s3_keep _).2.2.trans t3
  have r5 := s4_v21 _ x0 _ v18
  rw [t4] at r5
  -- level 2
  have v26 := s4_v26 _ x0 a4
  have v28 := s4_v28 _ x0 a4
  have a5 := (s4_keep _).1.trans a4
  have b5 := (s4_keep _).2.trans b4
  have v29 := s5_v29 _ x0 (s4_c4 _) v28 v26
  have a6 := (s5_keep _).1.trans a5
  have b6 := (s5_keep _).2.1.trans b5
  have r6 := (s5_keep _).2.2.trans r5
  have v30 := s6_v30 _ _ b6
  have v31 := s6_v31 _ x0 v29
  have a7 := (s6_keep _).1.trans a6
  have b7 := (s6_keep _).2.1.trans b6
  have r7 := (s6_keep _).2.2.trans r6
  have v32 := s7_v32 _ x0 _ v31 v30
  have a8 := (s7_keep _).1.trans a7
  have b8 := (s7_keep _).2.1.trans b7
  have r8 := (s7_keep _).2.2.trans r7
  have r9 := s8_v35 _ x0 _ v32
  rw [r8] at r9
  -- level 3
  have v40 := s8_v40 _ x0 a8
  have v42 := s8_v42 _ x0 a8
  have a9 := (s8_keep _).1.trans a8
  have b9 := (s8_keep _).2.trans b8
  have v43 := s9_v43 _ x0 (s8_c8 _) v42 v40
  have a10 := (s9_keep _).1.trans a9
  have b10 := (s9_keep _).2.1.trans b9
  have r10 := (s9_keep _).2.2.trans r9
  have v44 := s10_v44 _ _ b10
  have v45 := s10_v45 _ x0 v43
  have a11 := (s10_keep _).1.trans a10
  have b11 := (s10_keep _).2.1.trans b10
  have r11 := (s10_keep _).2.2.trans r10
  have v46 := s11_v46 _ x0 _ v45 v44
  have a12 := (s11_keep _).1.trans a11
  have b12 := (s11_keep _).2.1.trans b11
  have r12 := (s11_keep _).2.2.trans r11
  have r13 := s12_v49 _ x0 _ v46
  rw [r12] at r13
  -- level 4
  have v54 := s12_v54 _ x0 a12
  have v56 := s12_v56 _ x0 a12
  have b13 := (s12_keep _).trans b12
  have v57 := s13_v57 _ x0 (s12_c12 _) v56 v54
  have b14 := (s13_keep _).1.trans b13
  have r14 := (s13_keep _).2.trans r13
  have v58 := s14_v58 _ _ b14
  have v59 := s14_v59 _ x0 v57
  have r15 := (s14_keep _).trans r14
  have v60 := s15_v60 _ x0 _ v59 v58
  have r16 := (s15_keep _).trans r15
  have r17 := s16_v63 _ x0 _ v60
  rw [r16] at r17
  exact r17

end Cert.KernelIdeal.Frm

end
-- ==== Proof.Bridge.KBlock.lean ====
/-
  The kernel body's arithmetic, read at the ideal values, against the level-0 loss of the specification.

  The body's three payloads are pure terms over the values it loads. The reset payload is the zero word and the
  accumulation payload adds the point's sum to the word already in the result. The block payload takes the point's 128
  blocks of logits and labels, each block's 4096 voxels laid out as 32 rows of 128 lanes, and returns the sum over the 128
  blocks of (the block's weighted sum of negative log-likelihoods) / (the block's total weight). Entry by entry the
  kernel's weight and negative log-likelihood are the specification's: the comparison of the logits' difference with
  itself never holds (nothing is unordered at the ideal values), `0 - |d|` is `-|d|`, `log1p x` is `log (1 + x)`, and the two
  weight literals are 16 and 1. The sums over lanes and over rows join into the sum over the block's run of 4096 entries,
  entry `128 r + l` being row `r`, lane `l`.

  On the blocks the two input windows hold at grid point `t` — rows `128 t … 128 t + 127` of the regrouped arrays, the
  regrouping a reshape that keeps row-major positions — the block payload is therefore the sum of the specification's
  block losses over blocks `128 t … 128 t + 127` of the block-by-block labels and the logits argument.
-/
import proofs.«423392_j65163243815393_1_alg».proof.Proof.Spec
import proofs.«423392_j65163243815393_1_alg».proof.Proof.KI.Kit
import Idealize.ShloMosaic.Lib.ValueIdx
import Idealize.ShloMosaic.Lib.Pipeline.Value
import Idealize.ShloMosaic.PureOps.Ideal.Laws
import Idealize.ShloMosaic.Lib.StableHlo.Predicate
import Idealize.ShloMosaic.Lib.StableHlo.Run

noncomputable section

namespace Cert.Bridge.KBlock

open Idealize.ShloMosaic Cert.KernelIdeal Cert.KernelIdeal.Gen Cert.KernelIdeal.Frm Cert.Spec
open Idealize.ShloMosaic.ValueIdx Idealize.ShloMosaic.StableHlo

/-! ## The two small payloads -/

/-- The reset value is the zero word. -/
theorem pay2_eq : k0_pay2 (F := Ideal) = fun _ => (0 : EReal) := by
  funext y
  show Ideal.ofBits .f32 0x00000000#32 = 0
  exact Ideal.ofBits_zero_f32

/-- The accumulation step adds the point's sum to the word already there: the reshapes between one-entry shapes keep the entry. -/
theorem pay1_eq (v39 : FVec Ideal S1x1 .f32) (v41 : Vec Ideal S1x1 .f32) (y : S1x1.Idx) :
    k0_pay1 (F := Ideal) v39 v41 y = v41 y + v39 y := by
  have hy : ∀ y' : S1x1.Idx, y' = y := fun y' => by
    funext c; apply Fin.ext
    have h1 := (y' c).isLt; have h2 := (y c).isLt
    fin_cases c
    · change (y' 0).val < 1 at h1; change (y 0).val < 1 at h2; show (y' 0).val = (y 0).val; omega
    · change (y' 1).val < 1 at h1; change (y 1).val < 1 at h2; show (y' 1).val = (y 1).val; omega
  unfold k0_pay1
  show shapeCast S1x1 v41 _ y + shapeCast S1x1 (shapeCast S1x1x1 v39 _) _ y = _
  unfold shapeCast
  exact congrArg₂ (· + ·) (congrArg v41 (hy _)) (congrArg v39 (hy _))

/-! ## Layout steps read at an index -/

/-- The class-`k` plane of a block of logits, with the unit class axis dropped: entry `(b, r, l)` is entry `(b, k, r, l)`. -/
theorem plane_apply (xb : Vec Ideal S128x2x32x128 .f32) (k : Fin 2)
    (h1 : S128x2x32x128.ShapeCasts S128x2x32x128) (h2 : S128x2x32x128.Slices ![0, k.val, 0, 0] S128x1x32x128)
    (h3 : S128x1x32x128.ShapeCasts S128x32x128) (b : Fin 128) (r : Fin 32) (l : Fin 128) :
    shapeCast S128x32x128 (extractStridedSlice S128x1x32x128 ![0, k.val, 0, 0] (shapeCast S128x2x32x128 xb h1) h2) h3 (ix3 b r l)
      = xb (ix4 b k r l) := by
  refine (shapeCast_apply _ h3 (ix3 b r l) (ix4 b (0 : Fin 1) r l) ?_).trans ?_
  · rw [Shape.rowMajor_val_four, Shape.rowMajor_val_three]
    show ((b.val * 1 + 0) * 32 + r.val) * 128 + l.val = (b.val * 32 + r.val) * 128 + l.val
    omega
  refine (extractStridedSlice_apply _ _ h2 (ix4 b (0 : Fin 1) r l) (ix4 b k r l) ?_).trans ?_
  · intro a
    fin_cases a <;> simp
  · exact shapeCast_apply xb h1 (ix4 b k r l) (ix4 b k r l) rfl

/-- A reshape that keeps the shape is the identity. -/
theorem idcast_apply {α : Type} (tb : S128x32x128.Idx → α) (h : S128x32x128.ShapeCasts S128x32x128) (j : S128x32x128.Idx) :
    shapeCast S128x32x128 tb h j = tb j := shapeCast_apply tb h j j rfl

/-! ## The three sums -/

/-- The sum over the lanes of a row. -/
theorem sum_lanes (v : FVec Ideal S128x32x128 .f32) (h : S128x32x128.Reduces [2] S128x32) (hφ : FKind.Formats .f32)
    (hacc : (0x00000000#32 : BitVec FTy.f32.bits) = FKind.add.neutral .f32 hφ) (b : Fin 128) (r : Fin 32) :
    multiReduction .add [2] S128x32 v 0x00000000#32 h hφ hacc (ix2 b r) = ∑ l : Fin 128, v (ix3 b r l) := by
  refine (Ideal.multiReduction_add_single v _ h hφ hacc (ix2 b r)).trans ?_
  refine Finset.sum_congr rfl fun l _ => congrArg v ?_
  funext c
  apply Fin.ext
  fin_cases c <;> rfl

/-- The sum over the rows of a block, the lanes already summed. -/
theorem sum_rows (v : FVec Ideal S128x32x1 .f32) (h : S128x32x1.Reduces [1] S128x1) (hφ : FKind.Formats .f32)
    (hacc : (0x00000000#32 : BitVec FTy.f32.bits) = FKind.add.neutral .f32 hφ) (b : Fin 128) :
    multiReduction .add [1] S128x1 v 0x00000000#32 h hφ hacc (ix2 b 0) = ∑ r : Fin 32, v (ix3 b r 0) := by
  refine (Ideal.multiReduction_add_single v _ h hφ hacc (ix2 b 0)).trans ?_
  refine Finset.sum_congr rfl fun r _ => congrArg v ?_
  funext c
  apply Fin.ext
  fin_cases c <;> rfl

/-- The sum over the blocks of a grid point. -/
theorem sum_blocks (v : FVec Ideal S128x1x1 .f32) (h : S128x1x1.Reduces [0] S1x1) (hφ : FKind.Formats .f32)
    (hacc : (0x00000000#32 : BitVec FTy.f32.bits) = FKind.add.neutral .f32 hφ) (y : S1x1.Idx) :
    multiReduction .add [0] S1x1 v 0x00000000#32 h hφ hacc y = ∑ b : Fin 128, v (ix3 b 0 0) := by
  refine (Ideal.multiReduction_add_single v _ h hφ hacc y).trans ?_
  refine Finset.sum_congr rfl fun b _ => congrArg v ?_
  funext c
  apply Fin.ext
  fin_cases c
  · rfl
  · show (y 0).val = 0
    have := (y 0).isLt; change (y 0).val < 1 at this; omega
  · show (y 1).val = 0
    have := (y 1).isLt; change (y 1).val < 1 at this; omega

/-- A trailing unit axis added to the row sums. -/
theorem unit3_apply (v : FVec Ideal S128x32 .f32) (h : S128x32.ShapeCasts S128x32x1) (b : Fin 128) (r : Fin 32) :
    shapeCast S128x32x1 v h (ix3 b r 0) = v (ix2 b r) := by
  refine shapeCast_apply v h _ _ ?_
  rw [Shape.rowMajor_val_two, Shape.rowMajor_val_three]
  show b.val * 32 + r.val = (b.val * 32 + r.val) * 1 + 0
  omega

/-- A trailing unit axis added to the block sums. -/
theorem unit3'_apply (v : FVec Ideal S128x1 .f32) (h : S128x1.ShapeCasts S128x1x1) (b : Fin 128) :
    shapeCast S128x1x1 v h (ix3 b 0 0) = v (ix2 b 0) := by
  refine shapeCast_apply v h _ _ ?_
  rw [Shape.rowMajor_val_two, Shape.rowMajor_val_three]
  show b.val * 1 + 0 = (b.val * 1 + 0) * 1 + 0
  omega

/-! ## One entry -/

/-- Nothing differs from itself: the "ordered and not equal" comparison of a value with itself is the zero bit. -/
theorem cmp_one_self (d : EReal) : Ideal.cmp .one d d = 0#1 := by
  simp [Ideal.cmp]

/-- The choice on "the label is 0". -/
theorem select_label {α : Type} (t : BitVec 32) (a b : α) :
    Scalar.select (IntOp.cmpi .eq t 0#32) a b = if t = 0#32 then a else b := by
  by_cases ht : t = 0#32
  · rw [if_pos ht, StableHlo.Predicate.cmpi_eq_iff.mpr ht]; exact select_one a b
  · rw [if_neg ht, eq_zero_of_ne_one (fun h => ht (StableHlo.Predicate.cmpi_eq_iff.mp h))]; exact select_zero a b

theorem sixteen : Ideal.ofBits .f32 0x41800000#32 = 16 := by
  rw [show (16 : EReal) = ((16 : ℝ) : EReal) by norm_cast]
  simp [Ideal.ofBits, Ideal.ieee, -EReal.coe_mul]; norm_num

theorem one' : Ideal.ofBits .f32 0x3F800000#32 = 1 := by
  rw [show (1 : EReal) = ((1 : ℝ) : EReal) by norm_cast]
  simp [Ideal.ofBits, Ideal.ieee, -EReal.coe_mul]; norm_num

/-- The weight the kernel selects is the specification's. -/
theorem wgt_kernel (t : BitVec 32) :
    Scalar.select (IntOp.cmpi .eq t 0#32) (Ideal.ofBits .f32 0x41800000#32) (Ideal.ofBits .f32 0x3F800000#32) = wgt t := by
  rw [select_label, sixteen, one']; rfl

/-- The kernel's negative log-likelihood is the specification's: the guard on an unordered difference never fires,
    `0 - |d|` is `-|d|`, and `log1p x` is `log (1 + x)`. -/
theorem nll_kernel (a b : EReal) (t : BitVec 32) :
    Scalar.select (Ideal.cmp .one (a - b) (a - b)) (a + b)
        (max a b + Ideal.log1p (Ideal.exp (Ideal.ofBits .f32 0x00000000#32 - max (a - b) (-(a - b)))))
      - Scalar.select (IntOp.cmpi .eq t 0#32) a b = nll a b t := by
  rw [cmp_one_self, select_label, Ideal.ofBits_zero_f32, zero_sub]
  rfl

/-! ## The block payload as sums of per-entry terms -/

/-- The class-0 logits of the point's blocks, as the kernel cuts them out. -/
def lg0 (xb : Vec Ideal S128x2x32x128 .f32) : FVec Ideal S128x32x128 .f32 :=
  shapeCast S128x32x128 (extractStridedSlice S128x1x32x128 ![0, 0, 0, 0]
    (shapeCast S128x2x32x128 xb shapeCasts_S128x2x32x128_S128x2x32x128) slices_S128x2x32x128_o0_0_0_0_S128x1x32x128)
    shapeCasts_S128x1x32x128_S128x32x128

/-- The class-1 logits. -/
def lg1 (xb : Vec Ideal S128x2x32x128 .f32) : FVec Ideal S128x32x128 .f32 :=
  shapeCast S128x32x128 (extractStridedSlice S128x1x32x128 ![0, 1, 0, 0]
    (shapeCast S128x2x32x128 xb shapeCasts_S128x2x32x128_S128x2x32x128) slices_S128x2x32x128_o0_1_0_0_S128x1x32x128)
    shapeCasts_S128x1x32x128_S128x32x128

/-- The labels. -/
def lab (tb : Vec Ideal S128x32x128 .i32) : IVec S128x32x128 32 :=
  shapeCast S128x32x128 tb shapeCasts_S128x32x128_S128x32x128

/-- "The label is 0", entry by entry. -/
def isZero (tb : Vec Ideal S128x32x128 .i32) : IVec S128x32x128 1 :=
  cmpi .eq (lab tb) (broadcast S128x32x128 0#32)

/-- The weights. -/
def wv (tb : Vec Ideal S128x32x128 .i32) : FVec Ideal S128x32x128 .f32 :=
  select (isZero tb) (broadcast S128x32x128 (Scalar.ofBits .f32 0x41800000#32)) (broadcast S128x32x128 (Scalar.ofBits .f32 0x3F800000#32))

/-- The negative log-likelihoods. -/
def nv (xb : Vec Ideal S128x2x32x128 .f32) (tb : Vec Ideal S128x32x128 .i32) : FVec Ideal S128x32x128 .f32 :=
  subf (select (cmpf .one (subf (lg0 xb) (lg1 xb)) (subf (lg0 xb) (lg1 xb))) (addf (lg0 xb) (lg1 xb))
      (addf (maximumf (lg0 xb) (lg1 xb))
        (log1p (exp (subf (broadcast S128x32x128 (Scalar.ofBits .f32 0x00000000#32)) (absf (subf (lg0 xb) (lg1 xb))))))))
    (select (isZero tb) (lg0 xb) (lg1 xb))

/-- The sum of a block's entries: over the lanes, then over the rows. -/
def blockSum (v : FVec Ideal S128x32x128 .f32) : FVec Ideal S128x1x1 .f32 :=
  shapeCast S128x1x1 (multiReduction .add [1] S128x1
    (shapeCast S128x32x1 (multiReduction .add [2] S128x32 v 0x00000000#32 reduces_S128x32x128_S128x32 (.inl rfl) rfl)
      shapeCasts_S128x32_S128x32x1) 0x00000000#32 reduces_S128x32x1_S128x1 (.inl rfl) rfl) shapeCasts_S128x1_S128x1x1

/-- The block payload: the sum over the point's blocks of (the block's weighted sum) / (the block's weight). -/
theorem pay3_shape (xb : Vec Ideal S128x2x32x128 .f32) (tb : Vec Ideal S128x32x128 .i32) :
    k0_pay3 (F := Ideal) xb tb
      = multiReduction .add [0] S1x1 (divf (blockSum (mulf (wv tb) (nv xb tb))) (blockSum (wv tb))) 0x00000000#32
          reduces_S128x1x1_S1x1 (.inl rfl) rfl := rfl

theorem lg0_apply (xb : Vec Ideal S128x2x32x128 .f32) (b : Fin 128) (r : Fin 32) (l : Fin 128) :
    lg0 xb (ix3 b r l) = xb (ix4 b 0 r l) := plane_apply xb 0 _ _ _ b r l

theorem lg1_apply (xb : Vec Ideal S128x2x32x128 .f32) (b : Fin 128) (r : Fin 32) (l : Fin 128) :
    lg1 xb (ix3 b r l) = xb (ix4 b 1 r l) := plane_apply xb 1 _ _ _ b r l

theorem lab_apply (tb : Vec Ideal S128x32x128 .i32) (j : S128x32x128.Idx) : lab tb j = tb j := idcast_apply tb _ j

/-- An entry's weight is the specification's weight of its label. -/
theorem wv_apply (tb : Vec Ideal S128x32x128 .i32) (j : S128x32x128.Idx) : wv tb j = wgt (tb j) := by
  show Scalar.select (IntOp.cmpi .eq (lab tb j) 0#32) (Ideal.ofBits .f32 0x41800000#32) (Ideal.ofBits .f32 0x3F800000#32) = _
  rw [lab_apply]; exact wgt_kernel _

/-- An entry's negative log-likelihood is the specification's, of its two logits and its label. -/
theorem nv_apply (xb : Vec Ideal S128x2x32x128 .f32) (tb : Vec Ideal S128x32x128 .i32) (b : Fin 128) (r : Fin 32) (l : Fin 128) :
    nv xb tb (ix3 b r l) = nll (xb (ix4 b 0 r l)) (xb (ix4 b 1 r l)) (tb (ix3 b r l)) := by
  show Scalar.select (Ideal.cmp .one (lg0 xb (ix3 b r l) - lg1 xb (ix3 b r l)) (lg0 xb (ix3 b r l) - lg1 xb (ix3 b r l)))
        (lg0 xb (ix3 b r l) + lg1 xb (ix3 b r l))
        (max (lg0 xb (ix3 b r l)) (lg1 xb (ix3 b r l)) + Ideal.log1p (Ideal.exp (Ideal.ofBits .f32 0x00000000#32
          - max (lg0 xb (ix3 b r l) - lg1 xb (ix3 b r l)) (-(lg0 xb (ix3 b r l) - lg1 xb (ix3 b r l))))))
      - Scalar.select (IntOp.cmpi .eq (lab tb (ix3 b r l)) 0#32) (lg0 xb (ix3 b r l)) (lg1 xb (ix3 b r l)) = _
  rw [lg0_apply, lg1_apply, lab_apply]; exact nll_kernel _ _ _

/-- A block's sum, entry by entry. -/
theorem blockSum_apply (v : FVec Ideal S128x32x128 .f32) (b : Fin 128) :
    blockSum v (ix3 b 0 0) = ∑ r : Fin 32, ∑ l : Fin 128, v (ix3 b r l) := by
  unfold blockSum
  refine (unit3'_apply _ _ b).trans ((sum_rows _ _ _ _ b).trans ?_)
  exact Finset.sum_congr rfl fun r _ => (unit3_apply _ _ b r).trans (sum_lanes _ _ _ _ b r)

/-! ## Rows and lanes are the block's run of 4096 entries -/

/-- Row `r`, lane `l` is entry `128 r + l`. -/
def rowLane : Fin 32 × Fin 128 ≃ Fin 4096 where
  toFun p := ⟨128 * p.1.val + p.2.val, by have := p.1.isLt; have := p.2.isLt; omega⟩
  invFun q := (⟨q.val / 128, by have := q.isLt; omega⟩, ⟨q.val % 128, Nat.mod_lt _ (by norm_num)⟩)
  left_inv p := by
    rcases p with ⟨r, l⟩
    have := r.isLt; have := l.isLt
    refine Prod.ext (Fin.ext ?_) (Fin.ext ?_)
    · show (128 * r.val + l.val) / 128 = r.val; omega
    · show (128 * r.val + l.val) % 128 = l.val; omega
  right_inv q := by
    apply Fin.ext
    show 128 * (q.val / 128) + q.val % 128 = q.val; omega

theorem sum_rows_lanes (g : Fin 4096 → EReal) :
    ∑ r : Fin 32, ∑ l : Fin 128, g ⟨128 * r.val + l.val, by have := r.isLt; have := l.isLt; omega⟩ = ∑ q : Fin 4096, g q :=
  (Fintype.sum_prod_type' (fun (r : Fin 32) (l : Fin 128) =>
      g ⟨128 * r.val + l.val, by have := r.isLt; have := l.isLt; omega⟩)).symm.trans
    (Fintype.sum_equiv rowLane _ _ (fun _ => rfl))

/-! ## The block payload is the point's share of the level-0 loss -/

theorem pay3_eq (T : ST.Idx → BitVec 32) (X : SX.Idx → EReal) (t : Fin 32)
    (xb : Vec Ideal S128x2x32x128 .f32) (tb : Vec Ideal S128x32x128 .i32)
    (hxb : ∀ (b : Fin 128) (k : Fin 2) (r : Fin 32) (l : Fin 128),
      xb (ValueIdx.ix4 b k r l) = X (xix ⟨128 * t.val + b.val, by omega⟩ k ⟨128 * r.val + l.val, by omega⟩))
    (htb : ∀ (b : Fin 128) (r : Fin 32) (l : Fin 128),
      tb (ValueIdx.ix3 b r l) = T (tix ⟨128 * t.val + b.val, by omega⟩ ⟨128 * r.val + l.val, by omega⟩))
    (y : S1x1.Idx) :
    k0_pay3 (F := Ideal) xb tb y
      = ∑ b : Fin 128, Ideal.div (num T X ⟨128 * t.val + b.val, by omega⟩) (den T ⟨128 * t.val + b.val, by omega⟩) := by
  rw [pay3_shape]
  refine (sum_blocks _ _ _ _ y).trans (Finset.sum_congr rfl fun b _ => ?_)
  show Ideal.div (blockSum (mulf (wv tb) (nv xb tb)) (ix3 b 0 0)) (blockSum (wv tb) (ix3 b 0 0)) = _
  rw [blockSum_apply, blockSum_apply]
  congr 1
  · unfold num
    refine (Finset.sum_congr rfl fun r _ => Finset.sum_congr rfl fun l _ => ?_).trans
      (sum_rows_lanes fun q => wgt (T (tix ⟨128 * t.val + b.val, by omega⟩ q))
        * nll (X (xix ⟨128 * t.val + b.val, by omega⟩ 0 q)) (X (xix ⟨128 * t.val + b.val, by omega⟩ 1 q))
            (T (tix ⟨128 * t.val + b.val, by omega⟩ q)))
    show wv tb (ix3 b r l) * nv xb tb (ix3 b r l) = _
    rw [wv_apply, nv_apply, htb, hxb, hxb]
  · unfold den
    refine (Finset.sum_congr rfl fun r _ => Finset.sum_congr rfl fun l _ => ?_).trans
      (sum_rows_lanes fun q => wgt (T (tix ⟨128 * t.val + b.val, by omega⟩ q)))
    rw [wv_apply, htb]

/-! ## The blocks the windows hold are blocks of the two arrays -/

/-- The block indices of the two input windows, decided over the grid: the point's number on the leading axis, zero on the others. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- The logits' array as the region finds it: the argument, its three voxel axes regrouped as 32 rows of 128 lanes. -/
theorem logits_eq (m : (ℓ : Loc nD τ sig) → Buf (Elt Ideal) ℓ) (c : Dev nD) :
    (V (F := Ideal) m c main_v5 : S4096x2x32x128.Idx → EReal)
      = shapeCast S4096x2x32x128 (m ((c.tc : Thread nD τ).loc main_arg1) : S4096x2x16x16x16.Idx → EReal)
          shapeCasts_S4096x2x16x16x16_S4096x2x32x128 := by
  dsimp only [Frm.V, Frm.V0]
  simp only [Gen.hostOps0, List.flatten_cons, List.flatten_nil, List.append_nil]
  after_results
  rfl

/-- The labels' array as the region finds it: the block-by-block labels, regrouped likewise. -/
theorem labels_eq (m : (ℓ : Loc nD τ sig) → Buf (Elt Ideal) ℓ) (c : Dev nD) :
    (V (F := Ideal) m c main_v4 : S4096x32x128.Idx → BitVec 32)
      = shapeCast S4096x32x128 (V (F := Ideal) m c main_v3 : S4096x16x16x16.Idx → BitVec 32)
          shapeCasts_S4096x16x16x16_S4096x32x128 := by
  dsimp only [Frm.V, Frm.V0]
  simp only [Gen.hostOps0, List.flatten_cons, List.flatten_nil, List.append_nil]
  after_results
  rfl

/-- Entry `(b, k, r, l)` of the logits' block at point `t` is the class-`k` logit of entry `128 r + l` of block `128 t + b`:
    the block is rows `128 t … 128 t + 127` of the regrouped array, and the regrouping keeps the row-major position. -/
theorem logits_block (m : (ℓ : Loc nD τ sig) → Buf (Elt Ideal) ℓ) (c : Dev nD) (t : Fin cfg0.N)
    (b : Fin 128) (k : Fin 2) (r : Fin 32) (l : Fin 128) :
    iblk (F := Ideal) m c 0 t (ix4 b k r l)
      = (m ((c.tc : Thread nD τ).loc main_arg1) : SX.Idx → EReal)
          (xix ⟨128 * t.val + b.val, by have := t.isLt; have h : cfg0.N = 32 := Gen.N_0; omega⟩ k
            ⟨128 * r.val + l.val, by omega⟩) := by
  show (V (F := Ideal) m c main_v5 : S4096x2x32x128.Idx → EReal) (((cfg0.win 0).blk t).view.emb (ix4 b k r l)) = _
  refine (congrFun (logits_eq m c) _).trans (shapeCast_apply _ _ _ _ ?_)
  show (SX.rowMajor _).val = (S4096x2x32x128.rowMajor _).val
  rw [Shape.rowMajor_val_five, Shape.rowMajor_val_four]
  obtain ⟨e0, e1, e2, e3, -, -, -⟩ := idx_facts t
  show ((((128 * t.val + b.val) * 2 + k.val) * 16 + (128 * r.val + l.val) / 256) * 16 + (128 * r.val + l.val) / 16 % 16) * 16
        + (128 * r.val + l.val) % 16
      = (((win0_0.index t (0 : Fin 4) * 128 + 1 * b.val) * 2 + (win0_0.index t (1 : Fin 4) * 2 + 1 * k.val)) * 32
          + (win0_0.index t (2 : Fin 4) * 32 + 1 * r.val)) * 128 + (win0_0.index t (3 : Fin 4) * 128 + 1 * l.val)
  rw [e0, e1, e2, e3]
  have := b.isLt; have := k.isLt; have := r.isLt; have := l.isLt
  omega

/-- Entry `(b, r, l)` of the labels' block at point `t` is the label of entry `128 r + l` of block `128 t + b`. -/
theorem labels_block (m : (ℓ : Loc nD τ sig) → Buf (Elt Ideal) ℓ) (c : Dev nD) (t : Fin cfg0.N)
    (b : Fin 128) (r : Fin 32) (l : Fin 128) :
    iblk (F := Ideal) m c 1 t (ix3 b r l)
      = (V (F := Ideal) m c main_v3 : ST.Idx → BitVec 32)
          (tix ⟨128 * t.val + b.val, by have := t.isLt; have h : cfg0.N = 32 := Gen.N_0; omega⟩ ⟨128 * r.val + l.val, by omega⟩) := by
  show (V (F := Ideal) m c main_v4 : S4096x32x128.Idx → BitVec 32) (((cfg0.win 1).blk t).view.emb (ix3 b r l)) = _
  refine (congrFun (labels_eq m c) _).trans (shapeCast_apply _ _ _ _ ?_)
  show (ST.rowMajor _).val = (S4096x32x128.rowMajor _).val
  rw [Shape.rowMajor_val_four, Shape.rowMajor_val_three]
  obtain ⟨-, -, -, -, e0, e1, e2⟩ := idx_facts t
  show (((128 * t.val + b.val) * 16 + (128 * r.val + l.val) / 256) * 16 + (128 * r.val + l.val) / 16 % 16) * 16
        + (128 * r.val + l.val) % 16
      = ((win0_1.index t (0 : Fin 3) * 128 + 1 * b.val) * 32 + (win0_1.index t (1 : Fin 3) * 32 + 1 * r.val)) * 128
          + (win0_1.index t (2 : Fin 3) * 128 + 1 * l.val)
  rw [e0, e1, e2]
  have := b.isLt; have := r.isLt; have := l.isLt
  omega

/-! ## The block payload on the windows' blocks -/

/-- At grid point `t` the block payload, on the blocks the two input windows hold there, is the sum of the losses of blocks
    `128 t … 128 t + 127` of the level-0 loss of the block-by-block labels and the logits argument. -/
theorem bs_eq (m : (ℓ : Loc nD τ sig) → Buf (Elt Ideal) ℓ) (c : Dev nD) (t : Fin cfg0.N) (y : S1x1.Idx) :
    k0_pay3 (F := Ideal) (iblk (F := Ideal) m c 0 t) (iblk (F := Ideal) m c 1 t) y
      = ∑ b : Fin 128, Ideal.div
          (num (V (F := Ideal) m c main_v3 : ST.Idx → BitVec 32) (m ((c.tc : Thread nD τ).loc main_arg1) : SX.Idx → EReal)
            ⟨128 * t.val + b.val, by have := t.isLt; have h : cfg0.N = 32 := Gen.N_0; omega⟩)
          (den (V (F := Ideal) m c main_v3 : ST.Idx → BitVec 32)
            ⟨128 * t.val + b.val, by have := t.isLt; have h : cfg0.N = 32 := Gen.N_0; omega⟩) :=
  pay3_eq (V (F := Ideal) m c main_v3 : ST.Idx → BitVec 32) (m ((c.tc : Thread nD τ).loc main_arg1) : SX.Idx → EReal)
    ⟨t.val, by have := t.isLt; have h : cfg0.N = 32 := Gen.N_0; omega⟩
    (iblk (F := Ideal) m c 0 t) (iblk (F := Ideal) m c 1 t)
    (fun b k r l => logits_block m c t b k r l) (fun b r l => labels_block m c t b r l) y

end Cert.Bridge.KBlock

end
-- ==== Proof.LibEntries.lean ====
/-
  Layout operations move entries and make none: every entry of a reshaped, transposed, sliced or broadcast array is an
  entry of the array it was made from. So whatever holds of every entry of an array (a range of values, finiteness)
  holds of every entry of the array laid out anew, with no arithmetic on the coordinates.

  Each operation reads its operand at ONE index computed from the result's index (the same row-major position for a
  reshape, the permuted coordinates for a transposition, the shifted ones for a slice, the kept ones for a broadcast);
  the statements below forget which index and keep only that there is one.
-/
import Idealize.ShloMosaic.PureOps

namespace Cert.LibEntries

open Idealize.ShloMosaic

variable {α : Type} {s t : Shape}

/-- Every entry of a reshaped array is an entry of the array: the one at the same row-major position. -/
theorem shapeCast_entry (x : s.Idx → α) (h : s.ShapeCasts t) (j : t.Idx) : ∃ i, shapeCast t x h j = x i :=
  ⟨Shape.reshapeEquiv h j, rfl⟩

/-- Every entry of a transposed array is an entry of the array: the one whose coordinates are the result's, permuted back. -/
theorem transpose_entry (perm : List (Fin s.rank)) (x : s.Idx → α) (h : s.Transposes perm t) (j : t.Idx) :
    ∃ i, transpose t perm x h j = x i :=
  ⟨h.src j, rfl⟩

/-- Every entry of a unit-stride slice is an entry of the array: the one shifted by the offsets. -/
theorem extractStridedSlice_entry (off : Fin s.rank → Nat) (x : s.Idx → α) (h : s.Slices off t) (j : t.Idx) :
    ∃ i, extractStridedSlice t off x h j = x i :=
  ⟨_, rfl⟩

/-- Every entry of a broadcast array is an entry of the array: the one at the coordinates the broadcast keeps. -/
theorem broadcastInDim_entry (dims : Fin s.rank → Fin t.rank) (h : s.BroadcastsInDim t dims) (x : s.Idx → α) (j : t.Idx) :
    ∃ i, broadcastInDim t dims h x j = x i :=
  ⟨_, rfl⟩

/-- What holds of every entry of an array holds of every entry of the array reshaped. -/
theorem forall_shapeCast {P : α → Prop} (x : s.Idx → α) (h : s.ShapeCasts t) (hx : ∀ i, P (x i)) (j : t.Idx) :
    P (shapeCast t x h j) :=
  hx _

/-- What holds of every entry of an array holds of every entry of the array transposed. -/
theorem forall_transpose {P : α → Prop} (perm : List (Fin s.rank)) (x : s.Idx → α) (h : s.Transposes perm t)
    (hx : ∀ i, P (x i)) (j : t.Idx) : P (transpose t perm x h j) :=
  hx _

/-- What holds of every entry of an array holds of every entry of a unit-stride slice of it. -/
theorem forall_extractStridedSlice {P : α → Prop} (off : Fin s.rank → Nat) (x : s.Idx → α) (h : s.Slices off t)
    (hx : ∀ i, P (x i)) (j : t.Idx) : P (extractStridedSlice t off x h j) :=
  hx _

/-- What holds of every entry of an array holds of every entry of the array broadcast. -/
theorem forall_broadcastInDim {P : α → Prop} (dims : Fin s.rank → Fin t.rank) (h : s.BroadcastsInDim t dims) (x : s.Idx → α)
    (hx : ∀ i, P (x i)) (j : t.Idx) : P (broadcastInDim t dims h x j) :=
  hx _

end Cert.LibEntries
-- ==== Proof.Bridge.Pre.lean ====
/-
  From the printed precondition to the domain of the level-0 specification.

  The precondition says four things of a device's arguments, each an "all" over an array: every logit has absolute value
  below +∞, every entry of the third argument likewise, every label is at least 0, every label is below 2 (both signed).
  An extended real whose absolute value is below +∞ is a real number; a 32-bit word in [0, 2) signed is 0 or 1.

  The kernel region reads the labels not as they arrive but block by block: the argument reshaped to a cube, cut into
  16-voxel runs along each axis, the three block axes brought to the front, and the result reshaped to
  [4096, 16, 16, 16]. None of these steps makes an entry: each entry of the block-by-block array is an entry of the
  argument, so it is 0 or 1 too. The logits are the argument itself.
-/
import proofs.«423392_j65163243815393_1_alg».proof.Proof.Spec
import proofs.«423392_j65163243815393_1_alg».proof.Proof.KI.Kit
import proofs.«423392_j65163243815393_1_alg».proof.Defs
import proofs.«423392_j65163243815393_1_alg».proof.Proof.Gen.Pre_finite_inputs
import proofs.«423392_j65163243815393_1_alg».proof.Proof.LibEntries
import Idealize.ShloMosaic.Lib.ReduceAll
import Idealize.ShloMosaic.Lib.StableHlo.Predicate
import Idealize.ShloMosaic.Lib.StableHlo.Run
import Idealize.ShloMosaic.Lib.ValueIdx

set_option maxRecDepth 16384

noncomputable section

namespace Cert.Bridge.Pre

open Idealize.ShloMosaic Cert.KernelIdeal Cert.KernelIdeal.Gen Cert.KernelIdeal.Frm
open Idealize.ShloMosaic.StableHlo

/-! ## The precondition, element by element -/

/-- The shape of a scalar has one index. -/
instance : Subsingleton Cert.Pre_finite_inputs.S_.Idx := ⟨fun a b => funext fun d => d.elim0⟩

/-- The pattern with every exponent bit set, no fraction bit and sign 0 is +∞. -/
theorem inf_bits : Ideal.ofBits .f32 0x7F800000#32 = (⊤ : EReal) := by
  simp [Ideal.ofBits, Ideal.ieee]

/-- An extended real whose absolute value `max x (-x)` is below +∞ is a real number: +∞ and -∞ both have
    absolute value +∞. -/
theorem real_of_abs_lt_top (x : EReal) (h : Ideal.cmp .olt (max x (-x)) (⊤ : EReal) = 1#1) : ∃ r : ℝ, x = (r : EReal) := by
  unfold Ideal.cmp at h
  rw [StableHlo.Predicate.ofBool_eq_one_iff, decide_eq_true_eq] at h
  induction x using EReal.rec with
  | bot => simp at h
  | coe r => exact ⟨r, rfl⟩
  | top => simp at h

/-- A 32-bit word that is at least 0 and below 2, both as signed numbers, is 0 or 1. -/
theorem word_zero_or_one (w : BitVec 32) (h0 : IntOp.cmpi .sge w 0#32 = 1#1) (h2 : IntOp.cmpi .slt w 2#32 = 1#1) :
    w = 0#32 ∨ w = 1#32 := by
  unfold IntOp.cmpi at h0 h2
  rw [StableHlo.Predicate.ofBool_eq_one_iff] at h0 h2
  simp only [BitVec.slt, BitVec.sle, decide_eq_true_eq] at h0 h2
  have e0 : (0#32).toInt = 0 := by decide
  have e2 : (2#32).toInt = 2 := by decide
  rw [e0] at h0; rw [e2] at h2
  have hc : w.toInt = 0 ∨ w.toInt = 1 := by omega
  rcases hc with hc | hc
  · left; apply BitVec.eq_of_toInt_eq; rw [hc, e0]
  · right; apply BitVec.eq_of_toInt_eq; rw [hc]; decide

/-- THE PRECONDITION DECODED: at every index the logit's absolute value is below +∞, and the label is at least 0 and
    below 2. (The conjunct about the third argument is not needed and is dropped.) -/
theorem decode (x0 : IVec Cert.Pre_finite_inputs.S1x256x256x256 32) (x1 : FVec Ideal Cert.Pre_finite_inputs.S4096x2x16x16x16 .f32)
    (x2 : FVec Ideal Cert.Pre_finite_inputs.S585x3 .f32)
    (h : Cert.Pre_finite_inputs.fn (F := Ideal) x0 x1 x2 = fun _ => 1#1) :
    (∀ i, Ideal.cmp .olt (max (x1 i) (-(x1 i))) (⊤ : EReal) = 1#1)
    ∧ (∀ i, IntOp.cmpi .sge (x0 i) 0#32 = 1#1) ∧ (∀ i, IntOp.cmpi .slt (x0 i) 2#32 = 1#1) := by
  -- the result has one index; there the four "all"s are joined by `and`
  have e := congrFun h ValueIdx.ix0
  dsimp only [Cert.Pre_finite_inputs.fn, Cert.Pre_finite_inputs.fn_part1] at e
  simp only [andi, IntOp.andi_eq_one] at e
  obtain ⟨⟨⟨h1, -⟩, h3⟩, h4⟩ := e
  -- an "all" that is 1 had a 1 at every index
  have a1 := Host.reduce_andi_all _ _ _ _ _ h1
  have a3 := Host.reduce_andi_all _ _ _ _ _ h3
  have a4 := Host.reduce_andi_all _ _ _ _ _ h4
  refine ⟨fun i => ?_, fun i => a3 i, fun i => a4 i⟩
  rw [← inf_bits]
  exact a1 i

/-- Under the precondition every logit is a real number. -/
theorem fin_of_pre (x0 : IVec Cert.Pre_finite_inputs.S1x256x256x256 32) (x1 : FVec Ideal Cert.Pre_finite_inputs.S4096x2x16x16x16 .f32)
    (x2 : FVec Ideal Cert.Pre_finite_inputs.S585x3 .f32)
    (h : Cert.Pre_finite_inputs.fn (F := Ideal) x0 x1 x2 = fun _ => 1#1) : ∀ i, ∃ r : ℝ, x1 i = (r : EReal) :=
  fun i => real_of_abs_lt_top (x1 i) ((decode x0 x1 x2 h).1 i)

/-- Under the precondition every label is 0 or 1. -/
theorem lab_of_pre (x0 : IVec Cert.Pre_finite_inputs.S1x256x256x256 32) (x1 : FVec Ideal Cert.Pre_finite_inputs.S4096x2x16x16x16 .f32)
    (x2 : FVec Ideal Cert.Pre_finite_inputs.S585x3 .f32)
    (h : Cert.Pre_finite_inputs.fn (F := Ideal) x0 x1 x2 = fun _ => 1#1) : ∀ i, x0 i = 0#32 ∨ x0 i = 1#32 :=
  fun i => word_zero_or_one (x0 i) ((decode x0 x1 x2 h).2.1 i) ((decode x0 x1 x2 h).2.2 i)

/-! ## What the region finds: the label argument laid out block by block -/

section Entry

variable {F : FTy → Type} [FloatOps F]

/-- The cube of labels the region's later lines start from is the label argument reshaped (its unit axis dropped). -/
theorem v0_eq (m : (ℓ : Loc nD τ sig) → Buf (Elt F) ℓ) (c : Dev nD) :
    (V (F := F) m c main_v0 : S256x256x256.Idx → BitVec 32)
      = shapeCast _ (m ((c.tc : Thread nD τ).loc main_arg0)) shapeCasts_S1x256x256x256_S256x256x256 := by
  dsimp only [Frm.V, Frm.V0]
  simp only [Gen.hostOps0, List.flatten_cons, List.flatten_nil, List.append_nil]
  after_results
  rfl

/-- The block-by-block labels are the label argument reshaped to a cube, each axis split into 16 runs of 16, the three
    run axes brought in front of the three within-run axes, and the six axes merged to [4096, 16, 16, 16]. -/
theorem v3_eq (m : (ℓ : Loc nD τ sig) → Buf (Elt F) ℓ) (c : Dev nD) :
    (V (F := F) m c main_v3 : S4096x16x16x16.Idx → BitVec 32)
      = shapeCast _ (transpose S16x16x16x16x16x16 [0, 2, 4, 1, 3, 5]
          (shapeCast _ (shapeCast _ (m ((c.tc : Thread nD τ).loc main_arg0)) shapeCasts_S1x256x256x256_S256x256x256)
            shapeCasts_S256x256x256_S16x16x16x16x16x16)
          transposes_S16x16x16x16x16x16_S16x16x16x16x16x16_0_2_4_1_3_5) shapeCasts_S16x16x16x16x16x16_S4096x16x16x16 := by
  dsimp only [Frm.V, Frm.V0]
  simp only [Gen.hostOps0, List.flatten_cons, List.flatten_nil, List.append_nil]
  after_results
  rfl

end Entry

/-! ## The specification's domain -/

/-- Under the precondition the arrays the level-0 loss is a function of — the block-by-block labels the region finds and
    the logit argument — lie in the specification's domain: every logit a real number, every label 0 or 1. -/
theorem ok_of_pre (m : (ℓ : Loc nD τ sig) → Buf (Elt Ideal) ℓ) (hpre : Cert.Pre_KernelIdeal m) (c : Dev nD) :
    Cert.Spec.Ok (V (F := Ideal) m c main_v3 : Cert.Spec.ST.Idx → BitVec 32)
      (m ((c.tc : Thread nD τ).loc main_arg1) : Cert.Spec.SX.Idx → EReal) where
  fin := fin_of_pre _ _ _ (hpre c)
  lab := fun i => by
    -- an entry of the block-by-block labels is an entry of the argument: three reshapes and a transposition make none
    rw [v3_eq (F := Ideal) m c]
    refine Cert.LibEntries.forall_shapeCast (P := fun w => w = 0#32 ∨ w = 1#32) _ _ (fun i => ?_) i
    refine Cert.LibEntries.forall_transpose (P := fun w => w = 0#32 ∨ w = 1#32) _ _ _ (fun i => ?_) i
    refine Cert.LibEntries.forall_shapeCast (P := fun w => w = 0#32 ∨ w = 1#32) _ _ (fun i => ?_) i
    refine Cert.LibEntries.forall_shapeCast (P := fun w => w = 0#32 ∨ w = 1#32) _ _ (fun i => ?_) i
    exact lab_of_pre _ _ _ (hpre c) i

end Cert.Bridge.Pre

end
-- ==== Proof.Bridge.RefLoss.lean ====
/-
  The reference program's level-0 loss is the specification's `loss0`.

  The reference computes, per voxel, the two-class log-softmax `(p_k - M) - log (exp (p_0 - M) + exp (p_1 - M))` with
  `M = max p_0 p_1`, takes it at the label's class, negates it, multiplies by the class weight (16 for label 0, else 1),
  sums weighted terms and weights over the 16 · 16 · 16 voxels of each block, divides, and sums the 4096 quotients.
  For real logits `a, b` one of `a - M`, `b - M` is `0` and the other is `-|a - b|`, so the log-sum is
  `log (1 + exp (-|a - b|))` and the negated log-softmax at class `t` is `max a b + log (1 + exp (-|a - b|)) - p_t`.
  A label in `{0, 1}` is not negative, lies in `[0, 1]`, and clamps to itself, so the gather reads class `t` and the
  in-range select keeps it. The voxels of block `j` are the indices `(j, q / 256, q / 16 % 16, q % 16)`, `q < 4096`.
-/
import proofs.«423392_j65163243815393_1_alg».proof.Proof.Spec
import proofs.«423392_j65163243815393_1_alg».proof.Proof.RefReadP
import Idealize.ShloMosaic.PureOps.Ideal.Laws
import Idealize.ShloMosaic.Lib.ValueIdx
import Idealize.ShloMosaic.Lib.ValueIdxRank1
import Idealize.ShloMosaic.Lib.ValueIdxRank6

noncomputable section

namespace Cert.Bridge.RefLoss

open Idealize.ShloMosaic Idealize.ShloMosaic.ValueIdx Cert.ReferenceIdeal Cert.ReferenceIdeal.Gen Cert.ReferenceIdeal.ReadP Cert.Spec

/-! ## The literals -/

/-- The pattern `0xFF800000` is `-∞`. -/
theorem ofBits_neg_inf : Ideal.ofBits .f32 0xFF800000#32 = ⊥ := by simp [Ideal.ofBits, Ideal.ieee]
/-- The pattern `0x41800000` is `16 = 2^23 · 2^(-19)`. -/
theorem ofBits_sixteen : Ideal.ofBits .f32 0x41800000#32 = 16 := by
  simp [Ideal.ofBits, Ideal.ieee]
  rw [← EReal.coe_mul]
  norm_num
  first | rfl | norm_cast
/-- The pattern `0x3F800000` is `1 = 2^23 · 2^(-23)`. -/
theorem ofBits_one : Ideal.ofBits .f32 0x3F800000#32 = 1 := by
  simp [Ideal.ofBits, Ideal.ieee]
  rw [← EReal.coe_mul]
  norm_num

/-! ## The two-class log-softmax on real logits -/

/-- The embedding of the reals is monotone, so it commutes with `max`. -/
theorem coe_max (x y : ℝ) : ((max x y : ℝ) : EReal) = max (x : EReal) y :=
  EReal.coe_strictMono.monotone.map_max

/-- The specification's log-sum-exp of two real logits is a real number. -/
theorem lse_real (a b : ℝ) :
    lse (a : EReal) (b : EReal) = ((max a b + Real.log (1 + Real.exp (-|a - b|)) : ℝ) : EReal) := by
  unfold lse
  have hpos : ¬ (1 + Real.exp (-|a - b|) ≤ 0) := not_le.mpr (by positivity)
  have habs : max (a - b) (-(a - b)) = |a - b| := rfl
  simp only [← EReal.coe_sub, ← EReal.coe_neg, ← coe_max, Ideal.exp_coe, ← EReal.coe_one, ← EReal.coe_add, habs,
    Ideal.log_coe, if_neg hpos]

/-- Shifted by the larger logit, one exponent is `0` and the other is `-|a - b|`. -/
theorem logsumexp_shift (a b : ℝ) :
    Real.log (Real.exp (a - max a b) + Real.exp (b - max a b)) = Real.log (1 + Real.exp (-|a - b|)) := by
  rcases le_total a b with h | h
  · rw [max_eq_right h, sub_self, Real.exp_zero, abs_of_nonpos (sub_nonpos.mpr h), neg_neg, add_comm]
  · rw [max_eq_left h, sub_self, Real.exp_zero, abs_of_nonneg (sub_nonneg.mpr h), neg_sub]

/-- The negated shifted log-softmax at a logit `p` is the log-sum-exp minus `p`. -/
theorem nll_real (a b p : ℝ) :
    -(((p : EReal) - max (a : EReal) b)
        - Ideal.log (Ideal.exp ((a : EReal) - max (a : EReal) b) + Ideal.exp ((b : EReal) - max (a : EReal) b)))
      = lse (a : EReal) (b : EReal) - (p : EReal) := by
  have hpos : ¬ (Real.exp (a - max a b) + Real.exp (b - max a b) ≤ 0) := not_le.mpr (by positivity)
  rw [lse_real]
  simp only [← coe_max, ← EReal.coe_sub, Ideal.exp_coe, ← EReal.coe_add, Ideal.log_coe, if_neg hpos, ← EReal.coe_neg]
  rw [logsumexp_shift]
  congr 1
  ring

/-! ## The log-softmax of the reference, read at a voxel -/

/-- The maximum over the class axis at a voxel: `-∞` is neutral, the two logits remain. -/
theorem call0_v0_apply (x1 : (⟨S4096x2x16x16x16, .f32⟩ : BufTy).Contents (Elt Ideal)) (i : S4096x16x16x16.Idx) :
    val_main_call0_v0 (F := Ideal) x1 i = max (x1 (idx_main_call0_v7 i 0)) (x1 (idx_main_call0_v7 i 1)) := by
  unfold val_main_call0_v0
  refine (Host.reduce_eq_fold_single (FloatOps.maximumf (F := Ideal) (φ := .f32)) x1 (val_main_call0_cst (F := Ideal))
    reducesTo_S4096x2x16x16x16_S4096x16x16x16_d1 (by decide) h_S_ i).trans ?_
  show (Finset.univ : Finset (Fin 2)).fold max (Ideal.ofBits .f32 0xFF800000#32) (x1 ∘ _) = _
  rw [ofBits_neg_inf]
  have hu : (Finset.univ : Finset (Fin 2)) = {0, 1} := by decide
  rw [hu, Finset.fold_insert (by decide), Finset.fold_singleton, max_bot_right]
  have hl : ∀ k : Fin 2, (x1 ∘ (Shape.Reduces.lift (s := S4096x2x16x16x16) (t := S4096x16x16x16) (a := 1) (by decide) i)) k
      = x1 (idx_main_call0_v7 i k) := fun k =>
    congrArg x1 (funext fun a => Fin.ext (by match a with | ⟨0, _⟩ => rfl | ⟨1, _⟩ => rfl | ⟨2, _⟩ => rfl | ⟨3, _⟩ => rfl | ⟨4, _⟩ => rfl))
  exact congrArg₂ max (hl 0) (hl 1)

/-- The voxel of the logits index `(j, k, a, b, c)` is `(j, a, b, c)`, through the two broadcasts of the maximum … -/
theorem voxel_of_class (i : S4096x16x16x16.Idx) (k : Fin 2) :
    idx_main_call0_v3 (idx_main_call0_v4 (idx_main_call0_v7 i k)) = i := by
  funext a; match a with | ⟨0, _⟩ => rfl | ⟨1, _⟩ => rfl | ⟨2, _⟩ => rfl | ⟨3, _⟩ => rfl
/-- … and through the two broadcasts of the log-sum. -/
theorem voxel_of_class' (i : S4096x16x16x16.Idx) (k : Fin 2) :
    idx_main_call0_v8 (idx_main_call0_v10 (idx_main_call0_v7 i k)) = i := by
  funext a; match a with | ⟨0, _⟩ => rfl | ⟨1, _⟩ => rfl | ⟨2, _⟩ => rfl | ⟨3, _⟩ => rfl

/-- The shifted logit of class `k` at a voxel. -/
theorem call0_v5_apply (x1 : (⟨S4096x2x16x16x16, .f32⟩ : BufTy).Contents (Elt Ideal)) (i : S4096x16x16x16.Idx) (k : Fin 2) :
    val_main_call0_v5 (F := Ideal) x1 (idx_main_call0_v7 i k)
      = x1 (idx_main_call0_v7 i k) - max (x1 (idx_main_call0_v7 i 0)) (x1 (idx_main_call0_v7 i 1)) := by
  rw [val_main_call0_v5_apply, val_main_call0_v4_apply, val_main_call0_v3_apply, val_main_call0_v2_apply,
    val_main_call0_v1_apply, val_main_call0_cst_0_apply, voxel_of_class, call0_v0_apply]
  simp only [Ideal.subf_def, Ideal.maximumf_def, Ideal.ofBits_def, ofBits_neg_inf, max_bot_left]

/-- The log-softmax of class `k` at a voxel: the shifted logit minus the log of the two shifted exponentials' sum. -/
theorem v4_apply (x1 : (⟨S4096x2x16x16x16, .f32⟩ : BufTy).Contents (Elt Ideal)) (i : S4096x16x16x16.Idx) (k : Fin 2) :
    val_main_v4 (F := Ideal) x1 (idx_main_call0_v7 i k)
      = (x1 (idx_main_call0_v7 i k) - max (x1 (idx_main_call0_v7 i 0)) (x1 (idx_main_call0_v7 i 1)))
        - Ideal.log (Ideal.exp (x1 (idx_main_call0_v7 i 0) - max (x1 (idx_main_call0_v7 i 0)) (x1 (idx_main_call0_v7 i 1)))
            + Ideal.exp (x1 (idx_main_call0_v7 i 1) - max (x1 (idx_main_call0_v7 i 0)) (x1 (idx_main_call0_v7 i 1)))) := by
  rw [val_main_v4_apply, call0_v5_apply, val_main_call0_v10_apply, val_main_call0_v9_apply, val_main_call0_v8_apply, voxel_of_class',
    val_main_call0_v7_apply, Fin.sum_univ_two, val_main_call0_v6_apply, val_main_call0_v6_apply, call0_v5_apply, call0_v5_apply,
    val_main_call0_cst_1_apply]
  simp only [Ideal.subf_def, Ideal.ofBits_def, Ideal.ofBits_zero_f32, zero_add, Ideal.hostUnary_exp_def, Ideal.hostUnary_log_def]

/-! ## The gather along the class axis -/

/-- The start-indices index `(j, 0, a, b, c, 0)` of result index `(j, 0, a, b, c)`. -/
abbrev six (i : S4096x1x16x16x16.Idx) : S4096x1x16x16x16x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 4).val, (i 4).isLt⟩
  | ⟨5, _⟩ => ⟨0, Nat.one_pos⟩

/-- The logits index `(j, k, a, b, c)` over result index `(j, 0, a, b, c)`. -/
abbrev cls (i : S4096x1x16x16x16.Idx) (k : Fin 2) : S4096x2x16x16x16.Idx := fun a => match a with
  | ⟨0, _⟩ => ⟨(i 0).val, (i 0).isLt⟩
  | ⟨1, _⟩ => ⟨k.val, k.isLt⟩
  | ⟨2, _⟩ => ⟨(i 2).val, (i 2).isLt⟩
  | ⟨3, _⟩ => ⟨(i 3).val, (i 3).isLt⟩
  | ⟨4, _⟩ => ⟨(i 4).val, (i 4).isLt⟩

/-- The operand index the gather reads at `(j, 0, a, b, c)`: the four batching axes carry the result's coordinates,
    the collapsed class axis carries the start index, read signed and clamped into `[0, 1]`. -/
theorem gather_idx (i : S4096x1x16x16x16.Idx) (idx : IVec S4096x1x16x16x16x1 32) :
    gather_S4096x2x16x16x16_S4096x1x16x16x16x1_S4096x1x16x16x16_n_1_0234_0234_1_5_11111.operandIdx i idx
      = cls i ⟨min (idx (six i)).toInt.toNat 1, by omega⟩ := by
  funext a
  apply Fin.ext
  let d := gather_S4096x2x16x16x16_S4096x1x16x16x16x1_S4096x1x16x16x16_n_1_0234_0234_1_5_11111
  show d.start i idx a + d.batchCoord i a + d.offCoord i a = _
  match a with
  | ⟨0, _⟩ =>
    have hb : (⟨0, by decide⟩ : Fin 5) ∈ d.operandBatchingDims := by decide
    rw [d.start_batching i idx _ hb, d.offCoord_eq_zero i _ (fun h => ((d.mem_sKept _).1 h).2 hb), Nat.zero_add, Nat.add_zero]
    unfold GatherDims.batchCoord
    rw [dif_pos hb]
    rfl
  | ⟨1, _⟩ =>
    have hb : (⟨1, by decide⟩ : Fin 5) ∉ d.operandBatchingDims := by decide
    have hc : (⟨1, by decide⟩ : Fin 5) ∈ d.collapsedSliceDims := by decide
    have hm : (⟨1, by decide⟩ : Fin 5) ∈ d.startIndexMap := by decide
    rw [d.batchCoord_eq_zero i _ hb, d.offCoord_eq_zero i _ (fun h => ((d.mem_sKept _).1 h).1 hc), Nat.add_zero]
    unfold GatherDims.start
    rw [dif_pos hm]
    have hsi : d.siIdx i ⟨List.idxOf (⟨1, by decide⟩ : Fin 5) d.startIndexMap, List.idxOf_lt_length_iff.2 hm⟩ = six i := by
      funext b; refine Fin.ext ?_
      match b with
      | ⟨0, _⟩ => rfl
      | ⟨1, _⟩ => rfl
      | ⟨2, _⟩ => rfl
      | ⟨3, _⟩ => rfl
      | ⟨4, _⟩ => rfl
      | ⟨5, _⟩ => rfl
    rw [hsi]
    rfl
  | ⟨2, _⟩ =>
    have hb : (⟨2, by decide⟩ : Fin 5) ∈ d.operandBatchingDims := by decide
    rw [d.start_batching i idx _ hb, d.offCoord_eq_zero i _ (fun h => ((d.mem_sKept _).1 h).2 hb), Nat.zero_add, Nat.add_zero]
    unfold GatherDims.batchCoord
    rw [dif_pos hb]
    rfl
  | ⟨3, _⟩ =>
    have hb : (⟨3, by decide⟩ : Fin 5) ∈ d.operandBatchingDims := by decide
    rw [d.start_batching i idx _ hb, d.offCoord_eq_zero i _ (fun h => ((d.mem_sKept _).1 h).2 hb), Nat.zero_add, Nat.add_zero]
    unfold GatherDims.batchCoord
    rw [dif_pos hb]
    rfl
  | ⟨4, _⟩ =>
    have hb : (⟨4, by decide⟩ : Fin 5) ∈ d.operandBatchingDims := by decide
    rw [d.start_batching i idx _ hb, d.offCoord_eq_zero i _ (fun h => ((d.mem_sKept _).1 h).2 hb), Nat.zero_add, Nat.add_zero]
    unfold GatherDims.batchCoord
    rw [dif_pos hb]
    rfl

/-- The rank-5 index `(j, 0, a, b, c)` over the voxel `(j, a, b, c)`. -/
abbrev up (i : S4096x16x16x16.Idx) : S4096x1x16x16x16.Idx := fun a => match a with
  | ⟨0, _⟩ => ⟨(i 0).val, (i 0).isLt⟩
  | ⟨1, _⟩ => ⟨0, Nat.one_pos⟩
  | ⟨2, _⟩ => ⟨(i 1).val, (i 1).isLt⟩
  | ⟨3, _⟩ => ⟨(i 2).val, (i 2).isLt⟩
  | ⟨4, _⟩ => ⟨(i 3).val, (i 3).isLt⟩

/-- Dropping the unit class axis by a reshape: the row-major position `((j · 16 + a) · 16 + b) · 16 + c` splits back
    into `(j, 0, a, b, c)`. -/
theorem idx_main_v7_eq (i : S4096x16x16x16.Idx) : idx_main_v7 i = up i := by
  funext a; apply Fin.ext
  have h0 : (i 0).val < 4096 := (i 0).isLt
  have h1 : (i 1).val < 16 := (i 1).isLt
  have h2 : (i 2).val < 16 := (i 2).isLt
  have h3 : (i 3).val < 16 := (i 3).isLt
  match a with
  | ⟨0, _⟩ => show ((((i 0).val * 16 + (i 1).val) * 16 + (i 2).val) * 16 + (i 3).val) / 4096 = (i 0).val; omega
  | ⟨1, _⟩ => rfl
  | ⟨2, _⟩ => show ((((i 0).val * 16 + (i 1).val) * 16 + (i 2).val) * 16 + (i 3).val) / 256 % 16 = (i 1).val; omega
  | ⟨3, _⟩ => show ((((i 0).val * 16 + (i 1).val) * 16 + (i 2).val) * 16 + (i 3).val) / 16 % 16 = (i 2).val; omega
  | ⟨4, _⟩ => show ((((i 0).val * 16 + (i 1).val) * 16 + (i 2).val) * 16 + (i 3).val) % 16 = (i 3).val; omega

theorem idx_main_v5_up (i : S4096x16x16x16.Idx) : idx_main_v5 (up i) = i := by
  funext a; match a with | ⟨0, _⟩ => rfl | ⟨1, _⟩ => rfl | ⟨2, _⟩ => rfl | ⟨3, _⟩ => rfl

theorem cls_up (i : S4096x16x16x16.Idx) (k : Fin 2) : cls (up i) k = idx_main_call0_v7 i k := by
  funext a; match a with | ⟨0, _⟩ => rfl | ⟨1, _⟩ => rfl | ⟨2, _⟩ => rfl | ⟨3, _⟩ => rfl | ⟨4, _⟩ => rfl

/-- A label that is 0 or 1 is not negative, so the index normalisation `t < 0 → t + 2` keeps it. -/
theorem norm_label (t : BitVec 32) (ht : t = 0#32 ∨ t = 1#32) :
    Scalar.select (IntOp.cmpi .slt t 0#32) (IntOp.addi t 2#32) t = t := by
  rcases ht with rfl | rfl <;> decide

/-- A label that is 0 or 1 passes the range check `0 ≤ t ∧ t ≤ 1`. -/
theorem inrange_label (t : BitVec 32) (ht : t = 0#32 ∨ t = 1#32) :
    IntOp.andi (IntOp.andi (IntOp.cmpi .sge t 0#32) (IntOp.cmpi .sle t 1#32)) 1#1 = 1#1 := by
  rcases ht with rfl | rfl <;> decide

/-- Appending a unit axis by a reshape keeps the row-major position. -/
theorem call1_v5_six (x0 : (⟨S1x256x256x256, .i32⟩ : BufTy).Contents (Elt Ideal)) (i : S4096x1x16x16x16.Idx) :
    val_main_call1_v5 (F := Ideal) x0 (six i) = val_main_call1_v4 (F := Ideal) x0 i := by
  unfold val_main_call1_v5
  exact shapeCast_apply _ shapeCasts_S4096x1x16x16x16_S4096x1x16x16x16x1 (six i) i
    (by rw [Shape.rowMajor_val_five, Shape.rowMajor_val_six]
        show ((((i 0).val * 1 + (i 1).val) * 16 + (i 2).val) * 16 + (i 3).val) * 16 + (i 4).val
          = (((((i 0).val * 1 + (i 1).val) * 16 + (i 2).val) * 16 + (i 3).val) * 16 + (i 4).val) * 1 + 0
        omega)

/-- The normalised gather index at a voxel whose label is 0 or 1 is the label. -/
theorem call1_v4_up (x0 : (⟨S1x256x256x256, .i32⟩ : BufTy).Contents (Elt Ideal)) (i : S4096x16x16x16.Idx)
    (ht : val_main_v3 (F := Ideal) x0 i = 0#32 ∨ val_main_v3 (F := Ideal) x0 i = 1#32) :
    val_main_call1_v4 (F := Ideal) x0 (up i) = val_main_v3 (F := Ideal) x0 i := by
  rw [val_main_call1_v4_apply, val_main_call1_v1_apply, val_main_call1_v3_apply, val_main_v5_apply, idx_main_v5_up,
    val_main_call1_v0_apply, val_main_call1_c_apply, val_main_call1_v2_apply, val_main_call1_c_0_apply]
  exact norm_label _ ht

/-- The range check reduced by `and` over its unit axis: the check's one element and the initial `true`. -/
theorem call1_v12_apply (x0 : (⟨S1x256x256x256, .i32⟩ : BufTy).Contents (Elt Ideal)) (i : S4096x1x16x16x16.Idx) :
    val_main_call1_v12 (F := Ideal) x0 i = IntOp.andi (val_main_call1_v11 (F := Ideal) x0 (six i)) 1#1 := by
  unfold val_main_call1_v12
  refine (Host.reduce_eq_fold_single (IntOp.andi (w := 1)) (val_main_call1_v11 (F := Ideal) x0) (val_main_call1_c_3 (F := Ideal))
    reducesTo_S4096x1x16x16x16x1_S4096x1x16x16x16_d5 (by decide) h_S_ i).trans ?_
  show (Finset.univ : Finset (Fin 1)).fold IntOp.andi 1#1 (val_main_call1_v11 (F := Ideal) x0 ∘ _) = _
  have hu : (Finset.univ : Finset (Fin 1)) = {0} := by decide
  rw [hu, Finset.fold_singleton]
  refine congrArg (fun z => IntOp.andi z 1#1) (congrArg (val_main_call1_v11 (F := Ideal) x0) (funext fun a => Fin.ext ?_))
  match a with | ⟨0, _⟩ => rfl | ⟨1, _⟩ => rfl | ⟨2, _⟩ => rfl | ⟨3, _⟩ => rfl | ⟨4, _⟩ => rfl | ⟨5, _⟩ => rfl

/-- take_along_axis at a voxel whose label is 0 or 1: the log-softmax at the label's class. -/
theorem v6_up (x0 : (⟨S1x256x256x256, .i32⟩ : BufTy).Contents (Elt Ideal)) (x1 : (⟨S4096x2x16x16x16, .f32⟩ : BufTy).Contents (Elt Ideal))
    (i : S4096x16x16x16.Idx) (ht : val_main_v3 (F := Ideal) x0 i = 0#32 ∨ val_main_v3 (F := Ideal) x0 i = 1#32) :
    val_main_v6 (F := Ideal) x0 x1 (up i)
      = val_main_v4 (F := Ideal) x1 (idx_main_call0_v7 i (if val_main_v3 (F := Ideal) x0 i = 0#32 then 0 else 1)) := by
  have h12 : val_main_call1_v12 (F := Ideal) x0 (up i) = 1#1 := by
    rw [call1_v12_apply, val_main_call1_v11_apply, val_main_call1_v7_apply, val_main_call1_v10_apply, call1_v5_six, call1_v4_up x0 i ht,
      val_main_call1_v6_apply, val_main_call1_c_2_apply, val_main_call1_v9_apply, val_main_call1_v8_apply, val_main_call1_c_1_apply]
    exact inrange_label _ ht
  rw [val_main_v6_apply, h12]
  show val_main_call1_v13 (F := Ideal) x0 x1 (up i) = _
  unfold val_main_call1_v13 Host.gather
  rw [gather_idx, cls_up]
  refine congrArg (fun k => val_main_v4 (F := Ideal) x1 (idx_main_call0_v7 i k)) (Fin.ext ?_)
  show min (val_main_call1_v5 (F := Ideal) x0 (six (up i))).toInt.toNat 1 = _
  rw [call1_v5_six, call1_v4_up x0 i ht]
  rcases ht with h | h <;> rw [h] <;> decide

/-! ## The two factors at a voxel -/

/-- The negative log-likelihood of the label at a voxel with real logits and a label in `{0, 1}`. -/
theorem v8_apply (x0 : (⟨S1x256x256x256, .i32⟩ : BufTy).Contents (Elt Ideal)) (x1 : (⟨S4096x2x16x16x16, .f32⟩ : BufTy).Contents (Elt Ideal))
    (i : S4096x16x16x16.Idx) (ht : val_main_v3 (F := Ideal) x0 i = 0#32 ∨ val_main_v3 (F := Ideal) x0 i = 1#32)
    (hfin : ∀ k : Fin 2, ∃ r : ℝ, x1 (idx_main_call0_v7 i k) = (r : EReal)) :
    val_main_v8 (F := Ideal) x0 x1 i
      = nll (x1 (idx_main_call0_v7 i 0)) (x1 (idx_main_call0_v7 i 1)) (val_main_v3 (F := Ideal) x0 i) := by
  rw [val_main_v8_apply, val_main_v7_apply, idx_main_v7_eq, v6_up x0 x1 i ht, v4_apply]
  obtain ⟨a, ha⟩ := hfin 0
  obtain ⟨b, hb⟩ := hfin 1
  simp only [Ideal.hostNegf_def, Ideal.negf_def]
  unfold nll
  by_cases h0 : val_main_v3 (F := Ideal) x0 i = 0#32
  · rw [if_pos h0, if_pos h0, ha, hb]; exact nll_real a b a
  · rw [if_neg h0, if_neg h0, ha, hb]; exact nll_real a b b

/-- The class weight at a voxel: the select of `16` against `1` on `label = 0`. -/
theorem v11_apply (x0 : (⟨S1x256x256x256, .i32⟩ : BufTy).Contents (Elt Ideal)) (i : S4096x16x16x16.Idx) :
    val_main_v11 (F := Ideal) x0 i = wgt (val_main_v3 (F := Ideal) x0 i) := by
  rw [val_main_v11_apply, val_main_v10_apply, val_main_v9_apply, val_main_c_apply, val_main_call2_v0_apply, val_main_cst_apply,
    val_main_call2_v1_apply, val_main_cst_0_apply]
  simp only [Ideal.ofBits_def, ofBits_sixteen, ofBits_one]
  unfold wgt
  by_cases h0 : val_main_v3 (F := Ideal) x0 i = 0#32
  · rw [h0, if_pos rfl]; rfl
  · rw [if_neg h0]
    have hc : IntOp.cmpi .eq (val_main_v3 (F := Ideal) x0 i) 0#32 = 0#1 := by
      show BitVec.ofBool (val_main_v3 (F := Ideal) x0 i == 0#32) = 0#1
      rw [beq_eq_false_iff_ne.mpr h0]; rfl
    rw [hc]; rfl

/-! ## The sums over a block -/

/-- The host's sum over the three voxel axes at block `j`: the indices with leading coordinate `j` are exactly
    `tix j q`, `q = a · 256 + b · 16 + c` the row-major position of voxel `(a, b, c)` within the block. -/
theorem block_sum (f : S4096x16x16x16.Idx → EReal) (init : EReal) (j : Fin 4096) :
    Ideal.hostReduceAdd reducesTo_S4096x16x16x16_S4096_d1_2_3 f init (ix1 j) = init + ∑ q : Fin 4096, f (tix j q) := by
  unfold Ideal.hostReduceAdd
  refine congrArg (init + ·) ?_
  have hdrop : ∀ i : S4096x16x16x16.Idx, reducesTo_S4096x16x16x16_S4096_d1_2_3.drop i = ix1 j ↔ (i 0).val = j.val := by
    intro i
    constructor
    · intro h
      have := congrArg (fun z : S4096.Idx => (z 0).val) h
      simpa [reducesTo_S4096x16x16x16_S4096_d1_2_3.drop_apply_val_of_eq i 0 0] using this
    · intro h
      funext b
      match b with
      | ⟨0, _⟩ => exact Fin.ext ((reducesTo_S4096x16x16x16_S4096_d1_2_3.drop_apply_val_of_eq i 0 0).trans h)
  let pos : S4096x16x16x16.Idx → Fin 4096 := fun i => ⟨(i 1).val * 256 + (i 2).val * 16 + (i 3).val, by
      have h1 : (i 1).val < 16 := (i 1).isLt
      have h2 : (i 2).val < 16 := (i 2).isLt
      have h3 : (i 3).val < 16 := (i 3).isLt
      omega⟩
  have hleft : ∀ i : S4096x16x16x16.Idx, (i 0).val = j.val → tix j (pos i) = i := by
    intro i hj
    have h1 : (i 1).val < 16 := (i 1).isLt
    have h2 : (i 2).val < 16 := (i 2).isLt
    have h3 : (i 3).val < 16 := (i 3).isLt
    funext a; apply Fin.ext
    match a with
    | ⟨0, _⟩ => exact hj.symm
    | ⟨1, _⟩ => show ((i 1).val * 256 + (i 2).val * 16 + (i 3).val) / 256 = (i 1).val; omega
    | ⟨2, _⟩ => show ((i 1).val * 256 + (i 2).val * 16 + (i 3).val) / 16 % 16 = (i 2).val; omega
    | ⟨3, _⟩ => show ((i 1).val * 256 + (i 2).val * 16 + (i 3).val) % 16 = (i 3).val; omega
  refine Finset.sum_nbij' pos (fun q => tix j q) ?_ ?_ ?_ ?_ ?_
  · intro i _; exact Finset.mem_univ _
  · intro q _; exact Finset.mem_filter.2 ⟨Finset.mem_univ _, (hdrop _).2 rfl⟩
  · intro i hi; exact hleft i ((hdrop i).1 (Finset.mem_filter.1 hi).2)
  · intro q _
    apply Fin.ext
    show q.val / 256 * 256 + q.val / 16 % 16 * 16 + q.val % 16 = q.val
    have := q.isLt
    omega
  · intro i hi; rw [hleft i ((hdrop i).1 (Finset.mem_filter.1 hi).2)]

/-- The logits index of class `k` over entry `q` of block `j`. -/
theorem class_tix (j : Fin 4096) (k : Fin 2) (q : Fin 4096) : idx_main_call0_v7 (tix j q) k = xix j k q := by
  funext a; match a with | ⟨0, _⟩ => rfl | ⟨1, _⟩ => rfl | ⟨2, _⟩ => rfl | ⟨3, _⟩ => rfl | ⟨4, _⟩ => rfl

/-! ## The level-0 loss -/

theorem ref_loss0 (x0 : (⟨S1x256x256x256, .i32⟩ : BufTy).Contents (Elt Ideal)) (x1 : (⟨S4096x2x16x16x16, .f32⟩ : BufTy).Contents (Elt Ideal))
    (hok : Cert.Spec.Ok (val_main_v3 (F := Ideal) x0 : ST.Idx → BitVec 32) (x1 : SX.Idx → EReal)) (i : S_.Idx) :
    val_main_v18 (F := Ideal) x0 x1 i = Cert.Spec.loss0 (val_main_v3 (F := Ideal) x0 : ST.Idx → BitVec 32) (x1 : SX.Idx → EReal) := by
  have hnum : ∀ j : Fin 4096, val_main_v14 (F := Ideal) x0 x1 (ix1 j)
      = num (val_main_v3 (F := Ideal) x0 : ST.Idx → BitVec 32) (x1 : SX.Idx → EReal) j := by
    intro j
    unfold val_main_v14
    simp only [Host.reduceAdd, Ideal.hostReduceAdd_def]
    rw [block_sum, val_main_cst_1_apply]
    simp only [Ideal.ofBits_def, Ideal.ofBits_zero_f32, zero_add]
    unfold num
    refine Finset.sum_congr rfl fun q _ => ?_
    rw [val_main_v13_apply, val_main_v12_apply, v11_apply,
      v8_apply x0 x1 (tix j q) (hok.lab _) (fun k => hok.fin _), class_tix, class_tix]
    rfl
  have hden : ∀ j : Fin 4096, val_main_v16 (F := Ideal) x0 (ix1 j)
      = den (val_main_v3 (F := Ideal) x0 : ST.Idx → BitVec 32) j := by
    intro j
    unfold val_main_v16
    simp only [Host.reduceAdd, Ideal.hostReduceAdd_def]
    rw [block_sum, val_main_cst_2_apply]
    simp only [Ideal.ofBits_def, Ideal.ofBits_zero_f32, zero_add]
    unfold den
    refine Finset.sum_congr rfl fun q _ => ?_
    rw [val_main_v15_apply, v11_apply]
  rw [val_main_v18_apply, val_main_cst_3_apply]
  simp only [Ideal.ofBits_def, Ideal.ofBits_zero_f32, zero_add]
  unfold loss0
  rw [← Equiv.sum_comp (idxEquiv1 (n := 4096)).symm]
  refine Finset.sum_congr rfl fun j _ => ?_
  show val_main_v17 (F := Ideal) x0 x1 (ix1 j) = _
  rw [val_main_v17_apply, hnum, hden]
  rfl

end Cert.Bridge.RefLoss

end
-- ==== Proof.Ref.Run.lean ====
/-
  The reference program's run, stated over its stage functions.

  The program is a straight line of 225 host operations. Each operation writes one buffer, and `ReadP.val_<buffer>` is the
  value it writes as a function of the program's three arguments (the label volume, the level-0 logits, the table read by
  the four coarser levels), each stage over the earlier ones. Here the line is cut into 28 stretches of at most ten
  operations, with a cut after the label blocks, after level 0 and after each coarser level. At a cut, the LIVE buffers are
  those written before it (or arguments) and read after it: at most seven.

  `from<k>` says: if on entry to stretch `k` every live buffer holds its stage function's value, then after the remaining
  stretches the result buffer holds the last stage function's value. It is proved from the last stretch backwards. The
  stretch's operations are evaluated at each buffer live at its end: a buffer the stretch writes holds its operation's
  function of buffers that hold stage values, which is that stage function's own definition; a buffer it does not write
  keeps its contents. The lemma of the next stretch then takes over from the contents the stretch leaves.

  `value` reads the whole line's result off `from0`, and `run` is the execution statement: termination, the result buffer
  at the last stage function of the arguments' launch contents, the arguments unchanged (no operation writes them).
-/
import proofs.«423392_j65163243815393_1_alg».proof.Proof.RefRunP
import proofs.«423392_j65163243815393_1_alg».proof.Proof.RefReadP
import Idealize.ShloMosaic.Lib.StableHlo.Run

noncomputable section

namespace Cert.ReferenceIdeal.Hand

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The contents after two stretches run in turn are the second's, from the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Operations 1 to 4 of the reference program. -/
abbrev seg0 : List (HloOp τ sig (Elt F)) :=
  [ reshape main_arg0 main_v0 rfl shapeCasts_S1x256x256x256_S256x256x256,
    reshape main_v0 main_v1 rfl shapeCasts_S256x256x256_S16x16x16x16x16x16,
    unary main_v1 main_v2 ((transpose S16x16x16x16x16x16 [0, 2, 4, 1, 3, 5] · transposes_S16x16x16x16x16x16_S16x16x16x16x16x16_0_2_4_1_3_5) : (⟨S16x16x16x16x16x16, .i32⟩ : BufTy).Contents (Elt F) → (⟨S16x16x16x16x16x16, .i32⟩ : BufTy).Contents (Elt F)),
    reshape main_v2 main_v3 rfl shapeCasts_S16x16x16x16x16x16_S4096x16x16x16 ]

/-- Operations 5 to 12 of the reference program. -/
abbrev seg1 : List (HloOp τ sig (Elt F)) :=
  [ TRef.nullary (TRef.of (T := ⟨S_, .f32⟩) main_call0_cst) (constant S_ .f32 0xFF800000#32),
    TRef.binary (TRef.of (T := ⟨S4096x2x16x16x16, .f32⟩) main_arg1) (TRef.of (T := ⟨S_, .f32⟩) main_call0_cst) (TRef.of (T := ⟨S4096x16x16x16, .f32⟩) main_call0_v0) (fun x v => Host.reduce FloatOps.maximumf x v reducesTo_S4096x2x16x16x16_S4096x16x16x16_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096x16x16x16, .f32⟩) main_call0_v1) (broadcastInDim S4096x16x16x16 ![] bcast_S_S4096x16x16x16),
    TRef.binary (TRef.of (T := ⟨S4096x16x16x16, .f32⟩) main_call0_v1) (TRef.of (T := ⟨S4096x16x16x16, .f32⟩) main_call0_v0) (TRef.of (T := ⟨S4096x16x16x16, .f32⟩) main_call0_v2) maximumf,
    TRef.unary (TRef.of (T := ⟨S4096x16x16x16, .f32⟩) main_call0_v2) (TRef.of (T := ⟨S4096x1x16x16x16, .f32⟩) main_call0_v3) (broadcastInDim S4096x1x16x16x16 ![0, 2, 3, 4] bcast_S4096x16x16x16_S4096x1x16x16x16_0_2_3_4),
    TRef.unary (TRef.of (T := ⟨S4096x1x16x16x16, .f32⟩) main_call0_v3) (TRef.of (T := ⟨S4096x2x16x16x16, .f32⟩) main_call0_v4) (broadcastInDim S4096x2x16x16x16 ![0, 1, 2, 3, 4] bcast_S4096x1x16x16x16_S4096x2x16x16x16_0_1_2_3_4),
    TRef.binary (TRef.of (T := ⟨S4096x2x16x16x16, .f32⟩) main_arg1) (TRef.of (T := ⟨S4096x2x16x16x16, .f32⟩) main_call0_v4) (TRef.of (T := ⟨S4096x2x16x16x16, .f32⟩) main_call0_v5) subf ]

/-- Operations 13 to 20 of the reference program. -/
abbrev seg2 : List (HloOp τ sig (Elt F)) :=
  [ TRef.unary (TRef.of (T := ⟨S4096x2x16x16x16, .f32⟩) main_call0_v5) (TRef.of (T := ⟨S4096x2x16x16x16, .f32⟩) main_call0_v6) Host.exp,
    TRef.nullary (TRef.of (T := ⟨S_, .f32⟩) main_call0_cst_1) (constant S_ .f32 0x00000000#32),
    TRef.binary (TRef.of (T := ⟨S4096x2x16x16x16, .f32⟩) main_call0_v6) (TRef.of (T := ⟨S_, .f32⟩) main_call0_cst_1) (TRef.of (T := ⟨S4096x16x16x16, .f32⟩) main_call0_v7) (fun x v => Host.reduceAdd x v reducesTo_S4096x2x16x16x16_S4096x16x16x16_d1 h_S_),
    TRef.unary (TRef.of (T := ⟨S4096x16x16x16, .f32⟩) main_call0_v7) (TRef.of (T := ⟨S4096x1x16x16x16, .f32⟩) main_call0_v8) (broadcastInDim S4096x1x16x16x16 ![0, 2, 3, 4] bcast_S4096x16x16x16_S4096x1x16x16x16_0_2_3_4),
    TRef.unary (TRef.of (T := ⟨S4096x1x16x16x16, .f32⟩) main_call0_v8) (TRef.of (T := ⟨S4096x1x16x16x16, .f32⟩) main_call0_v9) Host.log,
    TRef.unary (TRef.of (T := ⟨S4096x1x16x16x16, .f32⟩) main_call0_v9) (TRef.of (T := ⟨S4096x2x16x16x16, .f32⟩) main_call0_v10) (broadcastInDim S4096x2x16x16x16 ![0, 1, 2, 3, 4] bcast_S4096x1x16x16x16_S4096x2x16x16x16_0_1_2_3_4),
    TRef.binary (TRef.of (T := ⟨S4096x2x16x16x16, .f32⟩) main_call0_v5) (TRef.of (T := ⟨S4096x2x16x16x16, .f32⟩) main_call0_v10) (TRef.of (T := ⟨S4096x2x16x16x16, .f32⟩) main_v4) subf,
    unary main_v3 main_v5 (broadcastInDim S4096x1x16x16x16 ![0, 2, 3, 4] bcast_S4096x16x16x16_S4096x1x16x16x16_0_2_3_4 : (⟨S4096x16x16x16, .i32⟩ : BufTy).Contents (Elt F) → (⟨S4096x1x16x16x16, .i32⟩ : BufTy).Contents (Elt F)) ]

/-- Operations 21 to 28 of the reference program. -/
abbrev seg3 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S4096x1x16x16x16, .i32⟩) main_call1_v0) (broadcastInDim S4096x1x16x16x16 ![] bcast_S_S4096x1x16x16x16),
    TRef.binary (TRef.of (T := ⟨S4096x1x16x16x16, .i32⟩) main_v5) (TRef.of (T := ⟨S4096x1x16x16x16, .i32⟩) main_call1_v0) (TRef.of (T := ⟨S4096x1x16x16x16, .i1⟩) main_call1_v1) (cmpi .slt),
    TRef.nullary (TRef.of (T := ⟨S_, .i32⟩) main_call1_c_0) (constantI S_ 32 2#32),
    TRef.unary (TRef.of (T := ⟨S_, .i32⟩) main_call1_c_0) (TRef.of (T := ⟨S4096x1x16x16x16, .i32⟩) main_call1_v2) (broadcastInDim S4096x1x16x16x16 ![] bcast_S_S4096x1x16x16x16),
    TRef.binary (TRef.of (T := ⟨S4096x1x16x16x16, .i32⟩) main_v5) (TRef.of (T := ⟨S4096x1x16x16x16, .i32⟩) main_call1_v2) (TRef.of (T := ⟨S4096x1x16x16x16, .i32⟩) main_call1_v3) addi,
    TRef.ternary (TRef.of (T := ⟨S4096x1x16x16x16, .i1⟩) main_call1_v1) (TRef.of (T := ⟨S4096x1x16x16x16, .i32⟩) main_call1_v3) (TRef.of (T := ⟨S4096x1x16x16x16, .i32⟩) main_v5) (TRef.of (T := ⟨S4096x1x16x16x16, .i32⟩) main_call1_v4) select,
    TRef.reshape (TRef.of (T := ⟨S4096x1x16x16x16, .i32⟩) main_call1_v4) (TRef.of (T := ⟨S4096x1x16x16x16x1, .i32⟩) main_call1_v5) rfl shapeCasts_S4096x1x16x16x16_S4096x1x16x16x16x1 ]

/-- Operations 29 to 36 of the reference program. -/
abbrev seg4 : List (HloOp τ sig (Elt F)) :=
  [ TRef.nullary (TRef.of (T := ⟨S1, .i32⟩) main_call1_c_1) (constantI S1 32 1#32),
    TRef.nullary (TRef.of (T := ⟨S_, .i32⟩) main_call1_c_2) (constantI S_ 32 0#32),
    TRef.unary (TRef.of (T := ⟨S_, .i32⟩) main_call1_c_2) (TRef.of (T := ⟨S4096x1x16x16x16x1, .i32⟩) main_call1_v6) (broadcastInDim S4096x1x16x16x16x1 ![] bcast_S_S4096x1x16x16x16x1),
    TRef.binary (TRef.of (T := ⟨S4096x1x16x16x16x1, .i32⟩) main_call1_v5) (TRef.of (T := ⟨S4096x1x16x16x16x1, .i32⟩) main_call1_v6) (TRef.of (T := ⟨S4096x1x16x16x16x1, .i1⟩) main_call1_v7) (cmpi .sge),
    TRef.unary (TRef.of (T := ⟨S1, .i32⟩) main_call1_c_1) (TRef.of (T := ⟨S1x1x1x1x1x1, .i32⟩) main_call1_v8) (broadcastInDim S1x1x1x1x1x1 ![5] bcast_S1_S1x1x1x1x1x1_5),
    TRef.unary (TRef.of (T := ⟨S1x1x1x1x1x1, .i32⟩) main_call1_v8) (TRef.of (T := ⟨S4096x1x16x16x16x1, .i32⟩) main_call1_v9) (broadcastInDim S4096x1x16x16x16x1 ![0, 1, 2, 3, 4, 5] bcast_S1x1x1x1x1x1_S4096x1x16x16x16x1_0_1_2_3_4_5),
    TRef.binary (TRef.of (T := ⟨S4096x1x16x16x16x1, .i32⟩) main_call1_v5) (TRef.of (T := ⟨S4096x1x16x16x16x1, .i32⟩) main_call1_v9) (TRef.of (T := ⟨S4096x1x16x16x16x1, .i1⟩) main_call1_v10) (cmpi .sle),
    TRef.binary (TRef.of (T := ⟨S4096x1x16x16x16x1, .i1⟩) main_call1_v7) (TRef.of (T := ⟨S4096x1x16x16x16x1, .i1⟩) main_call1_v10) (TRef.of (T := ⟨S4096x1x16x16x16x1, .i1⟩) main_call1_v11) andi ]

/-- Operations 37 to 44 of the reference program. -/
abbrev seg5 : List (HloOp τ sig (Elt F)) :=
  [ TRef.nullary (TRef.of (T := ⟨S_, .i1⟩) main_call1_c_3) (constantI S_ 1 1#1),
    TRef.binary (TRef.of (T := ⟨S4096x1x16x16x16x1, .i1⟩) main_call1_v11) (TRef.of (T := ⟨S_, .i1⟩) main_call1_c_3) (TRef.of (T := ⟨S4096x1x16x16x16, .i1⟩) main_call1_v12) (fun x v => Host.reduce IntOp.andi x v reducesTo_S4096x1x16x16x16x1_S4096x1x16x16x16_d5 h_S_),
    TRef.binary (TRef.of (T := ⟨S4096x2x16x16x16, .f32⟩) main_v4) (TRef.of (T := ⟨S4096x1x16x16x16x1, .i32⟩) main_call1_v5) (TRef.of (T := ⟨S4096x1x16x16x16, .f32⟩) main_call1_v13) (fun x i => Host.gather gather_S4096x2x16x16x16_S4096x1x16x16x16x1_S4096x1x16x16x16_n_1_0234_0234_1_5_11111 x i),
    TRef.nullary (TRef.of (T := ⟨S_, .f32⟩) main_call1_cst) (constant S_ .f32 0x7FC00000#32),
    TRef.unary (TRef.of (T := ⟨S_, .f32⟩) main_call1_cst) (TRef.of (T := ⟨S4096x1x16x16x16, .f32⟩) main_call1_v14) (broadcastInDim S4096x1x16x16x16 ![] bcast_S_S4096x1x16x16x16),
    TRef.ternary (TRef.of (T := ⟨S4096x1x16x16x16, .i1⟩) main_call1_v12) (TRef.of (T := ⟨S4096x1x16x16x16, .f32⟩) main_call1_v13) (TRef.of (T := ⟨S4096x1x16x16x16, .f32⟩) main_call1_v14) (TRef.of (T := ⟨S4096x1x16x16x16, .f32⟩) main_v6) select,
    reshape main_v6 main_v7 rfl shapeCasts_S4096x1x16x16x16_S4096x16x16x16,
    unary main_v7 main_v8 (Host.negf : (⟨S4096x16x16x16, .f32⟩ : BufTy).Contents (Elt F) → (⟨S4096x16x16x16, .f32⟩ : BufTy).Contents (Elt F)) ]

/-- Operations 45 to 52 of the reference program. -/
abbrev seg6 : List (HloOp τ sig (Elt F)) :=
  [ nullary main_c (constantI S_ 32 0#32),
    unary main_c main_v9 (broadcastInDim S4096x16x16x16 ![] bcast_S_S4096x16x16x16 : (⟨S_, .i32⟩ : BufTy).Contents (Elt F) → (⟨S4096x16x16x16, .i32⟩ : BufTy).Contents (Elt F)),
    binary main_v3 main_v9 main_v10 (cmpi .eq : (⟨S4096x16x16x16, .i32⟩ : BufTy).Contents (Elt F) → (⟨S4096x16x16x16, .i32⟩ : BufTy).Contents (Elt F) → (⟨S4096x16x16x16, .i1⟩ : BufTy).Contents (Elt F)),
    nullary main_cst (constant S_ .f32 0x41800000#32),
    nullary main_cst_0 (constant S_ .f32 0x3F800000#32),
    TRef.unary (TRef.of (T := ⟨S_, .f32⟩) main_cst) (TRef.of (T := ⟨S4096x16x16x16, .f32⟩) main_call2_v0) (broadcastInDim S4096x16x16x16 ![] bcast_S_S4096x16x16x16),
    TRef.unary (TRef.of (T := ⟨S_, .f32⟩) main_cst_0) (TRef.of (T := ⟨S4096x16x16x16, .f32⟩) main_call2_v1) (broadcastInDim S4096x16x16x16 ![] bcast_S_S4096x16x16x16),
    TRef.ternary (TRef.of (T := ⟨S4096x16x16x16, .i1⟩) main_v10) (TRef.of (T := ⟨S4096x16x16x16, .f32⟩) main_call2_v0) (TRef.of (T := ⟨S4096x16x16x16, .f32⟩) main_call2_v1) (TRef.of (T := ⟨S4096x16x16x16, .f32⟩) main_v11) select ]

/-- Operations 53 to 62 of the reference program. -/
abbrev seg7 : List (HloOp τ sig (Elt F)) :=
  [ unary main_v11 main_v12 (id : (⟨S4096x16x16x16, .f32⟩ : BufTy).Contents (Elt F) → (⟨S4096x16x16x16, .f32⟩ : BufTy).Contents (Elt F)),
    binary main_v12 main_v8 main_v13 (mulf : (⟨S4096x16x16x16, .f32⟩ : BufTy).Contents (Elt F) → (⟨S4096x16x16x16, .f32⟩ : BufTy).Contents (Elt F) → (⟨S4096x16x16x16, .f32⟩ : BufTy).Contents (Elt F)),
    nullary main_cst_1 (constant S_ .f32 0x00000000#32),
    binary main_v13 main_cst_1 main_v14 ((fun x v => Host.reduceAdd x v reducesTo_S4096x16x16x16_S4096_d1_2_3 h_S_) : (⟨S4096x16x16x16, .f32⟩ : BufTy).Contents (Elt F) → (⟨S_, .f32⟩ : BufTy).Contents (Elt F) → (⟨S4096, .f32⟩ : BufTy).Contents (Elt F)),
    unary main_v11 main_v15 (id : (⟨S4096x16x16x16, .f32⟩ : BufTy).Contents (Elt F) → (⟨S4096x16x16x16, .f32⟩ : BufTy).Contents (Elt F)),
    nullary main_cst_2 (constant S_ .f32 0x00000000#32),
    binary main_v15 main_cst_2 main_v16 ((fun x v => Host.reduceAdd x v reducesTo_S4096x16x16x16_S4096_d1_2_3 h_S_) : (⟨S4096x16x16x16, .f32⟩ : BufTy).Contents (Elt F) → (⟨S_, .f32⟩ : BufTy).Contents (Elt F) → (⟨S4096, .f32⟩ : BufTy).Contents (Elt F)),
    binary main_v14 main_v16 main_v17 (Host.divf : (⟨S4096, .f32⟩ : BufTy).Contents (Elt F) → (⟨S4096, .f32⟩ : BufTy).Contents (Elt F) → (⟨S4096, .f32⟩ : BufTy).Contents (Elt F)),
    nullary main_cst_3 (constant S_ .f32 0x00000000#32),
    binary main_v17 main_cst_3 main_v18 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) ]

/-- Operations 63 to 70 of the reference program. -/
abbrev seg8 : List (HloOp τ sig (Elt F)) :=
  [ reshape main_v0 main_v19 rfl shapeCasts_S256x256x256_S8x32x8x32x8x32,
    unary main_v19 main_v20 ((transpose S8x8x8x32x32x32 [0, 2, 4, 1, 3, 5] · transposes_S8x32x8x32x8x32_S8x8x8x32x32x32_0_2_4_1_3_5) : (⟨S8x32x8x32x8x32, .i32⟩ : BufTy).Contents (Elt F) → (⟨S8x8x8x32x32x32, .i32⟩ : BufTy).Contents (Elt F)),
    reshape main_v20 main_v21 rfl shapeCasts_S8x8x8x32x32x32_S512x32x32x32,
    reshape main_v21 main_v22 rfl shapeCasts_S512x32x32x32_S512x32768,
    nullary main_c_4 (constantI S_ 32 2147483648#32),
    binary main_v22 main_c_4 main_v23 ((fun x v => Host.reduce IntOp.maxsi x v reducesTo_S512x32768_S512_d1 h_S_) : (⟨S512x32768, .i32⟩ : BufTy).Contents (Elt F) → (⟨S_, .i32⟩ : BufTy).Contents (Elt F) → (⟨S512, .i32⟩ : BufTy).Contents (Elt F)),
    nullary main_c_5 (constantI S_ 32 2147483647#32),
    binary main_v22 main_c_5 main_v24 ((fun x v => Host.reduce IntOp.minsi x v reducesTo_S512x32768_S512_d1 h_S_) : (⟨S512x32768, .i32⟩ : BufTy).Contents (Elt F) → (⟨S_, .i32⟩ : BufTy).Contents (Elt F) → (⟨S512, .i32⟩ : BufTy).Contents (Elt F)) ]

/-- Operations 71 to 78 of the reference program. -/
abbrev seg9 : List (HloOp τ sig (Elt F)) :=
  [ binary main_v23 main_v24 main_v25 (cmpi .ne : (⟨S512, .i32⟩ : BufTy).Contents (Elt F) → (⟨S512, .i32⟩ : BufTy).Contents (Elt F) → (⟨S512, .i1⟩ : BufTy).Contents (Elt F)),
    nullary main_c_6 (constantI S_ 32 2#32),
    TRef.unary (TRef.of (T := ⟨S_, .i32⟩) main_c_6) (TRef.of (T := ⟨S_, .i32⟩) main_call3_v0) id,
    TRef.unary (TRef.of (T := ⟨S_, .i32⟩) main_call3_v0) (TRef.of (T := ⟨S512, .i32⟩) main_call3_v1) (broadcastInDim S512 ![] bcast_S_S512),
    TRef.ternary (TRef.of (T := ⟨S512, .i1⟩) main_v25) (TRef.of (T := ⟨S512, .i32⟩) main_call3_v1) (TRef.of (T := ⟨S512, .i32⟩) main_v23) (TRef.of (T := ⟨S512, .i32⟩) main_v26) select,
    unary main_arg2 main_v27 ((extractStridedSlice S512x3 ![0, 0] · slices_S585x3_S512x3_0_0) : (⟨S585x3, .f32⟩ : BufTy).Contents (Elt F) → (⟨S512x3, .f32⟩ : BufTy).Contents (Elt F)),
    unary main_v26 main_v28 (broadcastInDim S512x1 ![0] bcast_S512_S512x1_0 : (⟨S512, .i32⟩ : BufTy).Contents (Elt F) → (⟨S512x1, .i32⟩ : BufTy).Contents (Elt F)),
    TRef.nullary (TRef.of (T := ⟨S_, .i32⟩) main_call4_c) (constantI S_ 32 0#32) ]

/-- Operations 79 to 86 of the reference program. -/
abbrev seg10 : List (HloOp τ sig (Elt F)) :=
  [ TRef.unary (TRef.of (T := ⟨S_, .i32⟩) main_call4_c) (TRef.of (T := ⟨S512x1, .i32⟩) main_call4_v0) (broadcastInDim S512x1 ![] bcast_S_S512x1),
    TRef.binary (TRef.of (T := ⟨S512x1, .i32⟩) main_v28) (TRef.of (T := ⟨S512x1, .i32⟩) main_call4_v0) (TRef.of (T := ⟨S512x1, .i1⟩) main_call4_v1) (cmpi .slt),
    TRef.nullary (TRef.of (T := ⟨S_, .i32⟩) main_call4_c_0) (constantI S_ 32 3#32),
    TRef.unary (TRef.of (T := ⟨S_, .i32⟩) main_call4_c_0) (TRef.of (T := ⟨S512x1, .i32⟩) main_call4_v2) (broadcastInDim S512x1 ![] bcast_S_S512x1),
    TRef.binary (TRef.of (T := ⟨S512x1, .i32⟩) main_v28) (TRef.of (T := ⟨S512x1, .i32⟩) main_call4_v2) (TRef.of (T := ⟨S512x1, .i32⟩) main_call4_v3) addi,
    TRef.ternary (TRef.of (T := ⟨S512x1, .i1⟩) main_call4_v1) (TRef.of (T := ⟨S512x1, .i32⟩) main_call4_v3) (TRef.of (T := ⟨S512x1, .i32⟩) main_v28) (TRef.of (T := ⟨S512x1, .i32⟩) main_call4_v4) select,
    TRef.reshape (TRef.of (T := ⟨S512x1, .i32⟩) main_call4_v4) (TRef.of (T := ⟨S512x1x1, .i32⟩) main_call4_v5) rfl shapeCasts_S512x1_S512x1x1,
    TRef.nullary (TRef.of (T := ⟨S1, .i32⟩) main_call4_c_1) (constantI S1 32 2#32) ]

/-- Operations 87 to 94 of the reference program. -/
abbrev seg11 : List (HloOp τ sig (Elt F)) :=
  [ TRef.nullary (TRef.of (T := ⟨S_, .i32⟩) main_call4_c_2) (constantI S_ 32 0#32),
    TRef.unary (TRef.of (T := ⟨S_, .i32⟩) main_call4_c_2) (TRef.of (T := ⟨S512x1x1, .i32⟩) main_call4_v6) (broadcastInDim S512x1x1 ![] bcast_S_S512x1x1),
    TRef.binary (TRef.of (T := ⟨S512x1x1, .i32⟩) main_call4_v5) (TRef.of (T := ⟨S512x1x1, .i32⟩) main_call4_v6) (TRef.of (T := ⟨S512x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S512x1x1, .i32⟩) main_call4_v9) (broadcastInDim S512x1x1 ![0, 1, 2] bcast_S1x1x1_S512x1x1_0_1_2),
    TRef.binary (TRef.of (T := ⟨S512x1x1, .i32⟩) main_call4_v5) (TRef.of (T := ⟨S512x1x1, .i32⟩) main_call4_v9) (TRef.of (T := ⟨S512x1x1, .i1⟩) main_call4_v10) (cmpi .sle),
    TRef.binary (TRef.of (T := ⟨S512x1x1, .i1⟩) main_call4_v7) (TRef.of (T := ⟨S512x1x1, .i1⟩) main_call4_v10) (TRef.of (T := ⟨S512x1x1, .i1⟩) main_call4_v11) andi,
    TRef.nullary (TRef.of (T := ⟨S_, .i1⟩) main_call4_c_3) (constantI S_ 1 1#1) ]

/-- Operations 95 to 103 of the reference program. -/
abbrev seg12 : List (HloOp τ sig (Elt F)) :=
  [ TRef.binary (TRef.of (T := ⟨S512x1x1, .i1⟩) main_call4_v11) (TRef.of (T := ⟨S_, .i1⟩) main_call4_c_3) (TRef.of (T := ⟨S512x1, .i1⟩) main_call4_v12) (fun x v => Host.reduce IntOp.andi x v reducesTo_S512x1x1_S512x1_d2 h_S_),
    TRef.binary (TRef.of (T := ⟨S512x3, .f32⟩) main_v27) (TRef.of (T := ⟨S512x1x1, .i32⟩) main_call4_v5) (TRef.of (T := ⟨S512x1, .f32⟩) main_call4_v13) (fun x i => Host.gather gather_S512x3_S512x1x1_S512x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S512x1, .f32⟩) main_call4_v14) (broadcastInDim S512x1 ![] bcast_S_S512x1),
    TRef.ternary (TRef.of (T := ⟨S512x1, .i1⟩) main_call4_v12) (TRef.of (T := ⟨S512x1, .f32⟩) main_call4_v13) (TRef.of (T := ⟨S512x1, .f32⟩) main_call4_v14) (TRef.of (T := ⟨S512x1, .f32⟩) main_v29) select,
    unary main_v29 main_v30 (Host.log : (⟨S512x1, .f32⟩ : BufTy).Contents (Elt F) → (⟨S512x1, .f32⟩ : BufTy).Contents (Elt F)),
    nullary main_cst_7 (constant S_ .f32 0x00000000#32),
    binary main_v30 main_cst_7 main_v31 ((fun x v => Host.reduceAdd x v reducesTo_S512x1_S_d0_1 h_S_) : (⟨S512x1, .f32⟩ : BufTy).Contents (Elt F) → (⟨S_, .f32⟩ : BufTy).Contents (Elt F) → (⟨S_, .f32⟩ : BufTy).Contents (Elt F)),
    binary main_v18 main_v31 main_v32 (addf : (⟨S_, .f32⟩ : BufTy).Contents (Elt F) → (⟨S_, .f32⟩ : BufTy).Contents (Elt F) → (⟨S_, .f32⟩ : BufTy).Contents (Elt F)) ]

/-- Operations 104 to 111 of the reference program. -/
abbrev seg13 : List (HloOp τ sig (Elt F)) :=
  [ reshape main_v0 main_v33 rfl shapeCasts_S256x256x256_S4x64x4x64x4x64,
    unary main_v33 main_v34 ((transpose S4x4x4x64x64x64 [0, 2, 4, 1, 3, 5] · transposes_S4x64x4x64x4x64_S4x4x4x64x64x64_0_2_4_1_3_5) : (⟨S4x64x4x64x4x64, .i32⟩ : BufTy).Contents (Elt F) → (⟨S4x4x4x64x64x64, .i32⟩ : BufTy).Contents (Elt F)),
    reshape main_v34 main_v35 rfl shapeCasts_S4x4x4x64x64x64_S64x64x64x64,
    reshape main_v35 main_v36 rfl shapeCasts_S64x64x64x64_S64x262144,
    nullary main_c_8 (constantI S_ 32 2147483648#32),
    binary main_v36 main_c_8 main_v37 ((fun x v => Host.reduce IntOp.maxsi x v reducesTo_S64x262144_S64_d1 h_S_) : (⟨S64x262144, .i32⟩ : BufTy).Contents (Elt F) → (⟨S_, .i32⟩ : BufTy).Contents (Elt F) → (⟨S64, .i32⟩ : BufTy).Contents (Elt F)),
    nullary main_c_9 (constantI S_ 32 2147483647#32),
    binary main_v36 main_c_9 main_v38 ((fun x v => Host.reduce IntOp.minsi x v reducesTo_S64x262144_S64_d1 h_S_) : (⟨S64x262144, .i32⟩ : BufTy).Contents (Elt F) → (⟨S_, .i32⟩ : BufTy).Contents (Elt F) → (⟨S64, .i32⟩ : BufTy).Contents (Elt F)) ]

/-- Operations 112 to 119 of the reference program. -/
abbrev seg14 : List (HloOp τ sig (Elt F)) :=
  [ binary main_v37 main_v38 main_v39 (cmpi .ne : (⟨S64, .i32⟩ : BufTy).Contents (Elt F) → (⟨S64, .i32⟩ : BufTy).Contents (Elt F) → (⟨S64, .i1⟩ : BufTy).Contents (Elt F)),
    nullary main_c_10 (constantI S_ 32 2#32),
    TRef.unary (TRef.of (T := ⟨S_, .i32⟩) main_c_10) (TRef.of (T := ⟨S_, .i32⟩) main_call5_v0) id,
    TRef.unary (TRef.of (T := ⟨S_, .i32⟩) main_call5_v0) (TRef.of (T := ⟨S64, .i32⟩) main_call5_v1) (broadcastInDim S64 ![] bcast_S_S64),
    TRef.ternary (TRef.of (T := ⟨S64, .i1⟩) main_v39) (TRef.of (T := ⟨S64, .i32⟩) main_call5_v1) (TRef.of (T := ⟨S64, .i32⟩) main_v37) (TRef.of (T := ⟨S64, .i32⟩) main_v40) select,
    unary main_arg2 main_v41 ((extractStridedSlice S64x3 ![512, 0] · slices_S585x3_S64x3_512_0) : (⟨S585x3, .f32⟩ : BufTy).Contents (Elt F) → (⟨S64x3, .f32⟩ : BufTy).Contents (Elt F)),
    unary main_v40 main_v42 (broadcastInDim S64x1 ![0] bcast_S64_S64x1_0 : (⟨S64, .i32⟩ : BufTy).Contents (Elt F) → (⟨S64x1, .i32⟩ : BufTy).Contents (Elt F)),
    TRef.nullary (TRef.of (T := ⟨S_, .i32⟩) main_call6_c) (constantI S_ 32 0#32) ]

/-- Operations 120 to 127 of the reference program. -/
abbrev seg15 : List (HloOp τ sig (Elt F)) :=
  [ TRef.unary (TRef.of (T := ⟨S_, .i32⟩) main_call6_c) (TRef.of (T := ⟨S64x1, .i32⟩) main_call6_v0) (broadcastInDim S64x1 ![] bcast_S_S64x1),
    TRef.binary (TRef.of (T := ⟨S64x1, .i32⟩) main_v42) (TRef.of (T := ⟨S64x1, .i32⟩) main_call6_v0) (TRef.of (T := ⟨S64x1, .i1⟩) main_call6_v1) (cmpi .slt),
    TRef.nullary (TRef.of (T := ⟨S_, .i32⟩) main_call6_c_0) (constantI S_ 32 3#32),
    TRef.unary (TRef.of (T := ⟨S_, .i32⟩) main_call6_c_0) (TRef.of (T := ⟨S64x1, .i32⟩) main_call6_v2) (broadcastInDim S64x1 ![] bcast_S_S64x1),
    TRef.binary (TRef.of (T := ⟨S64x1, .i32⟩) main_v42) (TRef.of (T := ⟨S64x1, .i32⟩) main_call6_v2) (TRef.of (T := ⟨S64x1, .i32⟩) main_call6_v3) addi,
    TRef.ternary (TRef.of (T := ⟨S64x1, .i1⟩) main_call6_v1) (TRef.of (T := ⟨S64x1, .i32⟩) main_call6_v3) (TRef.of (T := ⟨S64x1, .i32⟩) main_v42) (TRef.of (T := ⟨S64x1, .i32⟩) main_call6_v4) select,
    TRef.reshape (TRef.of (T := ⟨S64x1, .i32⟩) main_call6_v4) (TRef.of (T := ⟨S64x1x1, .i32⟩) main_call6_v5) rfl shapeCasts_S64x1_S64x1x1,
    TRef.nullary (TRef.of (T := ⟨S1, .i32⟩) main_call6_c_1) (constantI S1 32 2#32) ]

/-- Operations 128 to 135 of the reference program. -/
abbrev seg16 : List (HloOp τ sig (Elt F)) :=
  [ TRef.nullary (TRef.of (T := ⟨S_, .i32⟩) main_call6_c_2) (constantI S_ 32 0#32),
    TRef.unary (TRef.of (T := ⟨S_, .i32⟩) main_call6_c_2) (TRef.of (T := ⟨S64x1x1, .i32⟩) main_call6_v6) (broadcastInDim S64x1x1 ![] bcast_S_S64x1x1),
    TRef.binary (TRef.of (T := ⟨S64x1x1, .i32⟩) main_call6_v5) (TRef.of (T := ⟨S64x1x1, .i32⟩) main_call6_v6) (TRef.of (T := ⟨S64x1x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S64x1x1, .i32⟩) main_call6_v9) (broadcastInDim S64x1x1 ![0, 1, 2] bcast_S1x1x1_S64x1x1_0_1_2),
    TRef.binary (TRef.of (T := ⟨S64x1x1, .i32⟩) main_call6_v5) (TRef.of (T := ⟨S64x1x1, .i32⟩) main_call6_v9) (TRef.of (T := ⟨S64x1x1, .i1⟩) main_call6_v10) (cmpi .sle),
    TRef.binary (TRef.of (T := ⟨S64x1x1, .i1⟩) main_call6_v7) (TRef.of (T := ⟨S64x1x1, .i1⟩) main_call6_v10) (TRef.of (T := ⟨S64x1x1, .i1⟩) main_call6_v11) andi,
    TRef.nullary (TRef.of (T := ⟨S_, .i1⟩) main_call6_c_3) (constantI S_ 1 1#1) ]

/-- Operations 136 to 144 of the reference program. -/
abbrev seg17 : List (HloOp τ sig (Elt F)) :=
  [ TRef.binary (TRef.of (T := ⟨S64x1x1, .i1⟩) main_call6_v11) (TRef.of (T := ⟨S_, .i1⟩) main_call6_c_3) (TRef.of (T := ⟨S64x1, .i1⟩) main_call6_v12) (fun x v => Host.reduce IntOp.andi x v reducesTo_S64x1x1_S64x1_d2 h_S_),
    TRef.binary (TRef.of (T := ⟨S64x3, .f32⟩) main_v41) (TRef.of (T := ⟨S64x1x1, .i32⟩) main_call6_v5) (TRef.of (T := ⟨S64x1, .f32⟩) main_call6_v13) (fun x i => Host.gather gather_S64x3_S64x1x1_S64x1_n_1_0_0_1_2_11 x i),
    TRef.nullary (TRef.of (T := ⟨S_, .f32⟩) main_call6_cst) (constant S_ .f32 0x7FC00000#32),
    TRef.unary (TRef.of (T := ⟨S_, .f32⟩) main_call6_cst) (TRef.of (T := ⟨S64x1, .f32⟩) main_call6_v14) (broadcastInDim S64x1 ![] bcast_S_S64x1),
    TRef.ternary (TRef.of (T := ⟨S64x1, .i1⟩) main_call6_v12) (TRef.of (T := ⟨S64x1, .f32⟩) main_call6_v13) (TRef.of (T := ⟨S64x1, .f32⟩) main_call6_v14) (TRef.of (T := ⟨S64x1, .f32⟩) main_v43) select,
    unary main_v43 main_v44 (Host.log : (⟨S64x1, .f32⟩ : BufTy).Contents (Elt F) → (⟨S64x1, .f32⟩ : BufTy).Contents (Elt F)),
    nullary main_cst_11 (constant S_ .f32 0x00000000#32),
    binary main_v44 main_cst_11 main_v45 ((fun x v => Host.reduceAdd x v reducesTo_S64x1_S_d0_1 h_S_) : (⟨S64x1, .f32⟩ : BufTy).Contents (Elt F) → (⟨S_, .f32⟩ : BufTy).Contents (Elt F) → (⟨S_, .f32⟩ : BufTy).Contents (Elt F)),
    binary main_v32 main_v45 main_v46 (addf : (⟨S_, .f32⟩ : BufTy).Contents (Elt F) → (⟨S_, .f32⟩ : BufTy).Contents (Elt F) → (⟨S_, .f32⟩ : BufTy).Contents (Elt F)) ]

/-- Operations 145 to 152 of the reference program. -/
abbrev seg18 : List (HloOp τ sig (Elt F)) :=
  [ reshape main_v0 main_v47 rfl shapeCasts_S256x256x256_S2x128x2x128x2x128,
    unary main_v47 main_v48 ((transpose S2x2x2x128x128x128 [0, 2, 4, 1, 3, 5] · transposes_S2x128x2x128x2x128_S2x2x2x128x128x128_0_2_4_1_3_5) : (⟨S2x128x2x128x2x128, .i32⟩ : BufTy).Contents (Elt F) → (⟨S2x2x2x128x128x128, .i32⟩ : BufTy).Contents (Elt F)),
    reshape main_v48 main_v49 rfl shapeCasts_S2x2x2x128x128x128_S8x128x128x128,
    reshape main_v49 main_v50 rfl shapeCasts_S8x128x128x128_S8x2097152,
    nullary main_c_12 (constantI S_ 32 2147483648#32),
    binary main_v50 main_c_12 main_v51 ((fun x v => Host.reduce IntOp.maxsi x v reducesTo_S8x2097152_S8_d1 h_S_) : (⟨S8x2097152, .i32⟩ : BufTy).Contents (Elt F) → (⟨S_, .i32⟩ : BufTy).Contents (Elt F) → (⟨S8, .i32⟩ : BufTy).Contents (Elt F)),
    nullary main_c_13 (constantI S_ 32 2147483647#32),
    binary main_v50 main_c_13 main_v52 ((fun x v => Host.reduce IntOp.minsi x v reducesTo_S8x2097152_S8_d1 h_S_) : (⟨S8x2097152, .i32⟩ : BufTy).Contents (Elt F) → (⟨S_, .i32⟩ : BufTy).Contents (Elt F) → (⟨S8, .i32⟩ : BufTy).Contents (Elt F)) ]

/-- Operations 153 to 160 of the reference program. -/
abbrev seg19 : List (HloOp τ sig (Elt F)) :=
  [ binary main_v51 main_v52 main_v53 (cmpi .ne : (⟨S8, .i32⟩ : BufTy).Contents (Elt F) → (⟨S8, .i32⟩ : BufTy).Contents (Elt F) → (⟨S8, .i1⟩ : BufTy).Contents (Elt F)),
    nullary main_c_14 (constantI S_ 32 2#32),
    TRef.unary (TRef.of (T := ⟨S_, .i32⟩) main_c_14) (TRef.of (T := ⟨S_, .i32⟩) main_call7_v0) id,
    TRef.unary (TRef.of (T := ⟨S_, .i32⟩) main_call7_v0) (TRef.of (T := ⟨S8, .i32⟩) main_call7_v1) (broadcastInDim S8 ![] bcast_S_S8),
    TRef.ternary (TRef.of (T := ⟨S8, .i1⟩) main_v53) (TRef.of (T := ⟨S8, .i32⟩) main_call7_v1) (TRef.of (T := ⟨S8, .i32⟩) main_v51) (TRef.of (T := ⟨S8, .i32⟩) main_v54) select,
    unary main_arg2 main_v55 ((extractStridedSlice S8x3 ![576, 0] · slices_S585x3_S8x3_576_0) : (⟨S585x3, .f32⟩ : BufTy).Contents (Elt F) → (⟨S8x3, .f32⟩ : BufTy).Contents (Elt F)),
    unary main_v54 main_v56 (broadcastInDim S8x1 ![0] bcast_S8_S8x1_0 : (⟨S8, .i32⟩ : BufTy).Contents (Elt F) → (⟨S8x1, .i32⟩ : BufTy).Contents (Elt F)),
    TRef.nullary (TRef.of (T := ⟨S_, .i32⟩) main_call8_c) (constantI S_ 32 0#32) ]

/-- Operations 161 to 168 of the reference program. -/
abbrev seg20 : List (HloOp τ sig (Elt F)) :=
  [ TRef.unary (TRef.of (T := ⟨S_, .i32⟩) main_call8_c) (TRef.of (T := ⟨S8x1, .i32⟩) main_call8_v0) (broadcastInDim S8x1 ![] bcast_S_S8x1),
    TRef.binary (TRef.of (T := ⟨S8x1, .i32⟩) main_v56) (TRef.of (T := ⟨S8x1, .i32⟩) main_call8_v0) (TRef.of (T := ⟨S8x1, .i1⟩) main_call8_v1) (cmpi .slt),
    TRef.nullary (TRef.of (T := ⟨S_, .i32⟩) main_call8_c_0) (constantI S_ 32 3#32),
    TRef.unary (TRef.of (T := ⟨S_, .i32⟩) main_call8_c_0) (TRef.of (T := ⟨S8x1, .i32⟩) main_call8_v2) (broadcastInDim S8x1 ![] bcast_S_S8x1),
    TRef.binary (TRef.of (T := ⟨S8x1, .i32⟩) main_v56) (TRef.of (T := ⟨S8x1, .i32⟩) main_call8_v2) (TRef.of (T := ⟨S8x1, .i32⟩) main_call8_v3) addi,
    TRef.ternary (TRef.of (T := ⟨S8x1, .i1⟩) main_call8_v1) (TRef.of (T := ⟨S8x1, .i32⟩) main_call8_v3) (TRef.of (T := ⟨S8x1, .i32⟩) main_v56) (TRef.of (T := ⟨S8x1, .i32⟩) main_call8_v4) select,
    TRef.reshape (TRef.of (T := ⟨S8x1, .i32⟩) main_call8_v4) (TRef.of (T := ⟨S8x1x1, .i32⟩) main_call8_v5) rfl shapeCasts_S8x1_S8x1x1,
    TRef.nullary (TRef.of (T := ⟨S1, .i32⟩) main_call8_c_1) (constantI S1 32 2#32) ]

/-- Operations 169 to 176 of the reference program. -/
abbrev seg21 : List (HloOp τ sig (Elt F)) :=
  [ TRef.nullary (TRef.of (T := ⟨S_, .i32⟩) main_call8_c_2) (constantI S_ 32 0#32),
    TRef.unary (TRef.of (T := ⟨S_, .i32⟩) main_call8_c_2) (TRef.of (T := ⟨S8x1x1, .i32⟩) main_call8_v6) (broadcastInDim S8x1x1 ![] bcast_S_S8x1x1),
    TRef.binary (TRef.of (T := ⟨S8x1x1, .i32⟩) main_call8_v5) (TRef.of (T := ⟨S8x1x1, .i32⟩) main_call8_v6) (TRef.of (T := ⟨S8x1x1, .i1⟩) main_call8_v7) (cmpi .sge),
    TRef.unary (TRef.of (T := ⟨S1, .i32⟩) main_call8_c_1) (TRef.of (T := ⟨S1x1x1, .i32⟩) main_call8_v8) (broadcastInDim S1x1x1 ![2] bcast_S1_S1x1x1_2),
    TRef.unary (TRef.of (T := ⟨S1x1x1, .i32⟩) main_call8_v8) (TRef.of (T := ⟨S8x1x1, .i32⟩) main_call8_v9) (broadcastInDim S8x1x1 ![0, 1, 2] bcast_S1x1x1_S8x1x1_0_1_2),
    TRef.binary (TRef.of (T := ⟨S8x1x1, .i32⟩) main_call8_v5) (TRef.of (T := ⟨S8x1x1, .i32⟩) main_call8_v9) (TRef.of (T := ⟨S8x1x1, .i1⟩) main_call8_v10) (cmpi .sle),
    TRef.binary (TRef.of (T := ⟨S8x1x1, .i1⟩) main_call8_v7) (TRef.of (T := ⟨S8x1x1, .i1⟩) main_call8_v10) (TRef.of (T := ⟨S8x1x1, .i1⟩) main_call8_v11) andi,
    TRef.nullary (TRef.of (T := ⟨S_, .i1⟩) main_call8_c_3) (constantI S_ 1 1#1) ]

/-- Operations 177 to 185 of the reference program. -/
abbrev seg22 : List (HloOp τ sig (Elt F)) :=
  [ TRef.binary (TRef.of (T := ⟨S8x1x1, .i1⟩) main_call8_v11) (TRef.of (T := ⟨S_, .i1⟩) main_call8_c_3) (TRef.of (T := ⟨S8x1, .i1⟩) main_call8_v12) (fun x v => Host.reduce IntOp.andi x v reducesTo_S8x1x1_S8x1_d2 h_S_),
    TRef.binary (TRef.of (T := ⟨S8x3, .f32⟩) main_v55) (TRef.of (T := ⟨S8x1x1, .i32⟩) main_call8_v5) (TRef.of (T := ⟨S8x1, .f32⟩) main_call8_v13) (fun x i => Host.gather gather_S8x3_S8x1x1_S8x1_n_1_0_0_1_2_11 x i),
    TRef.nullary (TRef.of (T := ⟨S_, .f32⟩) main_call8_cst) (constant S_ .f32 0x7FC00000#32),
    TRef.unary (TRef.of (T := ⟨S_, .f32⟩) main_call8_cst) (TRef.of (T := ⟨S8x1, .f32⟩) main_call8_v14) (broadcastInDim S8x1 ![] bcast_S_S8x1),
    TRef.ternary (TRef.of (T := ⟨S8x1, .i1⟩) main_call8_v12) (TRef.of (T := ⟨S8x1, .f32⟩) main_call8_v13) (TRef.of (T := ⟨S8x1, .f32⟩) main_call8_v14) (TRef.of (T := ⟨S8x1, .f32⟩) main_v57) select,
    unary main_v57 main_v58 (Host.log : (⟨S8x1, .f32⟩ : BufTy).Contents (Elt F) → (⟨S8x1, .f32⟩ : BufTy).Contents (Elt F)),
    nullary main_cst_15 (constant S_ .f32 0x00000000#32),
    binary main_v58 main_cst_15 main_v59 ((fun x v => Host.reduceAdd x v reducesTo_S8x1_S_d0_1 h_S_) : (⟨S8x1, .f32⟩ : BufTy).Contents (Elt F) → (⟨S_, .f32⟩ : BufTy).Contents (Elt F) → (⟨S_, .f32⟩ : BufTy).Contents (Elt F)),
    binary main_v46 main_v59 main_v60 (addf : (⟨S_, .f32⟩ : BufTy).Contents (Elt F) → (⟨S_, .f32⟩ : BufTy).Contents (Elt F) → (⟨S_, .f32⟩ : BufTy).Contents (Elt F)) ]

/-- Operations 186 to 193 of the reference program. -/
abbrev seg23 : List (HloOp τ sig (Elt F)) :=
  [ reshape main_v0 main_v61 rfl shapeCasts_S256x256x256_S1x256x1x256x1x256,
    unary main_v61 main_v62 ((transpose S1x1x1x256x256x256 [0, 2, 4, 1, 3, 5] · transposes_S1x256x1x256x1x256_S1x1x1x256x256x256_0_2_4_1_3_5) : (⟨S1x256x1x256x1x256, .i32⟩ : BufTy).Contents (Elt F) → (⟨S1x1x1x256x256x256, .i32⟩ : BufTy).Contents (Elt F)),
    reshape main_v62 main_v63 rfl shapeCasts_S1x1x1x256x256x256_S1x256x256x256,
    reshape main_v63 main_v64 rfl shapeCasts_S1x256x256x256_S1x16777216,
    nullary main_c_16 (constantI S_ 32 2147483648#32),
    binary main_v64 main_c_16 main_v65 ((fun x v => Host.reduce IntOp.maxsi x v reducesTo_S1x16777216_S1_d1 h_S_) : (⟨S1x16777216, .i32⟩ : BufTy).Contents (Elt F) → (⟨S_, .i32⟩ : BufTy).Contents (Elt F) → (⟨S1, .i32⟩ : BufTy).Contents (Elt F)),
    nullary main_c_17 (constantI S_ 32 2147483647#32),
    binary main_v64 main_c_17 main_v66 ((fun x v => Host.reduce IntOp.minsi x v reducesTo_S1x16777216_S1_d1 h_S_) : (⟨S1x16777216, .i32⟩ : BufTy).Contents (Elt F) → (⟨S_, .i32⟩ : BufTy).Contents (Elt F) → (⟨S1, .i32⟩ : BufTy).Contents (Elt F)) ]

/-- Operations 194 to 201 of the reference program. -/
abbrev seg24 : List (HloOp τ sig (Elt F)) :=
  [ binary main_v65 main_v66 main_v67 (cmpi .ne : (⟨S1, .i32⟩ : BufTy).Contents (Elt F) → (⟨S1, .i32⟩ : BufTy).Contents (Elt F) → (⟨S1, .i1⟩ : BufTy).Contents (Elt F)),
    nullary main_c_18 (constantI S_ 32 2#32),
    TRef.unary (TRef.of (T := ⟨S_, .i32⟩) main_c_18) (TRef.of (T := ⟨S_, .i32⟩) main_call9_v0) id,
    TRef.unary (TRef.of (T := ⟨S_, .i32⟩) main_call9_v0) (TRef.of (T := ⟨S1, .i32⟩) main_call9_v1) (broadcastInDim S1 ![] bcast_S_S1),
    TRef.ternary (TRef.of (T := ⟨S1, .i1⟩) main_v67) (TRef.of (T := ⟨S1, .i32⟩) main_call9_v1) (TRef.of (T := ⟨S1, .i32⟩) main_v65) (TRef.of (T := ⟨S1, .i32⟩) main_v68) select,
    unary main_arg2 main_v69 ((extractStridedSlice S1x3 ![584, 0] · slices_S585x3_S1x3_584_0) : (⟨S585x3, .f32⟩ : BufTy).Contents (Elt F) → (⟨S1x3, .f32⟩ : BufTy).Contents (Elt F)),
    unary main_v68 main_v70 (broadcastInDim S1x1 ![0] bcast_S1_S1x1_0 : (⟨S1, .i32⟩ : BufTy).Contents (Elt F) → (⟨S1x1, .i32⟩ : BufTy).Contents (Elt F)),
    TRef.nullary (TRef.of (T := ⟨S_, .i32⟩) main_call10_c) (constantI S_ 32 0#32) ]

/-- Operations 202 to 209 of the reference program. -/
abbrev seg25 : List (HloOp τ sig (Elt F)) :=
  [ TRef.unary (TRef.of (T := ⟨S_, .i32⟩) main_call10_c) (TRef.of (T := ⟨S1x1, .i32⟩) main_call10_v0) (broadcastInDim S1x1 ![] bcast_S_S1x1),
    TRef.binary (TRef.of (T := ⟨S1x1, .i32⟩) main_v70) (TRef.of (T := ⟨S1x1, .i32⟩) main_call10_v0) (TRef.of (T := ⟨S1x1, .i1⟩) main_call10_v1) (cmpi .slt),
    TRef.nullary (TRef.of (T := ⟨S_, .i32⟩) main_call10_c_0) (constantI S_ 32 3#32),
    TRef.unary (TRef.of (T := ⟨S_, .i32⟩) main_call10_c_0) (TRef.of (T := ⟨S1x1, .i32⟩) main_call10_v2) (broadcastInDim S1x1 ![] bcast_S_S1x1),
    TRef.binary (TRef.of (T := ⟨S1x1, .i32⟩) main_v70) (TRef.of (T := ⟨S1x1, .i32⟩) main_call10_v2) (TRef.of (T := ⟨S1x1, .i32⟩) main_call10_v3) addi,
    TRef.ternary (TRef.of (T := ⟨S1x1, .i1⟩) main_call10_v1) (TRef.of (T := ⟨S1x1, .i32⟩) main_call10_v3) (TRef.of (T := ⟨S1x1, .i32⟩) main_v70) (TRef.of (T := ⟨S1x1, .i32⟩) main_call10_v4) select,
    TRef.nullary (TRef.of (T := ⟨S1, .i32⟩) main_call10_c_1) (constantI S1 32 2#32),
    TRef.nullary (TRef.of (T := ⟨S_, .i32⟩) main_call10_c_2) (constantI S_ 32 0#32) ]

/-- Operations 210 to 217 of the reference program. -/
abbrev seg26 : List (HloOp τ sig (Elt F)) :=
  [ TRef.unary (TRef.of (T := ⟨S_, .i32⟩) main_call10_c_2) (TRef.of (T := ⟨S1x1, .i32⟩) main_call10_v5) (broadcastInDim S1x1 ![] bcast_S_S1x1),
    TRef.binary (TRef.of (T := ⟨S1x1, .i32⟩) main_call10_v4) (TRef.of (T := ⟨S1x1, .i32⟩) main_call10_v5) (TRef.of (T := ⟨S1x1, .i1⟩) main_call10_v6) (cmpi .sge),
    TRef.unary (TRef.of (T := ⟨S1, .i32⟩) main_call10_c_1) (TRef.of (T := ⟨S1x1, .i32⟩) main_call10_v7) (broadcastInDim S1x1 ![1] bcast_S1_S1x1_1),
    TRef.binary (TRef.of (T := ⟨S1x1, .i32⟩) main_call10_v4) (TRef.of (T := ⟨S1x1, .i32⟩) main_call10_v7) (TRef.of (T := ⟨S1x1, .i1⟩) main_call10_v8) (cmpi .sle),
    TRef.binary (TRef.of (T := ⟨S1x1, .i1⟩) main_call10_v6) (TRef.of (T := ⟨S1x1, .i1⟩) main_call10_v8) (TRef.of (T := ⟨S1x1, .i1⟩) main_call10_v9) andi,
    TRef.nullary (TRef.of (T := ⟨S_, .i1⟩) main_call10_c_3) (constantI S_ 1 1#1),
    TRef.binary (TRef.of (T := ⟨S1x1, .i1⟩) main_call10_v9) (TRef.of (T := ⟨S_, .i1⟩) main_call10_c_3) (TRef.of (T := ⟨S1, .i1⟩) main_call10_v10) (fun x v => Host.reduce IntOp.andi x v reducesTo_S1x1_S1_d1 h_S_),
    TRef.binary (TRef.of (T := ⟨S1x3, .f32⟩) main_v69) (TRef.of (T := ⟨S1x1, .i32⟩) main_call10_v4) (TRef.of (T := ⟨S1x1, .f32⟩) main_call10_v11) (fun x i => Host.gather gather_S1x3_S1x1_S1x1_0_1_n_n_1_1_11 x i) ]

/-- Operations 218 to 225 of the reference program. -/
abbrev seg27 : List (HloOp τ sig (Elt F)) :=
  [ TRef.unary (TRef.of (T := ⟨S1, .i1⟩) main_call10_v10) (TRef.of (T := ⟨S1x1, .i1⟩) main_call10_v12) (broadcastInDim S1x1 ![1] bcast_S1_S1x1_1),
    TRef.nullary (TRef.of (T := ⟨S_, .f32⟩) main_call10_cst) (constant S_ .f32 0x7FC00000#32),
    TRef.unary (TRef.of (T := ⟨S_, .f32⟩) main_call10_cst) (TRef.of (T := ⟨S1x1, .f32⟩) main_call10_v13) (broadcastInDim S1x1 ![] bcast_S_S1x1),
    TRef.ternary (TRef.of (T := ⟨S1x1, .i1⟩) main_call10_v12) (TRef.of (T := ⟨S1x1, .f32⟩) main_call10_v11) (TRef.of (T := ⟨S1x1, .f32⟩) main_call10_v13) (TRef.of (T := ⟨S1x1, .f32⟩) main_v71) select,
    unary main_v71 main_v72 (Host.log : (⟨S1x1, .f32⟩ : BufTy).Contents (Elt F) → (⟨S1x1, .f32⟩ : BufTy).Contents (Elt F)),
    nullary main_cst_19 (constant S_ .f32 0x00000000#32),
    binary main_v72 main_cst_19 main_v73 ((fun x v => Host.reduceAdd x v reducesTo_S1x1_S_d0_1 h_S_) : (⟨S1x1, .f32⟩ : BufTy).Contents (Elt F) → (⟨S_, .f32⟩ : BufTy).Contents (Elt F) → (⟨S_, .f32⟩ : BufTy).Contents (Elt F)),
    binary main_v60 main_v73 main_v74 (addf : (⟨S_, .f32⟩ : BufTy).Contents (Elt F) → (⟨S_, .f32⟩ : BufTy).Contents (Elt F) → (⟨S_, .f32⟩ : BufTy).Contents (Elt F)) ]

abbrev rest27 : List (HloOp τ sig (Elt F)) := seg27
abbrev rest26 : List (HloOp τ sig (Elt F)) := seg26 ++ rest27
abbrev rest25 : List (HloOp τ sig (Elt F)) := seg25 ++ rest26
abbrev rest24 : List (HloOp τ sig (Elt F)) := seg24 ++ rest25
abbrev rest23 : List (HloOp τ sig (Elt F)) := seg23 ++ rest24
abbrev rest22 : List (HloOp τ sig (Elt F)) := seg22 ++ rest23
abbrev rest21 : List (HloOp τ sig (Elt F)) := seg21 ++ rest22
abbrev rest20 : List (HloOp τ sig (Elt F)) := seg20 ++ rest21
abbrev rest19 : List (HloOp τ sig (Elt F)) := seg19 ++ rest20
abbrev rest18 : List (HloOp τ sig (Elt F)) := seg18 ++ rest19
abbrev rest17 : List (HloOp τ sig (Elt F)) := seg17 ++ rest18
abbrev rest16 : List (HloOp τ sig (Elt F)) := seg16 ++ rest17
abbrev rest15 : List (HloOp τ sig (Elt F)) := seg15 ++ rest16
abbrev rest14 : List (HloOp τ sig (Elt F)) := seg14 ++ rest15
abbrev rest13 : List (HloOp τ sig (Elt F)) := seg13 ++ rest14
abbrev rest12 : List (HloOp τ sig (Elt F)) := seg12 ++ rest13
abbrev rest11 : List (HloOp τ sig (Elt F)) := seg11 ++ rest12
abbrev rest10 : List (HloOp τ sig (Elt F)) := seg10 ++ rest11
abbrev rest9 : List (HloOp τ sig (Elt F)) := seg9 ++ rest10
abbrev rest8 : List (HloOp τ sig (Elt F)) := seg8 ++ rest9
abbrev rest7 : List (HloOp τ sig (Elt F)) := seg7 ++ rest8
abbrev rest6 : List (HloOp τ sig (Elt F)) := seg6 ++ rest7
abbrev rest5 : List (HloOp τ sig (Elt F)) := seg5 ++ rest6
abbrev rest4 : List (HloOp τ sig (Elt F)) := seg4 ++ rest5
abbrev rest3 : List (HloOp τ sig (Elt F)) := seg3 ++ rest4
abbrev rest2 : List (HloOp τ sig (Elt F)) := seg2 ++ rest3
abbrev rest1 : List (HloOp τ sig (Elt F)) := seg1 ++ rest2
abbrev rest0 : List (HloOp τ sig (Elt F)) := seg0 ++ rest1

set_option maxRecDepth 8192 in
/-- The program's operation list is the stretches in order. -/
theorem ops_eq : (ops : List (HloOp τ sig (Elt F))) = rest0 := rfl

theorem from27 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_v60 : W (Proc.devRef .tc main_v60) = ReadP.val_main_v60 (F := F) x0 x1 x2)
    (h_main_call10_v10 : W (Proc.devRef .tc main_call10_v10) = ReadP.val_main_call10_v10 (F := F) x0)
    (h_main_call10_v11 : W (Proc.devRef .tc main_call10_v11) = ReadP.val_main_call10_v11 (F := F) x0 x2) :
    after seg27 W (Proc.devRef .tc main_v74) = ReadP.val_main_v74 (F := F) x0 x1 x2 := by
  after_results_simp; (try simp only [h_main_v60, h_main_call10_v10, h_main_call10_v11, TRef.ofBuf, TRef.toBuf, cast_eq]); rfl

theorem from26 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_v60 : W (Proc.devRef .tc main_v60) = ReadP.val_main_v60 (F := F) x0 x1 x2)
    (h_main_v69 : W (Proc.devRef .tc main_v69) = ReadP.val_main_v69 (F := F) x2)
    (h_main_call10_v4 : W (Proc.devRef .tc main_call10_v4) = ReadP.val_main_call10_v4 (F := F) x0)
    (h_main_call10_c_1 : W (Proc.devRef .tc main_call10_c_1) = ReadP.val_main_call10_c_1 (F := F))
    (h_main_call10_c_2 : W (Proc.devRef .tc main_call10_c_2) = ReadP.val_main_call10_c_2 (F := F)) :
    after (seg26 ++ rest27) W (Proc.devRef .tc main_v74) = ReadP.val_main_v74 (F := F) x0 x1 x2 := by
  rw [after_app]
  refine from27 (after seg26 W) x0 x1 x2 ?_ ?_ ?_
  · after_results_simp; exact h_main_v60
  · after_results_simp; (try simp only [h_main_v60, h_main_v69, h_main_call10_v4, h_main_call10_c_1, h_main_call10_c_2, TRef.ofBuf, TRef.toBuf, cast_eq]); rfl
  · after_results_simp; (try simp only [h_main_v60, h_main_v69, h_main_call10_v4, h_main_call10_c_1, h_main_call10_c_2, TRef.ofBuf, TRef.toBuf, cast_eq]); rfl

theorem from25 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_v60 : W (Proc.devRef .tc main_v60) = ReadP.val_main_v60 (F := F) x0 x1 x2)
    (h_main_v69 : W (Proc.devRef .tc main_v69) = ReadP.val_main_v69 (F := F) x2)
    (h_main_v70 : W (Proc.devRef .tc main_v70) = ReadP.val_main_v70 (F := F) x0)
    (h_main_call10_c : W (Proc.devRef .tc main_call10_c) = ReadP.val_main_call10_c (F := F)) :
    after (seg25 ++ rest26) W (Proc.devRef .tc main_v74) = ReadP.val_main_v74 (F := F) x0 x1 x2 := by
  rw [after_app]
  refine from26 (after seg25 W) x0 x1 x2 ?_ ?_ ?_ ?_ ?_
  · after_results_simp; exact h_main_v60
  · after_results_simp; exact h_main_v69
  · after_results_simp; (try simp only [h_main_v60, h_main_v69, h_main_v70, h_main_call10_c, TRef.ofBuf, TRef.toBuf, cast_eq]); rfl
  · after_results_simp; (try simp only [h_main_v60, h_main_v69, h_main_v70, h_main_call10_c, TRef.ofBuf, TRef.toBuf, cast_eq]); rfl
  · after_results_simp; (try simp only [h_main_v60, h_main_v69, h_main_v70, h_main_call10_c, TRef.ofBuf, TRef.toBuf, cast_eq]); rfl

theorem from24 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v60 : W (Proc.devRef .tc main_v60) = ReadP.val_main_v60 (F := F) x0 x1 x2)
    (h_main_v65 : W (Proc.devRef .tc main_v65) = ReadP.val_main_v65 (F := F) x0)
    (h_main_v66 : W (Proc.devRef .tc main_v66) = ReadP.val_main_v66 (F := F) x0) :
    after (seg24 ++ rest25) W (Proc.devRef .tc main_v74) = ReadP.val_main_v74 (F := F) x0 x1 x2 := by
  rw [after_app]
  refine from25 (after seg24 W) x0 x1 x2 ?_ ?_ ?_ ?_
  · after_results_simp; exact h_main_v60
  · after_results_simp; (try simp only [h_main_arg2, h_main_v60, h_main_v65, h_main_v66, TRef.ofBuf, TRef.toBuf, cast_eq]); rfl
  · after_results_simp; (try simp only [h_main_arg2, h_main_v60, h_main_v65, h_main_v66, TRef.ofBuf, TRef.toBuf, cast_eq]); rfl
  · after_results_simp; (try simp only [h_main_arg2, h_main_v60, h_main_v65, h_main_v66, TRef.ofBuf, TRef.toBuf, cast_eq]); rfl

theorem from23 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v60 : W (Proc.devRef .tc main_v60) = ReadP.val_main_v60 (F := F) x0 x1 x2) :
    after (seg23 ++ rest24) W (Proc.devRef .tc main_v74) = ReadP.val_main_v74 (F := F) x0 x1 x2 := by
  rw [after_app]
  refine from24 (after seg23 W) x0 x1 x2 ?_ ?_ ?_ ?_
  · after_results_simp; exact h_main_arg2
  · after_results_simp; exact h_main_v60
  · after_results_simp; (try simp only [h_main_arg2, h_main_v0, h_main_v60, TRef.ofBuf, TRef.toBuf, cast_eq]); rfl
  · after_results_simp; (try simp only [h_main_arg2, h_main_v0, h_main_v60, TRef.ofBuf, TRef.toBuf, cast_eq]); rfl

theorem from22 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v46 : W (Proc.devRef .tc main_v46) = ReadP.val_main_v46 (F := F) x0 x1 x2)
    (h_main_v55 : W (Proc.devRef .tc main_v55) = ReadP.val_main_v55 (F := F) x2)
    (h_main_call8_v5 : W (Proc.devRef .tc main_call8_v5) = ReadP.val_main_call8_v5 (F := F) x0)
    (h_main_call8_v11 : W (Proc.devRef .tc main_call8_v11) = ReadP.val_main_call8_v11 (F := F) x0)
    (h_main_call8_c_3 : W (Proc.devRef .tc main_call8_c_3) = ReadP.val_main_call8_c_3 (F := F)) :
    after (seg22 ++ rest23) W (Proc.devRef .tc main_v74) = ReadP.val_main_v74 (F := F) x0 x1 x2 := by
  rw [after_app]
  refine from23 (after seg22 W) x0 x1 x2 ?_ ?_ ?_
  · after_results_simp; exact h_main_arg2
  · after_results_simp; exact h_main_v0
  · after_results_simp; (try simp only [h_main_arg2, h_main_v0, h_main_v46, h_main_v55, h_main_call8_v5, h_main_call8_v11, h_main_call8_c_3, TRef.ofBuf, TRef.toBuf, cast_eq]); rfl

theorem from21 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v46 : W (Proc.devRef .tc main_v46) = ReadP.val_main_v46 (F := F) x0 x1 x2)
    (h_main_v55 : W (Proc.devRef .tc main_v55) = ReadP.val_main_v55 (F := F) x2)
    (h_main_call8_v5 : W (Proc.devRef .tc main_call8_v5) = ReadP.val_main_call8_v5 (F := F) x0)
    (h_main_call8_c_1 : W (Proc.devRef .tc main_call8_c_1) = ReadP.val_main_call8_c_1 (F := F)) :
    after (seg21 ++ rest22) W (Proc.devRef .tc main_v74) = ReadP.val_main_v74 (F := F) x0 x1 x2 := by
  rw [after_app]
  refine from22 (after seg21 W) x0 x1 x2 ?_ ?_ ?_ ?_ ?_ ?_ ?_
  · after_results_simp; exact h_main_arg2
  · after_results_simp; exact h_main_v0
  · after_results_simp; exact h_main_v46
  · after_results_simp; exact h_main_v55
  · after_results_simp; exact h_main_call8_v5
  · after_results_simp; (try simp only [h_main_arg2, h_main_v0, h_main_v46, h_main_v55, h_main_call8_v5, h_main_call8_c_1, TRef.ofBuf, TRef.toBuf, cast_eq]); rfl
  · after_results_simp; (try simp only [h_main_arg2, h_main_v0, h_main_v46, h_main_v55, h_main_call8_v5, h_main_call8_c_1, TRef.ofBuf, TRef.toBuf, cast_eq]); rfl

theorem from20 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v46 : W (Proc.devRef .tc main_v46) = ReadP.val_main_v46 (F := F) x0 x1 x2)
    (h_main_v55 : W (Proc.devRef .tc main_v55) = ReadP.val_main_v55 (F := F) x2)
    (h_main_v56 : W (Proc.devRef .tc main_v56) = ReadP.val_main_v56 (F := F) x0)
    (h_main_call8_c : W (Proc.devRef .tc main_call8_c) = ReadP.val_main_call8_c (F := F)) :
    after (seg20 ++ rest21) W (Proc.devRef .tc main_v74) = ReadP.val_main_v74 (F := F) x0 x1 x2 := by
  rw [after_app]
  refine from21 (after seg20 W) x0 x1 x2 ?_ ?_ ?_ ?_ ?_ ?_
  · after_results_simp; exact h_main_arg2
  · after_results_simp; exact h_main_v0
  · after_results_simp; exact h_main_v46
  · after_results_simp; exact h_main_v55
  · after_results_simp; (try simp only [h_main_arg2, h_main_v0, h_main_v46, h_main_v55, h_main_v56, h_main_call8_c, TRef.ofBuf, TRef.toBuf, cast_eq]); rfl
  · after_results_simp; (try simp only [h_main_arg2, h_main_v0, h_main_v46, h_main_v55, h_main_v56, h_main_call8_c, TRef.ofBuf, TRef.toBuf, cast_eq]); rfl

theorem from19 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v46 : W (Proc.devRef .tc main_v46) = ReadP.val_main_v46 (F := F) x0 x1 x2)
    (h_main_v51 : W (Proc.devRef .tc main_v51) = ReadP.val_main_v51 (F := F) x0)
    (h_main_v52 : W (Proc.devRef .tc main_v52) = ReadP.val_main_v52 (F := F) x0) :
    after (seg19 ++ rest20) W (Proc.devRef .tc main_v74) = ReadP.val_main_v74 (F := F) x0 x1 x2 := by
  rw [after_app]
  refine from20 (after seg19 W) x0 x1 x2 ?_ ?_ ?_ ?_ ?_ ?_
  · after_results_simp; exact h_main_arg2
  · after_results_simp; exact h_main_v0
  · after_results_simp; exact h_main_v46
  · after_results_simp; (try simp only [h_main_arg2, h_main_v0, h_main_v46, h_main_v51, h_main_v52, TRef.ofBuf, TRef.toBuf, cast_eq]); rfl
  · after_results_simp; (try simp only [h_main_arg2, h_main_v0, h_main_v46, h_main_v51, h_main_v52, TRef.ofBuf, TRef.toBuf, cast_eq]); rfl
  · after_results_simp; (try simp only [h_main_arg2, h_main_v0, h_main_v46, h_main_v51, h_main_v52, TRef.ofBuf, TRef.toBuf, cast_eq]); rfl

theorem from18 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v46 : W (Proc.devRef .tc main_v46) = ReadP.val_main_v46 (F := F) x0 x1 x2) :
    after (seg18 ++ rest19) W (Proc.devRef .tc main_v74) = ReadP.val_main_v74 (F := F) x0 x1 x2 := by
  rw [after_app]
  refine from19 (after seg18 W) x0 x1 x2 ?_ ?_ ?_ ?_ ?_
  · after_results_simp; exact h_main_arg2
  · after_results_simp; exact h_main_v0
  · after_results_simp; exact h_main_v46
  · after_results_simp; (try simp only [h_main_arg2, h_main_v0, h_main_v46, TRef.ofBuf, TRef.toBuf, cast_eq]); rfl
  · after_results_simp; (try simp only [h_main_arg2, h_main_v0, h_main_v46, TRef.ofBuf, TRef.toBuf, cast_eq]); rfl

theorem from17 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v32 : W (Proc.devRef .tc main_v32) = ReadP.val_main_v32 (F := F) x0 x1 x2)
    (h_main_v41 : W (Proc.devRef .tc main_v41) = ReadP.val_main_v41 (F := F) x2)
    (h_main_call6_v5 : W (Proc.devRef .tc main_call6_v5) = ReadP.val_main_call6_v5 (F := F) x0)
    (h_main_call6_v11 : W (Proc.devRef .tc main_call6_v11) = ReadP.val_main_call6_v11 (F := F) x0)
    (h_main_call6_c_3 : W (Proc.devRef .tc main_call6_c_3) = ReadP.val_main_call6_c_3 (F := F)) :
    after (seg17 ++ rest18) W (Proc.devRef .tc main_v74) = ReadP.val_main_v74 (F := F) x0 x1 x2 := by
  rw [after_app]
  refine from18 (after seg17 W) x0 x1 x2 ?_ ?_ ?_
  · after_results_simp; exact h_main_arg2
  · after_results_simp; exact h_main_v0
  · after_results_simp; (try simp only [h_main_arg2, h_main_v0, h_main_v32, h_main_v41, h_main_call6_v5, h_main_call6_v11, h_main_call6_c_3, TRef.ofBuf, TRef.toBuf, cast_eq]); rfl

theorem from16 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v32 : W (Proc.devRef .tc main_v32) = ReadP.val_main_v32 (F := F) x0 x1 x2)
    (h_main_v41 : W (Proc.devRef .tc main_v41) = ReadP.val_main_v41 (F := F) x2)
    (h_main_call6_v5 : W (Proc.devRef .tc main_call6_v5) = ReadP.val_main_call6_v5 (F := F) x0)
    (h_main_call6_c_1 : W (Proc.devRef .tc main_call6_c_1) = ReadP.val_main_call6_c_1 (F := F)) :
    after (seg16 ++ rest17) W (Proc.devRef .tc main_v74) = ReadP.val_main_v74 (F := F) x0 x1 x2 := by
  rw [after_app]
  refine from17 (after seg16 W) x0 x1 x2 ?_ ?_ ?_ ?_ ?_ ?_ ?_
  · after_results_simp; exact h_main_arg2
  · after_results_simp; exact h_main_v0
  · after_results_simp; exact h_main_v32
  · after_results_simp; exact h_main_v41
  · after_results_simp; exact h_main_call6_v5
  · after_results_simp; (try simp only [h_main_arg2, h_main_v0, h_main_v32, h_main_v41, h_main_call6_v5, h_main_call6_c_1, TRef.ofBuf, TRef.toBuf, cast_eq]); rfl
  · after_results_simp; (try simp only [h_main_arg2, h_main_v0, h_main_v32, h_main_v41, h_main_call6_v5, h_main_call6_c_1, TRef.ofBuf, TRef.toBuf, cast_eq]); rfl

theorem from15 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v32 : W (Proc.devRef .tc main_v32) = ReadP.val_main_v32 (F := F) x0 x1 x2)
    (h_main_v41 : W (Proc.devRef .tc main_v41) = ReadP.val_main_v41 (F := F) x2)
    (h_main_v42 : W (Proc.devRef .tc main_v42) = ReadP.val_main_v42 (F := F) x0)
    (h_main_call6_c : W (Proc.devRef .tc main_call6_c) = ReadP.val_main_call6_c (F := F)) :
    after (seg15 ++ rest16) W (Proc.devRef .tc main_v74) = ReadP.val_main_v74 (F := F) x0 x1 x2 := by
  rw [after_app]
  refine from16 (after seg15 W) x0 x1 x2 ?_ ?_ ?_ ?_ ?_ ?_
  · after_results_simp; exact h_main_arg2
  · after_results_simp; exact h_main_v0
  · after_results_simp; exact h_main_v32
  · after_results_simp; exact h_main_v41
  · after_results_simp; (try simp only [h_main_arg2, h_main_v0, h_main_v32, h_main_v41, h_main_v42, h_main_call6_c, TRef.ofBuf, TRef.toBuf, cast_eq]); rfl
  · after_results_simp; (try simp only [h_main_arg2, h_main_v0, h_main_v32, h_main_v41, h_main_v42, h_main_call6_c, TRef.ofBuf, TRef.toBuf, cast_eq]); rfl

theorem from14 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v32 : W (Proc.devRef .tc main_v32) = ReadP.val_main_v32 (F := F) x0 x1 x2)
    (h_main_v37 : W (Proc.devRef .tc main_v37) = ReadP.val_main_v37 (F := F) x0)
    (h_main_v38 : W (Proc.devRef .tc main_v38) = ReadP.val_main_v38 (F := F) x0) :
    after (seg14 ++ rest15) W (Proc.devRef .tc main_v74) = ReadP.val_main_v74 (F := F) x0 x1 x2 := by
  rw [after_app]
  refine from15 (after seg14 W) x0 x1 x2 ?_ ?_ ?_ ?_ ?_ ?_
  · after_results_simp; exact h_main_arg2
  · after_results_simp; exact h_main_v0
  · after_results_simp; exact h_main_v32
  · after_results_simp; (try simp only [h_main_arg2, h_main_v0, h_main_v32, h_main_v37, h_main_v38, TRef.ofBuf, TRef.toBuf, cast_eq]); rfl
  · after_results_simp; (try simp only [h_main_arg2, h_main_v0, h_main_v32, h_main_v37, h_main_v38, TRef.ofBuf, TRef.toBuf, cast_eq]); rfl
  · after_results_simp; (try simp only [h_main_arg2, h_main_v0, h_main_v32, h_main_v37, h_main_v38, TRef.ofBuf, TRef.toBuf, cast_eq]); rfl

theorem from13 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v32 : W (Proc.devRef .tc main_v32) = ReadP.val_main_v32 (F := F) x0 x1 x2) :
    after (seg13 ++ rest14) W (Proc.devRef .tc main_v74) = ReadP.val_main_v74 (F := F) x0 x1 x2 := by
  rw [after_app]
  refine from14 (after seg13 W) x0 x1 x2 ?_ ?_ ?_ ?_ ?_
  · after_results_simp; exact h_main_arg2
  · after_results_simp; exact h_main_v0
  · after_results_simp; exact h_main_v32
  · after_results_simp; (try simp only [h_main_arg2, h_main_v0, h_main_v32, TRef.ofBuf, TRef.toBuf, cast_eq]); rfl
  · after_results_simp; (try simp only [h_main_arg2, h_main_v0, h_main_v32, TRef.ofBuf, TRef.toBuf, cast_eq]); rfl

theorem from12 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v18 : W (Proc.devRef .tc main_v18) = ReadP.val_main_v18 (F := F) x0 x1)
    (h_main_v27 : W (Proc.devRef .tc main_v27) = ReadP.val_main_v27 (F := F) x2)
    (h_main_call4_v5 : W (Proc.devRef .tc main_call4_v5) = ReadP.val_main_call4_v5 (F := F) x0)
    (h_main_call4_v11 : W (Proc.devRef .tc main_call4_v11) = ReadP.val_main_call4_v11 (F := F) x0)
    (h_main_call4_c_3 : W (Proc.devRef .tc main_call4_c_3) = ReadP.val_main_call4_c_3 (F := F)) :
    after (seg12 ++ rest13) W (Proc.devRef .tc main_v74) = ReadP.val_main_v74 (F := F) x0 x1 x2 := by
  rw [after_app]
  refine from13 (after seg12 W) x0 x1 x2 ?_ ?_ ?_
  · after_results_simp; exact h_main_arg2
  · after_results_simp; exact h_main_v0
  · after_results_simp; (try simp only [h_main_arg2, h_main_v0, h_main_v18, h_main_v27, h_main_call4_v5, h_main_call4_v11, h_main_call4_c_3, TRef.ofBuf, TRef.toBuf, cast_eq]); rfl

theorem from11 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v18 : W (Proc.devRef .tc main_v18) = ReadP.val_main_v18 (F := F) x0 x1)
    (h_main_v27 : W (Proc.devRef .tc main_v27) = ReadP.val_main_v27 (F := F) x2)
    (h_main_call4_v5 : W (Proc.devRef .tc main_call4_v5) = ReadP.val_main_call4_v5 (F := F) x0)
    (h_main_call4_c_1 : W (Proc.devRef .tc main_call4_c_1) = ReadP.val_main_call4_c_1 (F := F)) :
    after (seg11 ++ rest12) W (Proc.devRef .tc main_v74) = ReadP.val_main_v74 (F := F) x0 x1 x2 := by
  rw [after_app]
  refine from12 (after seg11 W) x0 x1 x2 ?_ ?_ ?_ ?_ ?_ ?_ ?_
  · after_results_simp; exact h_main_arg2
  · after_results_simp; exact h_main_v0
  · after_results_simp; exact h_main_v18
  · after_results_simp; exact h_main_v27
  · after_results_simp; exact h_main_call4_v5
  · after_results_simp; (try simp only [h_main_arg2, h_main_v0, h_main_v18, h_main_v27, h_main_call4_v5, h_main_call4_c_1, TRef.ofBuf, TRef.toBuf, cast_eq]); rfl
  · after_results_simp; (try simp only [h_main_arg2, h_main_v0, h_main_v18, h_main_v27, h_main_call4_v5, h_main_call4_c_1, TRef.ofBuf, TRef.toBuf, cast_eq]); rfl

theorem from10 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v18 : W (Proc.devRef .tc main_v18) = ReadP.val_main_v18 (F := F) x0 x1)
    (h_main_v27 : W (Proc.devRef .tc main_v27) = ReadP.val_main_v27 (F := F) x2)
    (h_main_v28 : W (Proc.devRef .tc main_v28) = ReadP.val_main_v28 (F := F) x0)
    (h_main_call4_c : W (Proc.devRef .tc main_call4_c) = ReadP.val_main_call4_c (F := F)) :
    after (seg10 ++ rest11) W (Proc.devRef .tc main_v74) = ReadP.val_main_v74 (F := F) x0 x1 x2 := by
  rw [after_app]
  refine from11 (after seg10 W) x0 x1 x2 ?_ ?_ ?_ ?_ ?_ ?_
  · after_results_simp; exact h_main_arg2
  · after_results_simp; exact h_main_v0
  · after_results_simp; exact h_main_v18
  · after_results_simp; exact h_main_v27
  · after_results_simp; (try simp only [h_main_arg2, h_main_v0, h_main_v18, h_main_v27, h_main_v28, h_main_call4_c, TRef.ofBuf, TRef.toBuf, cast_eq]); rfl
  · after_results_simp; (try simp only [h_main_arg2, h_main_v0, h_main_v18, h_main_v27, h_main_v28, h_main_call4_c, TRef.ofBuf, TRef.toBuf, cast_eq]); rfl

theorem from9 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v18 : W (Proc.devRef .tc main_v18) = ReadP.val_main_v18 (F := F) x0 x1)
    (h_main_v23 : W (Proc.devRef .tc main_v23) = ReadP.val_main_v23 (F := F) x0)
    (h_main_v24 : W (Proc.devRef .tc main_v24) = ReadP.val_main_v24 (F := F) x0) :
    after (seg9 ++ rest10) W (Proc.devRef .tc main_v74) = ReadP.val_main_v74 (F := F) x0 x1 x2 := by
  rw [after_app]
  refine from10 (after seg9 W) x0 x1 x2 ?_ ?_ ?_ ?_ ?_ ?_
  · after_results_simp; exact h_main_arg2
  · after_results_simp; exact h_main_v0
  · after_results_simp; exact h_main_v18
  · after_results_simp; (try simp only [h_main_arg2, h_main_v0, h_main_v18, h_main_v23, h_main_v24, TRef.ofBuf, TRef.toBuf, cast_eq]); rfl
  · after_results_simp; (try simp only [h_main_arg2, h_main_v0, h_main_v18, h_main_v23, h_main_v24, TRef.ofBuf, TRef.toBuf, cast_eq]); rfl
  · after_results_simp; (try simp only [h_main_arg2, h_main_v0, h_main_v18, h_main_v23, h_main_v24, TRef.ofBuf, TRef.toBuf, cast_eq]); rfl

theorem from8 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v18 : W (Proc.devRef .tc main_v18) = ReadP.val_main_v18 (F := F) x0 x1) :
    after (seg8 ++ rest9) W (Proc.devRef .tc main_v74) = ReadP.val_main_v74 (F := F) x0 x1 x2 := by
  rw [after_app]
  refine from9 (after seg8 W) x0 x1 x2 ?_ ?_ ?_ ?_ ?_
  · after_results_simp; exact h_main_arg2
  · after_results_simp; exact h_main_v0
  · after_results_simp; exact h_main_v18
  · after_results_simp; (try simp only [h_main_arg2, h_main_v0, h_main_v18, TRef.ofBuf, TRef.toBuf, cast_eq]); rfl
  · after_results_simp; (try simp only [h_main_arg2, h_main_v0, h_main_v18, TRef.ofBuf, TRef.toBuf, cast_eq]); rfl

theorem from7 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v8 : W (Proc.devRef .tc main_v8) = ReadP.val_main_v8 (F := F) x0 x1)
    (h_main_v11 : W (Proc.devRef .tc main_v11) = ReadP.val_main_v11 (F := F) x0) :
    after (seg7 ++ rest8) W (Proc.devRef .tc main_v74) = ReadP.val_main_v74 (F := F) x0 x1 x2 := by
  rw [after_app]
  refine from8 (after seg7 W) x0 x1 x2 ?_ ?_ ?_
  · after_results_simp; exact h_main_arg2
  · after_results_simp; exact h_main_v0
  · after_results_simp; (try simp only [h_main_arg2, h_main_v0, h_main_v8, h_main_v11, TRef.ofBuf, TRef.toBuf, cast_eq]); rfl

theorem from6 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v3 : W (Proc.devRef .tc main_v3) = ReadP.val_main_v3 (F := F) x0)
    (h_main_v8 : W (Proc.devRef .tc main_v8) = ReadP.val_main_v8 (F := F) x0 x1) :
    after (seg6 ++ rest7) W (Proc.devRef .tc main_v74) = ReadP.val_main_v74 (F := F) x0 x1 x2 := by
  rw [after_app]
  refine from7 (after seg6 W) x0 x1 x2 ?_ ?_ ?_ ?_
  · after_results_simp; exact h_main_arg2
  · after_results_simp; exact h_main_v0
  · after_results_simp; exact h_main_v8
  · after_results_simp; (try simp only [h_main_arg2, h_main_v0, h_main_v3, h_main_v8, TRef.ofBuf, TRef.toBuf, cast_eq]); rfl

theorem from5 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v3 : W (Proc.devRef .tc main_v3) = ReadP.val_main_v3 (F := F) x0)
    (h_main_v4 : W (Proc.devRef .tc main_v4) = ReadP.val_main_v4 (F := F) x1)
    (h_main_call1_v5 : W (Proc.devRef .tc main_call1_v5) = ReadP.val_main_call1_v5 (F := F) x0)
    (h_main_call1_v11 : W (Proc.devRef .tc main_call1_v11) = ReadP.val_main_call1_v11 (F := F) x0) :
    after (seg5 ++ rest6) W (Proc.devRef .tc main_v74) = ReadP.val_main_v74 (F := F) x0 x1 x2 := by
  rw [after_app]
  refine from6 (after seg5 W) x0 x1 x2 ?_ ?_ ?_ ?_
  · after_results_simp; exact h_main_arg2
  · after_results_simp; exact h_main_v0
  · after_results_simp; exact h_main_v3
  · after_results_simp; (try simp only [h_main_arg2, h_main_v0, h_main_v3, h_main_v4, h_main_call1_v5, h_main_call1_v11, TRef.ofBuf, TRef.toBuf, cast_eq]); rfl

theorem from4 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v3 : W (Proc.devRef .tc main_v3) = ReadP.val_main_v3 (F := F) x0)
    (h_main_v4 : W (Proc.devRef .tc main_v4) = ReadP.val_main_v4 (F := F) x1)
    (h_main_call1_v5 : W (Proc.devRef .tc main_call1_v5) = ReadP.val_main_call1_v5 (F := F) x0) :
    after (seg4 ++ rest5) W (Proc.devRef .tc main_v74) = ReadP.val_main_v74 (F := F) x0 x1 x2 := by
  rw [after_app]
  refine from5 (after seg4 W) x0 x1 x2 ?_ ?_ ?_ ?_ ?_ ?_
  · after_results_simp; exact h_main_arg2
  · after_results_simp; exact h_main_v0
  · after_results_simp; exact h_main_v3
  · after_results_simp; exact h_main_v4
  · after_results_simp; exact h_main_call1_v5
  · after_results_simp; (try simp only [h_main_arg2, h_main_v0, h_main_v3, h_main_v4, h_main_call1_v5, TRef.ofBuf, TRef.toBuf, cast_eq]); rfl

theorem from3 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v3 : W (Proc.devRef .tc main_v3) = ReadP.val_main_v3 (F := F) x0)
    (h_main_v4 : W (Proc.devRef .tc main_v4) = ReadP.val_main_v4 (F := F) x1)
    (h_main_v5 : W (Proc.devRef .tc main_v5) = ReadP.val_main_v5 (F := F) x0) :
    after (seg3 ++ rest4) W (Proc.devRef .tc main_v74) = ReadP.val_main_v74 (F := F) x0 x1 x2 := by
  rw [after_app]
  refine from4 (after seg3 W) x0 x1 x2 ?_ ?_ ?_ ?_ ?_
  · after_results_simp; exact h_main_arg2
  · after_results_simp; exact h_main_v0
  · after_results_simp; exact h_main_v3
  · after_results_simp; exact h_main_v4
  · after_results_simp; (try simp only [h_main_arg2, h_main_v0, h_main_v3, h_main_v4, h_main_v5, TRef.ofBuf, TRef.toBuf, cast_eq]); rfl

theorem from2 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg2 : W (Proc.devRef .tc main_arg2) = x2)
    (h_main_v0 : W (Proc.devRef .tc main_v0) = ReadP.val_main_v0 (F := F) x0)
    (h_main_v3 : W (Proc.devRef .tc main_v3) = ReadP.val_main_v3 (F := F) x0)
    (h_main_call0_v5 : W (Proc.devRef .tc main_call0_v5) = ReadP.val_main_call0_v5 (F := F) x1) :
    after (seg2 ++ rest3) W (Proc.devRef .tc main_v74) = ReadP.val_main_v74 (F := F) x0 x1 x2 := by
  rw [after_app]
  refine from3 (after seg2 W) x0 x1 x2 ?_ ?_ ?_ ?_ ?_
  · after_results_simp; exact h_main_arg2
  · after_results_simp; exact h_main_v0
  · after_results_simp; exact h_main_v3
  · after_results_simp; (try simp only [h_main_arg2, h_main_v0, h_main_v3, h_main_call0_v5, TRef.ofBuf, TRef.toBuf, cast_eq]); rfl
  · after_results_simp; (try simp only [h_main_arg2, h_main_v0, h_main_v3, h_main_call0_v5, TRef.ofBuf, TRef.toBuf, cast_eq]); rfl

theorem from1 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg1 : W (Proc.devRef .tc main_arg1) = x1)
    (h_main_arg2 : W (Proc.devRef .tc main_arg2) = x2)
    (h_main_v0 : W (Proc.devRef .tc main_v0) = ReadP.val_main_v0 (F := F) x0)
    (h_main_v3 : W (Proc.devRef .tc main_v3) = ReadP.val_main_v3 (F := F) x0) :
    after (seg1 ++ rest2) W (Proc.devRef .tc main_v74) = ReadP.val_main_v74 (F := F) x0 x1 x2 := by
  rw [after_app]
  refine from2 (after seg1 W) x0 x1 x2 ?_ ?_ ?_ ?_
  · after_results_simp; exact h_main_arg2
  · after_results_simp; exact h_main_v0
  · after_results_simp; exact h_main_v3
  · after_results_simp; (try simp only [h_main_arg1, h_main_arg2, h_main_v0, h_main_v3, TRef.ofBuf, TRef.toBuf, cast_eq]); rfl

theorem from0 (W : Valuation τ sig (Elt F)) (x0 : (⟨S1x256x256x256, .i32⟩ : BufTy).Contents (Elt F)) (x1 : (⟨S4096x2x16x16x16, .f32⟩ : BufTy).Contents (Elt F)) (x2 : (⟨S585x3, .f32⟩ : BufTy).Contents (Elt F))
    (h_main_arg0 : W (Proc.devRef .tc main_arg0) = x0)
    (h_main_arg1 : W (Proc.devRef .tc main_arg1) = x1)
    (h_main_arg2 : W (Proc.devRef .tc main_arg2) = x2) :
    after (seg0 ++ rest1) W (Proc.devRef .tc main_v74) = ReadP.val_main_v74 (F := F) x0 x1 x2 := by
  rw [after_app]
  refine from1 (after seg0 W) x0 x1 x2 ?_ ?_ ?_ ?_
  · after_results_simp; exact h_main_arg1
  · after_results_simp; exact h_main_arg2
  · after_results_simp; (try simp only [h_main_arg0, h_main_arg1, h_main_arg2, TRef.ofBuf, TRef.toBuf, cast_eq]); rfl
  · after_results_simp; (try simp only [h_main_arg0, h_main_arg1, h_main_arg2, TRef.ofBuf, TRef.toBuf, cast_eq]); rfl

/-- No operation of the program leaves a buffer's contents undetermined. -/
theorem ops_fresh : (ops : List (HloOp τ sig (Elt F))).Forall fun op => op.fresh = ∅ := by
  repeat (first | refine ⟨rfl, ?_⟩ | exact rfl)

/-- The program's result, from any contents `V` of the device's buffers: the last stage function at the three arguments. -/
theorem value (V : Valuation τ sig (Elt F)) :
    after ops V (Proc.devRef .tc main_v74)
      = ReadP.val_main_v74 (F := F) (V (Proc.devRef .tc main_arg0)) (V (Proc.devRef .tc main_arg1)) (V (Proc.devRef .tc main_arg2)) := by
  rw [ops_eq]
  exact from0 V _ _ _ rfl rfl rfl

/-- On every device, from any memory with zero counters: every weakly fair execution of @main terminates with the result
    buffer at the last stage function of the three arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = Cert.ReferenceIdeal.ReadP.val_main_v74 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v74).trans (value _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ
      (fun _ => List.forall_iff_forall_mem.mp ops_fresh))

end Cert.ReferenceIdeal.Hand

end
-- ==== Proof.Assemble.lean ====
/-
  The pieces joined. On the kernel program's side: after the region the one-word result holds the level-0 loss (the sum over
  the 32 grid points of each point's 128 block losses is the sum over the 4096 blocks), and the later host lines add the four
  coarser levels' sums to it. On the reference's side the total is its own level-0 loss plus the same four sums. Both programs
  lay the labels out block by block with the same host lines and compute the coarser levels with the same operations, so the
  two totals are one extended real once the two level-0 losses are both the specification's.
-/
import proofs.«423392_j65163243815393_1_alg».proof.Defs
import proofs.«423392_j65163243815393_1_alg».proof.Proof.Gen.Pre_finite_inputs
import proofs.«423392_j65163243815393_1_alg».proof.Proof.Spec
import proofs.«423392_j65163243815393_1_alg».proof.Proof.K.Frame
import proofs.«423392_j65163243815393_1_alg».proof.Proof.KI.Value
import proofs.«423392_j65163243815393_1_alg».proof.Proof.KI.Tail
import proofs.«423392_j65163243815393_1_alg».proof.Proof.Bridge.KBlock
import proofs.«423392_j65163243815393_1_alg».proof.Proof.Bridge.Pre
import proofs.«423392_j65163243815393_1_alg».proof.Proof.Bridge.RefLoss
import proofs.«423392_j65163243815393_1_alg».proof.Proof.Ref.Run
import Mathlib.Algebra.BigOperators.Fin
import Mathlib.Logic.Equiv.Fin.Basic

noncomputable section

namespace Cert.Proof.Asm

open Idealize.ShloMosaic Idealize.ShloMosaic.TcCoe Idealize.SL.Sem

/-- The 4096 blocks are the 32 grid points' 128 blocks each: block `j` is block `j % 128` of point `j / 128`. -/
theorem sum_points_blocks (f : Fin 4096 → EReal) :
    ∑ t : Fin 32, ∑ b : Fin 128, f ⟨128 * t.val + b.val, by have := t.isLt; have := b.isLt; omega⟩ = ∑ j : Fin 4096, f j := by
  rw [← Fintype.sum_prod_type']
  refine Fintype.sum_equiv (finProdFinEquiv (m := 32) (n := 128)) _ _ ?_
  rintro ⟨t, b⟩
  refine congrArg f (Fin.ext ?_)
  simp only [finProdFinEquiv_apply_val]
  omega

/-- Reshaping an array whose entries are all one value gives an array whose entries are all that value. -/
theorem shapeCast_const {s t : Shape} (h : s.ShapeCasts t) {α : Type} (a : α) :
    shapeCast t (fun _ : s.Idx => a) h = fun _ => a := by
  funext i; rfl

section Kernel

open Cert.KernelIdeal Cert.KernelIdeal.Gen Cert.KernelIdeal.Frm

variable (m : (ℓ : Loc nD τ sig) → Buf (Elt Ideal) ℓ) (c : Dev nD)

/-- The labels block by block, as the kernel program's host lines before the region leave them. -/
abbrev Tk : Cert.Spec.ST.Idx → BitVec 32 := (V (F := Ideal) m c main_v3 : Cert.Spec.ST.Idx → BitVec 32)
/-- The logits: the second argument as launched. -/
abbrev Xk : Cert.Spec.SX.Idx → EReal := (m ((c.tc : Thread nD τ).loc main_arg1) : Cert.Spec.SX.Idx → EReal)

/-- After the region the one-word result holds the level-0 loss. -/
theorem arr2_loss0 (y : S1x1.Idx) : (dats (F := Ideal) m 0 c).arrAt 2 cfg0.N y = Cert.Spec.loss0 (Tk m c) (Xk m c) := by
  rw [Cert.KernelIdeal.Val.arr2_final m c y]
  simp only [Cert.Bridge.KBlock.bs_eq]
  unfold Cert.Spec.loss0
  have hN : cfg0.N = 32 := Gen.N_0
  exact (Fintype.sum_equiv (finCongr hN) _ (fun t : Fin 32 => ∑ b : Fin 128, Ideal.div (Cert.Spec.num (Tk m c) (Xk m c) ⟨128 * t.val + b.val, by have := t.isLt; have := b.isLt; omega⟩) (Cert.Spec.den (Tk m c) ⟨128 * t.val + b.val, by have := t.isLt; have := b.isLt; omega⟩)) (fun t => rfl)).trans
    (sum_points_blocks (fun j => Ideal.div (Cert.Spec.num (Tk m c) (Xk m c) j) (Cert.Spec.den (Tk m c) j)))

/-- Both programs lay the labels out block by block with the same four host lines: the reference's stage is the kernel
    program's buffer. -/
theorem labels_eq :
    (Cert.ReferenceIdeal.ReadP.val_main_v3 (F := Ideal) (m ((c.tc : Thread nD τ).loc main_arg0)) : Cert.Spec.ST.Idx → BitVec 32)
      = Tk m c := by
  rw [show Tk m c = _ from Cert.Bridge.Pre.v3_eq m c]
  unfold Cert.ReferenceIdeal.ReadP.val_main_v3 Cert.ReferenceIdeal.ReadP.val_main_v2 Cert.ReferenceIdeal.ReadP.val_main_v1 Cert.ReferenceIdeal.ReadP.val_main_v0
  rfl

/-- The later lines start from the reshaped labels where both programs expect them. -/
theorem W_v0' : (Cert.KernelIdeal.Val.W m c (Proc.devRef .tc main_v0) : (⟨S256x256x256, .i32⟩ : BufTy).Contents (Elt Ideal))
      = shapeCast _ (m ((c.tc : Thread nD τ).loc main_arg0)) shapeCasts_S1x256x256x256_S256x256x256 :=
  (Cert.KernelIdeal.Val.W_v0 m c).trans (Cert.Bridge.Pre.v0_eq m c)

end Kernel

section Totals

open Cert.KernelIdeal Cert.KernelIdeal.Gen Cert.KernelIdeal.Frm

variable (m : (ℓ : Loc nD τ sig) → Buf (Elt Ideal) ℓ) (c : Dev nD)

/-- THE TOTAL both programs end with: the level-0 loss plus the four coarser levels' sums, added in order. The coarser levels
    are functions of the label volume and the small table only, the same functions in both programs. -/
def total : FVec Ideal S_ .f32 :=
  addf (addf (addf (addf (fun _ => Cert.Spec.loss0 (Tk m c) (Xk m c) : FVec Ideal S_ .f32)
      (Cert.ReferenceIdeal.ReadP.val_main_v31 (F := Ideal) (m ((c.tc : Thread nD τ).loc main_arg0)) (m ((c.tc : Thread nD τ).loc main_arg2)) : FVec Ideal S_ .f32))
      (Cert.ReferenceIdeal.ReadP.val_main_v45 (F := Ideal) (m ((c.tc : Thread nD τ).loc main_arg0)) (m ((c.tc : Thread nD τ).loc main_arg2)) : FVec Ideal S_ .f32))
      (Cert.ReferenceIdeal.ReadP.val_main_v59 (F := Ideal) (m ((c.tc : Thread nD τ).loc main_arg0)) (m ((c.tc : Thread nD τ).loc main_arg2)) : FVec Ideal S_ .f32))
      (Cert.ReferenceIdeal.ReadP.val_main_v73 (F := Ideal) (m ((c.tc : Thread nD τ).loc main_arg0)) (m ((c.tc : Thread nD τ).loc main_arg2)) : FVec Ideal S_ .f32)

/-- The kernel program's result: the later lines reshape the region's one-word result, which is the level-0 loss, and add
    the four levels' sums. -/
theorem kernel_total :
    (Pipeline.afterTail₀ cfgs (dats (F := Ideal) m) 0 (V0 m) tailOps c main_v63 : FVec Ideal S_ .f32) = total m c := by
  have h := tail_v63 (F := Ideal) (Cert.KernelIdeal.Val.W m c) (m ((c.tc : Thread nD τ).loc main_arg0)) (W_v0' m c)
  rw [Cert.KernelIdeal.Val.W_v6, Cert.KernelIdeal.Val.W_arg2,
    show (dats (F := Ideal) m 0 c).arrAt 2 cfg0.N = (fun _ => Cert.Spec.loss0 (Tk m c) (Xk m c)) from funext (arr2_loss0 m c),
    shapeCast_const] at h
  exact h

/-- The reference's result at the same arguments: its level-0 loss is the specification's on the domain, and the rest is
    the same four sums. -/
theorem ref_total (hpre : Cert.Pre_KernelIdeal m) :
    (Cert.ReferenceIdeal.ReadP.val_main_v74 (F := Ideal) (m ((c.tc : Thread nD τ).loc main_arg0)) (m ((c.tc : Thread nD τ).loc main_arg1)) (m ((c.tc : Thread nD τ).loc main_arg2)) : FVec Ideal S_ .f32)
      = total m c := by
  have hok : Cert.Spec.Ok (Cert.ReferenceIdeal.ReadP.val_main_v3 (F := Ideal) (m ((c.tc : Thread nD τ).loc main_arg0)) : Cert.Spec.ST.Idx → BitVec 32) (Xk m c) := by
    rw [labels_eq m c]; exact Cert.Bridge.Pre.ok_of_pre m hpre c
  have hloss : ∀ i, Cert.ReferenceIdeal.ReadP.val_main_v18 (F := Ideal) (m ((c.tc : Thread nD τ).loc main_arg0)) (m ((c.tc : Thread nD τ).loc main_arg1)) i
      = Cert.Spec.loss0 (Tk m c) (Xk m c) := fun i => by
    rw [Cert.Bridge.RefLoss.ref_loss0 _ _ hok i, labels_eq m c]
  unfold total Cert.ReferenceIdeal.ReadP.val_main_v74 Cert.ReferenceIdeal.ReadP.val_main_v60 Cert.ReferenceIdeal.ReadP.val_main_v46 Cert.ReferenceIdeal.ReadP.val_main_v32
  rw [show Cert.ReferenceIdeal.ReadP.val_main_v18 (F := Ideal) (m ((c.tc : Thread nD τ).loc main_arg0)) (m ((c.tc : Thread nD τ).loc main_arg1))
        = (fun _ => Cert.Spec.loss0 (Tk m c) (Xk m c)) from funext hloss]

end Totals

/-! ## The claims -/

theorem frame_k : Cert.frame_Kernel := fun m ρ _ => Cert.Kernel.Frm.frame m ρ
theorem frame_ki : Cert.frame_KernelIdeal := fun m ρ _ => Cert.KernelIdeal.Frm.frame m ρ
/-- The reference is a host program: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing: there is nothing to preserve. -/
theorem preserves : Cert.preserves_Kernel_KernelIdeal := trivial

/-- From memories agreeing on the arguments both programs end with `total` of those arguments. -/
theorem algebraic : Cert.algebraic_KernelIdeal_ReferenceIdeal := by
  intro m ρ m' ρ' hpre hagree
  refine ⟨fun c => total m c, ?_, ?_⟩
  · exact (θ_run Cert.KernelIdeal.defs _ _).mono (fun _ h c => ⟨(h c).1.trans (kernel_total m c), (h c).2⟩)
      (Cert.KernelIdeal.Val.run_value m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2]
    exact ref_total m c hpre
end Cert.Proof.Asm

end
-- ==== Proof.lean ====
/-
  The certificate's claim. The kernel program computes a loss total in two parts: a Pallas kernel accumulates, over a grid of
  32 points of 128 blocks each, the weighted two-class cross-entropy of 4096 blocks of 16 · 16 · 16 voxels (per block the
  weighted mean of the per-voxel negative log-likelihoods, weight 16 for label 0 and 1 otherwise), and host lines add four
  coarser levels' sums of logarithms of looked-up table entries. The reference computes the same total with log_softmax,
  a look-up along the class axis and sums over the voxel axes. Over the extended reals, for finite logits and labels in
  {0, 1}, the per-voxel terms agree (logsumexp(a, b) − the label's logit, either way), the sums are the same sums regrouped,
  and the coarser levels are the same operations in both programs; the idealization rewrote nothing, so there is nothing to
  preserve; and each program runs to its end without writing its arguments.
-/
import proofs.«423392_j65163243815393_1_alg».proof.Defs
import proofs.«423392_j65163243815393_1_alg».proof.Proof.Gen.Kernel
import proofs.«423392_j65163243815393_1_alg».proof.Proof.Gen.KernelIdeal
import proofs.«423392_j65163243815393_1_alg».proof.Proof.Gen.ReferenceIdeal
import proofs.«423392_j65163243815393_1_alg».proof.Proof.Gen.Pre_finite_inputs
import proofs.«423392_j65163243815393_1_alg».proof.Proof.Assemble
import proofs.«423392_j65163243815393_1_alg».proof.Proof.K.Frame
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Asm.frame_k, Cert.Proof.Asm.frame_ki, Cert.Proof.Asm.frame_ri, Cert.Proof.Asm.preserves, Cert.Proof.Asm.algebraic⟩

end Cert.Proof

end
